-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x5 : Shape := ⟨2, ![4000000, 5]⟩
abbrev S4000000 : Shape := ⟨1, ![4000000]⟩
abbrev S_ : Shape := ⟨0, ![]⟩

class Facts : Prop where
  bcast_S_S4000000x5 : S_.BroadcastsInDim S4000000x5 (![] : Fin 0 → Fin S4000000x5.rank)
  reducesTo_S4000000x5_S_d0_1 : S4000000x5.ReducesTo [0, 1] S_
  h_S_ : 0 < S_.numel

variable [Facts]

def fn {F : FTy → Type} [FloatOps F] (main_arg0 : FVec F S4000000x5 .f32) (main_arg1 : IVec S4000000 32) : IVec S_ 1 :=
  let main_v0 : FVec F S4000000x5 .f32 := Host.absf main_arg0
  let main_cst : FVec F S_ .f32 := constant S_ .f32 0x7F800000#32
  let main_v1 : FVec F S4000000x5 .f32 := broadcastInDim S4000000x5 ![] bcast_S_S4000000x5 main_cst
  let main_v2 : IVec S4000000x5 1 := cmpf .olt main_v0 main_v1
  let main_c : IVec S_ 1 := constantI S_ 1 1#1
  let main_v3 : IVec S_ 1 := (fun x v => Host.reduce IntOp.andi x v reducesTo_S4000000x5_S_d0_1 h_S_) main_v2 main_c
  main_v3
-- ==== Kernel.lean ====
abbrev S4000000x5 : Shape := ⟨2, ![4000000, 5]⟩
abbrev S4000000 : Shape := ⟨1, ![4000000]⟩
abbrev S_ : Shape := ⟨0, ![]⟩
abbrev S4005888x5 : Shape := ⟨2, ![4005888, 5]⟩
abbrev S4005888 : Shape := ⟨1, ![4005888]⟩
abbrev S1x23 : Shape := ⟨2, ![1, 23]⟩
abbrev S8192x5 : Shape := ⟨2, ![8192, 5]⟩
abbrev S8192 : Shape := ⟨1, ![8192]⟩
abbrev S8192x1 : Shape := ⟨2, ![8192, 1]⟩
abbrev S5 : Shape := ⟨1, ![5]⟩
abbrev S1x5 : Shape := ⟨2, ![1, 5]⟩
abbrev S8192x4 : Shape := ⟨2, ![8192, 4]⟩
abbrev S4 : Shape := ⟨1, ![4]⟩
abbrev S1x4 : Shape := ⟨2, ![1, 4]⟩
abbrev S1 : Shape := ⟨1, ![1]⟩
abbrev S1x1 : Shape := ⟨2, ![1, 1]⟩
abbrev S23 : Shape := ⟨1, ![23]⟩

abbrev nBuf : Space → Nat
  | .hbm => 56
  | .vmem => 5
  | .smem => 0
  | _ => 0

abbrev bufTy : (tb : Table) → Fin (tcTables nBuf tb) → BufTy
  | .hbm, ⟨0, _⟩ => ⟨S4000000x5, .f32⟩
  | .hbm, ⟨1, _⟩ => ⟨S4000000, .i32⟩
  | .hbm, ⟨2, _⟩ => ⟨S_, .i32⟩
  | .hbm, ⟨3, _⟩ => ⟨S_, .f32⟩
  | .hbm, ⟨4, _⟩ => ⟨S4005888x5, .f32⟩
  | .hbm, ⟨5, _⟩ => ⟨S_, .i32⟩
  | .hbm, ⟨6, _⟩ => ⟨S_, .i32⟩
  | .hbm, ⟨7, _⟩ => ⟨S4005888, .i32⟩
  | .hbm, ⟨8, _⟩ => ⟨S1x23, .f32⟩
  | .hbm, ⟨9, _⟩ => ⟨S23, .f32⟩
  | .hbm, ⟨10, _⟩ => ⟨S5, .f32⟩
  | .hbm, ⟨11, _⟩ => ⟨S5, .f32⟩
  | .hbm, ⟨12, _⟩ => ⟨S4, .f32⟩
  | .hbm, ⟨13, _⟩ => ⟨S4, .f32⟩
  | .hbm, ⟨14, _⟩ => ⟨S4, .f32⟩
  | .hbm, ⟨15, _⟩ => ⟨S1, .f32⟩
  | .hbm, ⟨16, _⟩ => ⟨S_, .f32⟩
  | .hbm, ⟨17, _⟩ => ⟨S4, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S_, .f32⟩
  | .hbm, ⟨23, _⟩ => ⟨S4, .f32⟩
  | .hbm, ⟨24, _⟩ => ⟨S4, .f32⟩
  | .hbm, ⟨25, _⟩ => ⟨S4, .f32⟩
  | .hbm, ⟨26, _⟩ => ⟨S4, .f32⟩
  | .hbm, ⟨27, _⟩ => ⟨S4, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S4, .f32⟩
  | .hbm, ⟨35, _⟩ => ⟨S_, .f32⟩
  | .hbm, ⟨36, _⟩ => ⟨S_, .f32⟩
  | .hbm, ⟨37, _⟩ => ⟨S4, .f32⟩
  | .hbm, ⟨38, _⟩ => ⟨S4, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S8192x5, .f32⟩
  | .local _ .vmem, ⟨1, _⟩ => ⟨S8192x5, .f32⟩
  | .local _ .vmem, ⟨2, _⟩ => ⟨S8192, .i32⟩
  | .local _ .vmem, ⟨3, _⟩ => ⟨S8192, .i32⟩
  | .local _ .vmem, ⟨4, _⟩ => ⟨S1x23, .f32⟩
  | _, _ => ⟨S4000000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_call1_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_cst_9 : Ref sig .tc := ⟨.hbm, 52, rfl⟩
abbrev main_call2_v0 : Ref sig .tc := ⟨.hbm, 53, rfl⟩
abbrev main_v37 : Ref sig .tc := ⟨.hbm, 54, rfl⟩
abbrev main_v38 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x23 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  pads_S4000000x5_S4005888x5_058880_000 : S4000000x5.Pads (![0, 0] : Fin 2 → Nat) ![5888, 0] ![0, 0] S4005888x5
  h_S_ : 0 < S_.numel
  pads_S4000000_S4005888_058880 : S4000000.Pads (![0] : Fin 1 → Nat) ![5888] ![0] S4005888
  inb_S1x23_S1x23_0_0 : ∀ a, (![0, 0] : Fin 2 → Nat) a + S1x23.size a ≤ S1x23.size a
  h_S1x23 : 0 < S1x23.numel
  inb_S8192x5_S8192x5_0_0 : ∀ a, (![0, 0] : Fin 2 → Nat) a + S8192x5.size a ≤ S8192x5.size a
  h_S8192x5 : 0 < S8192x5.numel
  shapeCasts_S8192x5_S8192x5 : S8192x5.ShapeCasts S8192x5
  inb_S8192_S8192_0 : ∀ a, (![0] : Fin 1 → Nat) a + S8192.size a ≤ S8192.size a
  h_S8192 : 0 < S8192.numel
  shapeCasts_S8192_S8192 : S8192.ShapeCasts S8192
  reduces_S8192x5_S8192 : S8192x5.Reduces [1] S8192
  shapeCasts_S8192_S8192x1 : S8192.ShapeCasts S8192x1
  broadcasts_S8192x1_S8192x5 : S8192x1.Broadcasts S8192x5
  iota_S8192x5_d1_w32 : S8192x5.Iotas .tc 32 [1]
  natLt_1_32 : 1 < 32
  slices_S8192x5_o0_4_S8192x1 : S8192x5.Slices ![0, 4] S8192x1
  reduces_S8192x5_S5 : S8192x5.Reduces [0] S5
  shapeCasts_S5_S1x5 : S5.ShapeCasts S1x5
  slices_S8192x5_o0_0_S8192x4 : S8192x5.Slices ![0, 0] S8192x4
  broadcasts_S8192x1_S8192x4 : S8192x1.Broadcasts S8192x4
  reduces_S8192x4_S4 : S8192x4.Reduces [0] S4
  shapeCasts_S4_S1x4 : S4.ShapeCasts S1x4
  reduces_S8192x1_S1 : S8192x1.Reduces [0] S1
  shapeCasts_S1_S1x1 : S1.ShapeCasts S1x1
  concatenates_S1x5_S1x5_S1x4_S1x4_S1x4_S1x1_S1x23_d1 : Shape.Concatenates [S1x5, S1x5, S1x4, S1x4, S1x4, S1x1] S1x23 1
  shapeCasts_S1x23_S1x23 : S1x23.ShapeCasts S1x23
  shapeCasts_S1x23_S23 : S1x23.ShapeCasts S23
  slices_S23_S5_0 : S23.Slices ![0] S5
  slices_S23_S5_5 : S23.Slices ![5] S5
  slices_S23_S4_10 : S23.Slices ![10] S4
  slices_S23_S4_14 : S23.Slices ![14] S4
  slices_S23_S4_18 : S23.Slices ![18] S4
  slices_S23_S1_22 : S23.Slices ![22] S1
  shapeCasts_S1_S_ : S1.ShapeCasts S_
  slices_S5_S4_0 : S5.Slices ![0] S4
  bcast_S_S4 : S_.BroadcastsInDim S4 (![] : Fin 0 → Fin S4.rank)
  reducesTo_S4_S_d0 : S4.ReducesTo [0] S_
  slices_S5_S1_4 : S5.Slices ![4] S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x5.size a ≤ S4005888x5.size a
  hwx0_0 : ∀ i : grid0.Coords, EltTy.bits .f32 = 32 ∨ (Rect.block (s := S4005888x5) S8192x5.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S4005888.size a
  hwx0_1 : ∀ i : grid0.Coords, EltTy.bits .i32 = 32 ∨ (Rect.block (s := S4005888) S8192.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x23.size a ≤ S1x23.size a
  hwx0_2 : ∀ i : grid0.Coords, EltTy.bits .f32 = 32 ∨ (Rect.block (s := S1x23) S1x23.size (cc0_transform_2 i) (hinb0_2 i)).WholeWords (EltTy.packing .f32)

variable [Facts₀]

abbrev win0_0 : Pipeline.Window sig grid0 :=
  Pipeline.Window.ofSpec (Memref.whole main_v0) S8192x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x23.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x5 : Shape := ⟨2, ![4000000, 5]⟩
abbrev S4000000 : Shape := ⟨1, ![4000000]⟩
abbrev S_ : Shape := ⟨0, ![]⟩
abbrev S4000000x1 : Shape := ⟨2, ![4000000, 1]⟩
abbrev S5 : Shape := ⟨1, ![5]⟩
abbrev S4 : Shape := ⟨1, ![4]⟩
abbrev S4000000x1x1 : Shape := ⟨3, ![4000000, 1, 1]⟩
abbrev S1 : Shape := ⟨1, ![1]⟩
abbrev S1x1x1 : Shape := ⟨3, ![1, 1, 1]⟩

abbrev nBuf : Space → Nat
  | .hbm => 223
  | .vmem => 0
  | .smem => 0
  | _ => 0

abbrev hbmTy0_0 (i : Nat) : BufTy := match i % 128 with
  | 0 => ⟨S4000000x5, .f32⟩
  | 1 => ⟨S4000000, .i32⟩
  | 2 => ⟨S_, .f32⟩
  | 3 => ⟨S4000000, .f32⟩
  | 4 => ⟨S_, .f32⟩
  | 5 => ⟨S4000000, .f32⟩
  | 6 => ⟨S4000000, .f32⟩
  | 7 => ⟨S4000000x1, .f32⟩
  | 8 => ⟨S4000000x5, .f32⟩
  | 9 => ⟨S4000000x5, .f32⟩
  | 10 => ⟨S4000000x5, .f32⟩
  | 11 => ⟨S_, .f32⟩
  | 12 => ⟨S4000000, .f32⟩
  | 13 => ⟨S4000000x1, .f32⟩
  | 14 => ⟨S4000000x5, .f32⟩
  | 15 => ⟨S4000000x5, .f32⟩
  | 16 => ⟨S4000000x1, .f32⟩
  | 17 => ⟨S4000000, .f32⟩
  | 18 => ⟨S_, .f32⟩
  | 19 => ⟨S4000000, .f32⟩
  | 20 => ⟨S4000000, .f32⟩
  | 21 => ⟨S4000000, .f32⟩
  | 22 => ⟨S_, .f32⟩
  | 23 => ⟨S4000000, .f32⟩
  | 24 => ⟨S_, .f32⟩
  | 25 => ⟨S5, .f32⟩
  | 26 => ⟨S4000000x1, .i32⟩
  | 27 => ⟨S5, .f32⟩
  | 28 => ⟨S4, .f32⟩
  | 29 => ⟨S_, .f32⟩
  | 30 => ⟨S4, .f32⟩
  | 31 => ⟨S4, .f32⟩
  | 32 => ⟨S4000000x1, .i32⟩
  | 33 => ⟨S_, .i32⟩
  | 34 => ⟨S4000000x1, .i32⟩
  | 35 => ⟨S4000000x1, .i1⟩
  | 36 => ⟨S_, .i32⟩
  | 37 => ⟨S4000000x1, .i32⟩
  | 38 => ⟨S4000000x1, .i32⟩
  | 39 => ⟨S4000000x1, .i32⟩
  | 40 => ⟨S4000000x1x1, .i32⟩
  | 41 => ⟨S1, .i32⟩
  | 42 => ⟨S_, .i32⟩
  | 43 => ⟨S4000000x1x1, .i32⟩
  | 44 => ⟨S4000000x1x1, .i1⟩
  | 45 => ⟨S1x1x1, .i32⟩
  | 46 => ⟨S4000000x1x1, .i32⟩
  | 47 => ⟨S4000000x1x1, .i1⟩
  | 48 => ⟨S4000000x1x1, .i1⟩
  | 49 => ⟨S_, .i1⟩
  | 50 => ⟨S4000000x1, .i1⟩
  | 51 => ⟨S4000000x1, .f32⟩
  | 52 => ⟨S_, .f32⟩
  | 53 => ⟨S4000000x1, .f32⟩
  | 54 => ⟨S4000000x1, .f32⟩
  | 55 => ⟨S4000000, .f32⟩
  | 56 => ⟨S_, .f32⟩
  | 57 => ⟨S4000000, .f32⟩
  | 58 => ⟨S4000000, .f32⟩
  | 59 => ⟨S4000000, .f32⟩
  | 60 => ⟨S4000000, .f32⟩
  | 61 => ⟨S_, .f32⟩
  | 62 => ⟨S5, .f32⟩
  | 63 => ⟨S4000000x1, .i32⟩
  | 64 => ⟨S5, .f32⟩
  | 65 => ⟨S4000000, .f32⟩
  | 66 => ⟨S_, .f32⟩
  | 67 => ⟨S5, .f32⟩
  | 68 => ⟨S4000000x1, .i32⟩
  | 69 => ⟨S5, .f32⟩
  | 70 => ⟨S4, .f32⟩
  | 71 => ⟨S4000000x1, .f32⟩
  | 72 => ⟨S4000000, .f32⟩
  | 73 => ⟨S_, .f32⟩
  | 74 => ⟨S4000000, .f32⟩
  | 75 => ⟨S4000000, .i1⟩
  | 76 => ⟨S_, .i32⟩
  | 77 => ⟨S4000000, .i32⟩
  | 78 => ⟨S4000000, .i1⟩
  | 79 => ⟨S4000000, .i1⟩
  | 80 => ⟨S4000000, .f32⟩
  | 81 => ⟨S_, .f32⟩
  | 82 => ⟨S_, .f32⟩
  | 83 => ⟨S4000000, .f32⟩
  | 84 => ⟨S4000000x1, .f32⟩
  | 85 => ⟨S4000000, .f32⟩
  | 86 => ⟨S4000000, .f32⟩
  | 87 => ⟨S_, .f32⟩
  | 88 => ⟨S_, .f32⟩
  | 89 => ⟨S4000000, .f32⟩
  | 90 => ⟨S4000000, .f32⟩
  | 91 => ⟨S_, .f32⟩
  | 92 => ⟨S_, .f32⟩
  | 93 => ⟨S_, .f32⟩
  | 94 => ⟨S_, .f32⟩
  | 95 => ⟨S_, .f32⟩
  | 96 => ⟨S4000000x1, .f32⟩
  | 97 => ⟨S4000000, .f32⟩
  | 98 => ⟨S_, .f32⟩
  | 99 => ⟨S4000000, .f32⟩
  | 100 => ⟨S4000000, .i1⟩
  | 101 => ⟨S_, .i32⟩
  | 102 => ⟨S4000000, .i32⟩
  | 103 => ⟨S4000000, .i1⟩
  | 104 => ⟨S4000000, .i1⟩
  | 105 => ⟨S4000000, .f32⟩
  | 106 => ⟨S_, .f32⟩
  | 107 => ⟨S_, .f32⟩
  | 108 => ⟨S4000000, .f32⟩
  | 109 => ⟨S4000000x1, .f32⟩
  | 110 => ⟨S4000000, .f32⟩
  | 111 => ⟨S4000000, .f32⟩
  | 112 => ⟨S_, .f32⟩
  | 113 => ⟨S_, .f32⟩
  | 114 => ⟨S4000000, .f32⟩
  | 115 => ⟨S4000000, .f32⟩
  | 116 => ⟨S_, .f32⟩
  | 117 => ⟨S_, .f32⟩
  | 118 => ⟨S_, .f32⟩
  | 119 => ⟨S_, .f32⟩
  | 120 => ⟨S_, .f32⟩
  | 121 => ⟨S4000000x1, .f32⟩
  | 122 => ⟨S4000000, .f32⟩
  | 123 => ⟨S_, .f32⟩
  | 124 => ⟨S4000000, .f32⟩
  | 125 => ⟨S4000000, .i1⟩
  | 126 => ⟨S_, .i32⟩
  | 127 => ⟨S4000000, .i32⟩
  | _ => ⟨S4000000x5, .f32⟩

abbrev hbmTy0_1 (i : Nat) : BufTy := match i % 128 with
  | 0 => ⟨S4000000, .i1⟩
  | 1 => ⟨S4000000, .i1⟩
  | 2 => ⟨S4000000, .f32⟩
  | 3 => ⟨S_, .f32⟩
  | 4 => ⟨S_, .f32⟩
  | 5 => ⟨S4000000, .f32⟩
  | 6 => ⟨S4000000x1, .f32⟩
  | 7 => ⟨S4000000, .f32⟩
  | 8 => ⟨S4000000, .f32⟩
  | 9 => ⟨S_, .f32⟩
  | 10 => ⟨S_, .f32⟩
  | 11 => ⟨S4000000, .f32⟩
  | 12 => ⟨S4000000, .f32⟩
  | 13 => ⟨S_, .f32⟩
  | 14 => ⟨S_, .f32⟩
  | 15 => ⟨S_, .f32⟩
  | 16 => ⟨S_, .f32⟩
  | 17 => ⟨S_, .f32⟩
  | 18 => ⟨S4000000x1, .f32⟩
  | 19 => ⟨S4000000, .f32⟩
  | 20 => ⟨S_, .f32⟩
  | 21 => ⟨S4000000, .f32⟩
  | 22 => ⟨S4000000, .i1⟩
  | 23 => ⟨S_, .i32⟩
  | 24 => ⟨S4000000, .i32⟩
  | 25 => ⟨S4000000, .i1⟩
  | 26 => ⟨S4000000, .i1⟩
  | 27 => ⟨S4000000, .f32⟩
  | 28 => ⟨S_, .f32⟩
  | 29 => ⟨S_, .f32⟩
  | 30 => ⟨S4000000, .f32⟩
  | 31 => ⟨S4000000x1, .f32⟩
  | 32 => ⟨S4000000, .f32⟩
  | 33 => ⟨S4000000, .f32⟩
  | 34 => ⟨S_, .f32⟩
  | 35 => ⟨S_, .f32⟩
  | 36 => ⟨S4000000, .f32⟩
  | 37 => ⟨S4000000, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S4000000x5, .f32⟩
  | 45 => ⟨S4000000x5, .i1⟩
  | 46 => ⟨S_, .i1⟩
  | 47 => ⟨S4000000, .i1⟩
  | 48 => ⟨S_, .i32⟩
  | 49 => ⟨S4000000, .i32⟩
  | 50 => ⟨S4000000, .i1⟩
  | 51 => ⟨S4000000, .i1⟩
  | 52 => ⟨S4000000, .f32⟩
  | 53 => ⟨S_, .f32⟩
  | 54 => ⟨S_, .f32⟩
  | 55 => ⟨S4000000, .f32⟩
  | 56 => ⟨S4000000, .f32⟩
  | 57 => ⟨S_, .f32⟩
  | 58 => ⟨S_, .f32⟩
  | 59 => ⟨S1, .f32⟩
  | 60 => ⟨S_, .f32⟩
  | 61 => ⟨S_, .f32⟩
  | 62 => ⟨S_, .f32⟩
  | 63 => ⟨S_, .f32⟩
  | 64 => ⟨S1, .f32⟩
  | 65 => ⟨S1, .f32⟩
  | 66 => ⟨S1, .f32⟩
  | 67 => ⟨S1, .f32⟩
  | 68 => ⟨S4, .f32⟩
  | 69 => ⟨S4, .f32⟩
  | 70 => ⟨S_, .f32⟩
  | 71 => ⟨S4, .f32⟩
  | 72 => ⟨S4, .f32⟩
  | 73 => ⟨S4, .f32⟩
  | 74 => ⟨S4, .f32⟩
  | 75 => ⟨S4, .f32⟩
  | 76 => ⟨S_, .f32⟩
  | 77 => ⟨S_, .f32⟩
  | 78 => ⟨S4, .f32⟩
  | 79 => ⟨S_, .f32⟩
  | 80 => ⟨S_, .f32⟩
  | 81 => ⟨S4, .f32⟩
  | 82 => ⟨S4, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .i1⟩
  | 91 => ⟨S_, .f32⟩
  | 92 => ⟨S_, .f32⟩
  | 93 => ⟨S_, .f32⟩
  | 94 => ⟨S_, .f32⟩
  | _ => ⟨S4000000x5, .f32⟩

abbrev hbmTy (i : Nat) : BufTy := match i / 128 with
  | 0 => hbmTy0_0 i
  | 1 => hbmTy0_1 i
  | _ => ⟨S4000000x5, .f32⟩

abbrev bufTy : (tb : Table) → Fin (tcTables nBuf tb) → BufTy
  | .hbm, ⟨i, _⟩ => hbmTy i
  | _, _ => ⟨S4000000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_c : Ref sig .tc := ⟨.hbm, 33, rfl⟩
abbrev main_call0_v0 : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_c_1 : Ref sig .tc := ⟨.hbm, 41, rfl⟩
abbrev main_call0_c_2 : Ref sig .tc := ⟨.hbm, 42, rfl⟩
abbrev main_call0_v6 : Ref sig .tc := ⟨.hbm, 43, rfl⟩
abbrev main_call0_v7 : Ref sig .tc := ⟨.hbm, 44, rfl⟩
abbrev main_call0_v8 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_3 : Ref sig .tc := ⟨.hbm, 49, rfl⟩
abbrev main_call0_v12 : Ref sig .tc := ⟨.hbm, 50, rfl⟩
abbrev main_call0_v13 : Ref sig .tc := ⟨.hbm, 51, rfl⟩
abbrev main_call0_cst : Ref sig .tc := ⟨.hbm, 52, rfl⟩
abbrev main_call0_v14 : Ref sig .tc := ⟨.hbm, 53, rfl⟩
abbrev main_v24 : Ref sig .tc := ⟨.hbm, 54, rfl⟩
abbrev main_v25 : Ref sig .tc := ⟨.hbm, 55, rfl⟩
abbrev main_cst_6 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_7 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_cst_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_cst_9 : Ref sig .tc := ⟨.hbm, 73, rfl⟩
abbrev main_v40 : Ref sig .tc := ⟨.hbm, 74, rfl⟩
abbrev main_v41 : Ref sig .tc := ⟨.hbm, 75, rfl⟩
abbrev main_c : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_cst_11 : Ref sig .tc := ⟨.hbm, 87, rfl⟩
abbrev main_call1_v0 : Ref sig .tc := ⟨.hbm, 88, rfl⟩
abbrev main_call1_v1 : Ref sig .tc := ⟨.hbm, 89, rfl⟩
abbrev main_v51 : Ref sig .tc := ⟨.hbm, 90, rfl⟩
abbrev main_cst_12 : Ref sig .tc := ⟨.hbm, 91, rfl⟩
abbrev main_v52 : Ref sig .tc := ⟨.hbm, 92, rfl⟩
abbrev main_cst_13 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_cst_14 : Ref sig .tc := ⟨.hbm, 98, rfl⟩
abbrev main_v57 : Ref sig .tc := ⟨.hbm, 99, rfl⟩
abbrev main_v58 : Ref sig .tc := ⟨.hbm, 100, rfl⟩
abbrev main_c_15 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_cst_16 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_cst_17 : Ref sig .tc := ⟨.hbm, 112, rfl⟩
abbrev main_call2_v0 : Ref sig .tc := ⟨.hbm, 113, rfl⟩
abbrev main_call2_v1 : Ref sig .tc := ⟨.hbm, 114, rfl⟩
abbrev main_v68 : Ref sig .tc := ⟨.hbm, 115, rfl⟩
abbrev main_cst_18 : Ref sig .tc := ⟨.hbm, 116, rfl⟩
abbrev main_v69 : Ref sig .tc := ⟨.hbm, 117, rfl⟩
abbrev main_cst_19 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_cst_20 : Ref sig .tc := ⟨.hbm, 123, rfl⟩
abbrev main_v74 : Ref sig .tc := ⟨.hbm, 124, rfl⟩
abbrev main_v75 : Ref sig .tc := ⟨.hbm, 125, rfl⟩
abbrev main_c_21 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_22 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_cst_23 : Ref sig .tc := ⟨.hbm, 137, rfl⟩
abbrev main_call3_v0 : Ref sig .tc := ⟨.hbm, 138, rfl⟩
abbrev main_call3_v1 : Ref sig .tc := ⟨.hbm, 139, rfl⟩
abbrev main_v85 : Ref sig .tc := ⟨.hbm, 140, rfl⟩
abbrev main_cst_24 : Ref sig .tc := ⟨.hbm, 141, rfl⟩
abbrev main_v86 : Ref sig .tc := ⟨.hbm, 142, rfl⟩
abbrev main_cst_25 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_cst_26 : Ref sig .tc := ⟨.hbm, 148, rfl⟩
abbrev main_v91 : Ref sig .tc := ⟨.hbm, 149, rfl⟩
abbrev main_v92 : Ref sig .tc := ⟨.hbm, 150, rfl⟩
abbrev main_c_27 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_cst_28 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_29 : Ref sig .tc := ⟨.hbm, 162, rfl⟩
abbrev main_call4_v0 : Ref sig .tc := ⟨.hbm, 163, rfl⟩
abbrev main_call4_v1 : Ref sig .tc := ⟨.hbm, 164, rfl⟩
abbrev main_v102 : Ref sig .tc := ⟨.hbm, 165, rfl⟩
abbrev main_cst_30 : Ref sig .tc := ⟨.hbm, 166, rfl⟩
abbrev main_v103 : Ref sig .tc := ⟨.hbm, 167, rfl⟩
abbrev main_cst_31 : Ref sig .tc := ⟨.hbm, 168, rfl⟩
abbrev main_v104 : Ref sig .tc := ⟨.hbm, 169, rfl⟩
abbrev main_v105 : Ref sig .tc := ⟨.hbm, 170, rfl⟩
abbrev main_cst_32 : Ref sig .tc := ⟨.hbm, 171, rfl⟩
abbrev main_v106 : Ref sig .tc := ⟨.hbm, 172, rfl⟩
abbrev main_v107 : Ref sig .tc := ⟨.hbm, 173, rfl⟩
abbrev main_c_33 : Ref sig .tc := ⟨.hbm, 174, rfl⟩
abbrev main_v108 : Ref sig .tc := ⟨.hbm, 175, rfl⟩
abbrev main_c_34 : Ref sig .tc := ⟨.hbm, 176, rfl⟩
abbrev main_v109 : Ref sig .tc := ⟨.hbm, 177, rfl⟩
abbrev main_v110 : Ref sig .tc := ⟨.hbm, 178, rfl⟩
abbrev main_v111 : Ref sig .tc := ⟨.hbm, 179, rfl⟩
abbrev main_v112 : Ref sig .tc := ⟨.hbm, 180, rfl⟩
abbrev main_cst_35 : Ref sig .tc := ⟨.hbm, 181, rfl⟩
abbrev main_call5_v0 : Ref sig .tc := ⟨.hbm, 182, rfl⟩
abbrev main_call5_v1 : Ref sig .tc := ⟨.hbm, 183, rfl⟩
abbrev main_v113 : Ref sig .tc := ⟨.hbm, 184, rfl⟩
abbrev main_cst_36 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_cst_37 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_cst_38 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_v128 : Ref sig .tc := ⟨.hbm, 202, rfl⟩
abbrev main_v129 : Ref sig .tc := ⟨.hbm, 203, rfl⟩
abbrev main_cst_39 : Ref sig .tc := ⟨.hbm, 204, rfl⟩
abbrev main_v130 : Ref sig .tc := ⟨.hbm, 205, rfl⟩
abbrev main_v131 : Ref sig .tc := ⟨.hbm, 206, rfl⟩
abbrev main_cst_40 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_cst_41 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_cst_42 : Ref sig .tc := ⟨.hbm, 215, rfl⟩
abbrev main_v138 : Ref sig .tc := ⟨.hbm, 216, rfl⟩
abbrev main_cst_43 : Ref sig .tc := ⟨.hbm, 217, rfl⟩
abbrev main_v139 : Ref sig .tc := ⟨.hbm, 218, rfl⟩
abbrev main_cst_44 : Ref sig .tc := ⟨.hbm, 219, rfl⟩
abbrev main_call6_v0 : Ref sig .tc := ⟨.hbm, 220, rfl⟩
abbrev main_v140 : Ref sig .tc := ⟨.hbm, 221, rfl⟩
abbrev main_v141 : Ref sig .tc := ⟨.hbm, 222, rfl⟩

abbrev nD : Nat := 1
abbrev τ : Topo := Topo.v7x

variable {F : FTy → Type} [FloatOps F]

class Facts₀ : Prop where
  reducesTo_S4000000x5_S4000000_d1 : S4000000x5.ReducesTo [1] S4000000
  h_S_ : 0 < S_.numel
  bcast_S_S4000000 : S_.BroadcastsInDim S4000000 (![] : Fin 0 → Fin S4000000.rank)
  bcast_S4000000_S4000000x1_0 : S4000000.BroadcastsInDim S4000000x1 (![0] : Fin 1 → Fin S4000000x1.rank)
  bcast_S4000000x1_S4000000x5_0_1 : S4000000x1.BroadcastsInDim S4000000x5 (![0, 1] : Fin 2 → Fin S4000000x5.rank)
  slices_S4000000x5_S4000000x1_0_4 : S4000000x5.Slices ![0, 4] S4000000x1
  shapeCasts_S4000000x1_S4000000 : S4000000x1.ShapeCasts S4000000
  bcast_S_S5 : S_.BroadcastsInDim S5 (![] : Fin 0 → Fin S5.rank)
  slices_S5_S4_0 : S5.Slices ![0] S4
  bcast_S_S4 : S_.BroadcastsInDim S4 (![] : Fin 0 → Fin S4.rank)
  bcast_S_S4000000x1 : S_.BroadcastsInDim S4000000x1 (![] : Fin 0 → Fin S4000000x1.rank)
  shapeCasts_S4000000x1_S4000000x1x1 : S4000000x1.ShapeCasts S4000000x1x1
  bcast_S_S4000000x1x1 : S_.BroadcastsInDim S4000000x1x1 (![] : Fin 0 → Fin S4000000x1x1.rank)
  bcast_S1_S1x1x1_2 : S1.BroadcastsInDim S1x1x1 (![2] : Fin 1 → Fin S1x1x1.rank)
  bcast_S1x1x1_S4000000x1x1_0_1_2 : S1x1x1.BroadcastsInDim S4000000x1x1 (![0, 1, 2] : Fin 3 → Fin S4000000x1x1.rank)
  reducesTo_S4000000x1x1_S4000000x1_d2 : S4000000x1x1.ReducesTo [2] S4000000x1
  slices_S4000000x5_S4000000x1_0_0 : S4000000x5.Slices ![0, 0] S4000000x1
  reducesTo_S4000000_S_d0 : S4000000.ReducesTo [0] S_
  slices_S4000000x5_S4000000x1_0_1 : S4000000x5.Slices ![0, 1] S4000000x1
  slices_S4000000x5_S4000000x1_0_2 : S4000000x5.Slices ![0, 2] S4000000x1
  slices_S4000000x5_S4000000x1_0_3 : S4000000x5.Slices ![0, 3] S4000000x1
  bcast_S_S4000000x5 : S_.BroadcastsInDim S4000000x5 (![] : Fin 0 → Fin S4000000x5.rank)
  slices_S5_S1_4 : S5.Slices ![4] S1
  shapeCasts_S1_S_ : S1.ShapeCasts S_
  bcast_S_S1 : S_.BroadcastsInDim S1 (![] : Fin 0 → Fin S1.rank)
  concatenates_S1_S1_S1_S1_S4_d0 : Shape.Concatenates [S1, S1, S1, S1] S4 0
  reducesTo_S4_S_d0 : S4.ReducesTo [0] S_
  scatter_S5_S4000000x1_S4000000_n_0_0_1_wf : ScatterDims.WF S5 S4000000x1 S4000000 [] [0] [0] 1
  gather_S4000000x5_S4000000x1x1_S4000000x1_n_1_0_0_1_2_11_wf : GatherDims.WF S4000000x5 S4000000x1x1 S4000000x1 [] [1] [0] [1] [0] 2 ![1, 1]

variable [Facts₀]

def scatter_S5_S4000000x1_S4000000_n_0_0_1 : ScatterDims S5 S4000000x1 S4000000 where
  updateWindowDims := []
  insertedWindowDims := [0]
  scatterDimsToOperandDims := [0]
  indexVectorDim := 1
  wf := scatter_S5_S4000000x1_S4000000_n_0_0_1_wf
def gather_S4000000x5_S4000000x1x1_S4000000x1_n_1_0_0_1_2_11 : GatherDims S4000000x5 S4000000x1x1 S4000000x1 where
  offsetDims := []
  collapsedSliceDims := [1]
  operandBatchingDims := [0]
  startIndicesBatchingDims := [0]
  startIndexMap := [1]
  indexVectorDim := 2
  sliceSizes := ![1, 1]
  wf := gather_S4000000x5_S4000000x1x1_S4000000x1_n_1_0_0_1_2_11_wf

class Facts : Prop extends Facts₀ where

variable [Facts]
-- ==== Proof.RefStages.lean ====
/- The reference's run, read in five stretches. Its 221 operations are cut where few values cross: after the in-bounds test
  of the gather (operations 0 … 48), after the gather's select (49 … 52), before the join of the four confidence quotients
  (53 … 193), the join itself (194), and the scalar tail (195 … 220). After each stretch the buffers a later stretch reads hold
  the stage values of the operation-by-operation reading; a buffer no operation of a stretch writes keeps its contents.
-/
import proofs.«420255_j67396626809312_1_alg».proof.Proof.RefRead
import Idealize.ShloMosaic.Lib.Pipeline.Frame

noncomputable section

namespace Cert.ReferenceIdeal.Stages

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- Two folds of one operation over equal operands from equal initial values are equal. -/
theorem reduce_congr {α : Type} {s t u : Shape} {axes : List (Fin s.rank)} (f : α → α → α) {x x' : s.Idx → α} {v v' : u.Idx → α}
    (h : s.ReducesTo axes t) (hu : 0 < u.numel) (hx : x = x') (hv : v = v') :
    Host.reduce f x v h hu = Host.reduce f x' v' h hu := by
  subst hx; subst hv; rfl

/-! ## The five stretches -/

/-- Operations 0 … 48 of @main. -/
abbrev part0 : List (HloOp τ sig (Elt F)) :=
  [ nullary main_cst (constant S_ .f32 0xFF800000#32),
    binary main_arg0 main_cst main_v0 ((fun x v => Host.reduce FloatOps.maximumf x v reducesTo_S4000000x5_S4000000_d1 h_S_) : (⟨S4000000x5, .f32⟩ : BufTy).Contents (Elt F) → (⟨S_, .f32⟩ : BufTy).Contents (Elt F) → (⟨S4000000, .f32⟩ : BufTy).Contents (Elt F)),
    nullary main_cst_0 (constant S_ .f32 0xFF800000#32),
    unary main_cst_0 main_v1 (broadcastInDim S4000000 ![] bcast_S_S4000000 : (⟨S_, .f32⟩ : BufTy).Contents (Elt F) → (⟨S4000000, .f32⟩ : BufTy).Contents (Elt F)),
    binary main_v1 main_v0 main_v2 (maximumf : (⟨S4000000, .f32⟩ : BufTy).Contents (Elt F) → (⟨S4000000, .f32⟩ : BufTy).Contents (Elt F) → (⟨S4000000, .f32⟩ : BufTy).Contents (Elt F)),
    unary main_v2 main_v3 (broadcastInDim S4000000x1 ![0] bcast_S4000000_S4000000x1_0 : (⟨S4000000, .f32⟩ : BufTy).Contents (Elt F) → (⟨S4000000x1, .f32⟩ : BufTy).Contents (Elt F)),
    unary main_v3 main_v4 (broadcastInDim S4000000x5 ![0, 1] bcast_S4000000x1_S4000000x5_0_1 : (⟨S4000000x1, .f32⟩ : BufTy).Contents (Elt F) → (⟨S4000000x5, .f32⟩ : BufTy).Contents (Elt F)),
    binary main_arg0 main_v4 main_v5 (subf : (⟨S4000000x5, .f32⟩ : BufTy).Contents (Elt F) → (⟨S4000000x5, .f32⟩ : BufTy).Contents (Elt F) → (⟨S4000000x5, .f32⟩ : BufTy).Contents (Elt F)),
    unary main_v5 main_v6 (Host.exp : (⟨S4000000x5, .f32⟩ : BufTy).Contents (Elt F) → (⟨S4000000x5, .f32⟩ : BufTy).Contents (Elt F)),
    nullary main_cst_1 (constant S_ .f32 0x00000000#32),
    binary main_v6 main_cst_1 main_v7 ((fun x v => Host.reduceAdd x v reducesTo_S4000000x5_S4000000_d1 h_S_) : (⟨S4000000x5, .f32⟩ : BufTy).Contents (Elt F) → (⟨S_, .f32⟩ : BufTy).Contents (Elt F) → (⟨S4000000, .f32⟩ : BufTy).Contents (Elt F)),
    unary main_v7 main_v8 (broadcastInDim S4000000x1 ![0] bcast_S4000000_S4000000x1_0 : (⟨S4000000, .f32⟩ : BufTy).Contents (Elt F) → (⟨S4000000x1, .f32⟩ : BufTy).Contents (Elt F)),
    unary main_v8 main_v9 (broadcastInDim S4000000x5 ![0, 1] bcast_S4000000x1_S4000000x5_0_1 : (⟨S4000000x1, .f32⟩ : BufTy).Contents (Elt F) → (⟨S4000000x5, .f32⟩ : BufTy).Contents (Elt F)),
    binary main_v6 main_v9 main_v10 (Host.divf : (⟨S4000000x5, .f32⟩ : BufTy).Contents (Elt F) → (⟨S4000000x5, .f32⟩ : BufTy).Contents (Elt F) → (⟨S4000000x5, .f32⟩ : BufTy).Contents (Elt F)),
    unary main_v10 main_v11 ((extractStridedSlice S4000000x1 ![0, 4] · slices_S4000000x5_S4000000x1_0_4) : (⟨S4000000x5, .f32⟩ : BufTy).Contents (Elt F) → (⟨S4000000x1, .f32⟩ : BufTy).Contents (Elt F)),
    reshape main_v11 main_v12 rfl shapeCasts_S4000000x1_S4000000,
    nullary main_cst_2 (constant S_ .f32 0x3089705F#32),
    unary main_cst_2 main_v13 (broadcastInDim S4000000 ![] bcast_S_S4000000 : (⟨S_, .f32⟩ : BufTy).Contents (Elt F) → (⟨S4000000, .f32⟩ : BufTy).Contents (Elt F)),
    binary main_v12 main_v13 main_v14 (addf : (⟨S4000000, .f32⟩ : BufTy).Contents (Elt F) → (⟨S4000000, .f32⟩ : BufTy).Contents (Elt F) → (⟨S4000000, .f32⟩ : BufTy).Contents (Elt F)),
    unary main_v14 main_v15 (Host.log : (⟨S4000000, .f32⟩ : BufTy).Contents (Elt F) → (⟨S4000000, .f32⟩ : BufTy).Contents (Elt F)),
    nullary main_cst_3 (constant S_ .f32 0x3F800000#32),
    unary main_cst_3 main_v16 (broadcastInDim S4000000 ![] bcast_S_S4000000 : (⟨S_, .f32⟩ : BufTy).Contents (Elt F) → (⟨S4000000, .f32⟩ : BufTy).Contents (Elt F)),
    nullary main_cst_4 (constant S_ .f32 0x00000000#32),
    unary main_cst_4 main_v17 (broadcastInDim S5 ![] bcast_S_S5 : (⟨S_, .f32⟩ : BufTy).Contents (Elt F) → (⟨S5, .f32⟩ : BufTy).Contents (Elt F)),
    unary main_arg1 main_v18 (broadcastInDim S4000000x1 ![0] bcast_S4000000_S4000000x1_0 : (⟨S4000000, .i32⟩ : BufTy).Contents (Elt F) → (⟨S4000000x1, .i32⟩ : BufTy).Contents (Elt F)),
    ternary main_v17 main_v18 main_v16 main_v19 ((fun x i u => Host.scatterAdd scatter_S5_S4000000x1_S4000000_n_0_0_1 x i u) : (⟨S5, .f32⟩ : BufTy).Contents (Elt F) → (⟨S4000000x1, .i32⟩ : BufTy).Contents (Elt F) → (⟨S4000000, .f32⟩ : BufTy).Contents (Elt F) → (⟨S5, .f32⟩ : BufTy).Contents (Elt F)),
    unary main_v19 main_v20 ((extractStridedSlice S4 ![0] · slices_S5_S4_0) : (⟨S5, .f32⟩ : BufTy).Contents (Elt F) → (⟨S4, .f32⟩ : BufTy).Contents (Elt F)),
    nullary main_cst_5 (constant S_ .f32 0x4A742400#32),
    unary main_cst_5 main_v21 (broadcastInDim S4 ![] bcast_S_S4 : (⟨S_, .f32⟩ : BufTy).Contents (Elt F) → (⟨S4, .f32⟩ : BufTy).Contents (Elt F)),
    binary main_v20 main_v21 main_v22 (Host.divf : (⟨S4, .f32⟩ : BufTy).Contents (Elt F) → (⟨S4, .f32⟩ : BufTy).Contents (Elt F) → (⟨S4, .f32⟩ : BufTy).Contents (Elt F)),
    unary main_arg1 main_v23 (broadcastInDim S4000000x1 ![0] bcast_S4000000_S4000000x1_0 : (⟨S4000000, .i32⟩ : BufTy).Contents (Elt F) → (⟨S4000000x1, .i32⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4000000x1, .i32⟩) main_call0_v0) (broadcastInDim S4000000x1 ![] bcast_S_S4000000x1),
    TRef.binary (TRef.of (T := ⟨S4000000x1, .i32⟩) main_v23) (TRef.of (T := ⟨S4000000x1, .i32⟩) main_call0_v0) (TRef.of (T := ⟨S4000000x1, .i1⟩) main_call0_v1) (cmpi .slt),
    TRef.nullary (TRef.of (T := ⟨S_, .i32⟩) main_call0_c_0) (constantI S_ 32 5#32),
    TRef.unary (TRef.of (T := ⟨S_, .i32⟩) main_call0_c_0) (TRef.of (T := ⟨S4000000x1, .i32⟩) main_call0_v2) (broadcastInDim S4000000x1 ![] bcast_S_S4000000x1),
    TRef.binary (TRef.of (T := ⟨S4000000x1, .i32⟩) main_v23) (TRef.of (T := ⟨S4000000x1, .i32⟩) main_call0_v2) (TRef.of (T := ⟨S4000000x1, .i32⟩) main_call0_v3) addi,
    TRef.ternary (TRef.of (T := ⟨S4000000x1, .i1⟩) main_call0_v1) (TRef.of (T := ⟨S4000000x1, .i32⟩) main_call0_v3) (TRef.of (T := ⟨S4000000x1, .i32⟩) main_v23) (TRef.of (T := ⟨S4000000x1, .i32⟩) main_call0_v4) select,
    TRef.reshape (TRef.of (T := ⟨S4000000x1, .i32⟩) main_call0_v4) (TRef.of (T := ⟨S4000000x1x1, .i32⟩) main_call0_v5) rfl shapeCasts_S4000000x1_S4000000x1x1,
    TRef.nullary (TRef.of (T := ⟨S1, .i32⟩) main_call0_c_1) (constantI S1 32 4#32),
    TRef.nullary (TRef.of (T := ⟨S_, .i32⟩) main_call0_c_2) (constantI S_ 32 0#32),
    TRef.unary (TRef.of (T := ⟨S_, .i32⟩) main_call0_c_2) (TRef.of (T := ⟨S4000000x1x1, .i32⟩) main_call0_v6) (broadcastInDim S4000000x1x1 ![] bcast_S_S4000000x1x1),
    TRef.binary (TRef.of (T := ⟨S4000000x1x1, .i32⟩) main_call0_v5) (TRef.of (T := ⟨S4000000x1x1, .i32⟩) main_call0_v6) (TRef.of (T := ⟨S4000000x1x1, .i1⟩) main_call0_v7) (cmpi .sge),
    TRef.unary (TRef.of (T := ⟨S1, .i32⟩) main_call0_c_1) (TRef.of (T := ⟨S1x1x1, .i32⟩) main_call0_v8) (broadcastInDim S1x1x1 ![2] bcast_S1_S1x1x1_2),
    TRef.unary (TRef.of (T := ⟨S1x1x1, .i32⟩) main_call0_v8) (TRef.of (T := ⟨S4000000x1x1, .i32⟩) main_call0_v9) (broadcastInDim S4000000x1x1 ![0, 1, 2] bcast_S1x1x1_S4000000x1x1_0_1_2),
    TRef.binary (TRef.of (T := ⟨S4000000x1x1, .i32⟩) main_call0_v5) (TRef.of (T := ⟨S4000000x1x1, .i32⟩) main_call0_v9) (TRef.of (T := ⟨S4000000x1x1, .i1⟩) main_call0_v10) (cmpi .sle),
    TRef.binary (TRef.of (T := ⟨S4000000x1x1, .i1⟩) main_call0_v7) (TRef.of (T := ⟨S4000000x1x1, .i1⟩) main_call0_v10) (TRef.of (T := ⟨S4000000x1x1, .i1⟩) main_call0_v11) andi,
    TRef.nullary (TRef.of (T := ⟨S_, .i1⟩) main_call0_c_3) (constantI S_ 1 1#1),
    TRef.binary (TRef.of (T := ⟨S4000000x1x1, .i1⟩) main_call0_v11) (TRef.of (T := ⟨S_, .i1⟩) main_call0_c_3) (TRef.of (T := ⟨S4000000x1, .i1⟩) main_call0_v12) (fun x v => Host.reduce IntOp.andi x v reducesTo_S4000000x1x1_S4000000x1_d2 h_S_) ]

/-- Operations 49 … 52 of @main. -/
abbrev part1 : List (HloOp τ sig (Elt F)) :=
  [ TRef.binary (TRef.of (T := ⟨S4000000x5, .f32⟩) main_v10) (TRef.of (T := ⟨S4000000x1x1, .i32⟩) main_call0_v5) (TRef.of (T := ⟨S4000000x1, .f32⟩) main_call0_v13) (fun x i => Host.gather gather_S4000000x5_S4000000x1x1_S4000000x1_n_1_0_0_1_2_11 x i),
    TRef.nullary (TRef.of (T := ⟨S_, .f32⟩) main_call0_cst) (constant S_ .f32 0x7FC00000#32),
    TRef.unary (TRef.of (T := ⟨S_, .f32⟩) main_call0_cst) (TRef.of (T := ⟨S4000000x1, .f32⟩) main_call0_v14) (broadcastInDim S4000000x1 ![] bcast_S_S4000000x1),
    TRef.ternary (TRef.of (T := ⟨S4000000x1, .i1⟩) main_call0_v12) (TRef.of (T := ⟨S4000000x1, .f32⟩) main_call0_v13) (TRef.of (T := ⟨S4000000x1, .f32⟩) main_call0_v14) (TRef.of (T := ⟨S4000000x1, .f32⟩) main_v24) select ]

/-- Operations 53 … 193 of @main. -/
abbrev part2 : List (HloOp τ sig (Elt F)) :=
  [ reshape main_v24 main_v25 rfl shapeCasts_S4000000x1_S4000000,
    nullary main_cst_6 (constant S_ .f32 0x3089705F#32),
    unary main_cst_6 main_v26 (broadcastInDim S4000000 ![] bcast_S_S4000000 : (⟨S_, .f32⟩ : BufTy).Contents (Elt F) → (⟨S4000000, .f32⟩ : BufTy).Contents (Elt F)),
    binary main_v25 main_v26 main_v27 (addf : (⟨S4000000, .f32⟩ : BufTy).Contents (Elt F) → (⟨S4000000, .f32⟩ : BufTy).Contents (Elt F) → (⟨S4000000, .f32⟩ : BufTy).Contents (Elt F)),
    unary main_v27 main_v28 (Host.log : (⟨S4000000, .f32⟩ : BufTy).Contents (Elt F) → (⟨S4000000, .f32⟩ : BufTy).Contents (Elt F)),
    unary main_v28 main_v29 (Host.negf : (⟨S4000000, .f32⟩ : BufTy).Contents (Elt F) → (⟨S4000000, .f32⟩ : BufTy).Contents (Elt F)),
    nullary main_cst_7 (constant S_ .f32 0x00000000#32),
    unary main_cst_7 main_v30 (broadcastInDim S5 ![] bcast_S_S5 : (⟨S_, .f32⟩ : BufTy).Contents (Elt F) → (⟨S5, .f32⟩ : BufTy).Contents (Elt F)),
    unary main_arg1 main_v31 (broadcastInDim S4000000x1 ![0] bcast_S4000000_S4000000x1_0 : (⟨S4000000, .i32⟩ : BufTy).Contents (Elt F) → (⟨S4000000x1, .i32⟩ : BufTy).Contents (Elt F)),
    ternary main_v30 main_v31 main_v29 main_v32 ((fun x i u => Host.scatterAdd scatter_S5_S4000000x1_S4000000_n_0_0_1 x i u) : (⟨S5, .f32⟩ : BufTy).Contents (Elt F) → (⟨S4000000x1, .i32⟩ : BufTy).Contents (Elt F) → (⟨S4000000, .f32⟩ : BufTy).Contents (Elt F) → (⟨S5, .f32⟩ : BufTy).Contents (Elt F)),
    unary main_v15 main_v33 (Host.negf : (⟨S4000000, .f32⟩ : BufTy).Contents (Elt F) → (⟨S4000000, .f32⟩ : BufTy).Contents (Elt F)),
    nullary main_cst_8 (constant S_ .f32 0x00000000#32),
    unary main_cst_8 main_v34 (broadcastInDim S5 ![] bcast_S_S5 : (⟨S_, .f32⟩ : BufTy).Contents (Elt F) → (⟨S5, .f32⟩ : BufTy).Contents (Elt F)),
    unary main_arg1 main_v35 (broadcastInDim S4000000x1 ![0] bcast_S4000000_S4000000x1_0 : (⟨S4000000, .i32⟩ : BufTy).Contents (Elt F) → (⟨S4000000x1, .i32⟩ : BufTy).Contents (Elt F)),
    ternary main_v34 main_v35 main_v33 main_v36 ((fun x i u => Host.scatterAdd scatter_S5_S4000000x1_S4000000_n_0_0_1 x i u) : (⟨S5, .f32⟩ : BufTy).Contents (Elt F) → (⟨S4000000x1, .i32⟩ : BufTy).Contents (Elt F) → (⟨S4000000, .f32⟩ : BufTy).Contents (Elt F) → (⟨S5, .f32⟩ : BufTy).Contents (Elt F)),
    unary main_v36 main_v37 ((extractStridedSlice S4 ![0] · slices_S5_S4_0) : (⟨S5, .f32⟩ : BufTy).Contents (Elt F) → (⟨S4, .f32⟩ : BufTy).Contents (Elt F)),
    unary main_v10 main_v38 ((extractStridedSlice S4000000x1 ![0, 0] · slices_S4000000x5_S4000000x1_0_0) : (⟨S4000000x5, .f32⟩ : BufTy).Contents (Elt F) → (⟨S4000000x1, .f32⟩ : BufTy).Contents (Elt F)),
    reshape main_v38 main_v39 rfl shapeCasts_S4000000x1_S4000000,
    nullary main_cst_9 (constant S_ .f32 0x3F000000#32),
    unary main_cst_9 main_v40 (broadcastInDim S4000000 ![] bcast_S_S4000000 : (⟨S_, .f32⟩ : BufTy).Contents (Elt F) → (⟨S4000000, .f32⟩ : BufTy).Contents (Elt F)),
    binary main_v39 main_v40 main_v41 (cmpf .ogt : (⟨S4000000, .f32⟩ : BufTy).Contents (Elt F) → (⟨S4000000, .f32⟩ : BufTy).Contents (Elt F) → (⟨S4000000, .i1⟩ : BufTy).Contents (Elt F)),
    nullary main_c (constantI S_ 32 0#32),
    unary main_c main_v42 (broadcastInDim S4000000 ![] bcast_S_S4000000 : (⟨S_, .i32⟩ : BufTy).Contents (Elt F) → (⟨S4000000, .i32⟩ : BufTy).Contents (Elt F)),
    binary main_arg1 main_v42 main_v43 (cmpi .eq : (⟨S4000000, .i32⟩ : BufTy).Contents (Elt F) → (⟨S4000000, .i32⟩ : BufTy).Contents (Elt F) → (⟨S4000000, .i1⟩ : BufTy).Contents (Elt F)),
    binary main_v41 main_v43 main_v44 (andi : (⟨S4000000, .i1⟩ : BufTy).Contents (Elt F) → (⟨S4000000, .i1⟩ : BufTy).Contents (Elt F) → (⟨S4000000, .i1⟩ : BufTy).Contents (Elt F)),
    unary main_v44 main_v45 (uitofp .f32 : (⟨S4000000, .i1⟩ : BufTy).Contents (Elt F) → (⟨S4000000, .f32⟩ : BufTy).Contents (Elt F)),
    nullary main_cst_10 (constant S_ .f32 0x00000000#32),
    binary main_v45 main_cst_10 main_v46 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    unary main_v15 main_v47 (Host.negf : (⟨S4000000, .f32⟩ : BufTy).Contents (Elt F) → (⟨S4000000, .f32⟩ : BufTy).Contents (Elt F)),
    unary main_v10 main_v48 ((extractStridedSlice S4000000x1 ![0, 0] · slices_S4000000x5_S4000000x1_0_0) : (⟨S4000000x5, .f32⟩ : BufTy).Contents (Elt F) → (⟨S4000000x1, .f32⟩ : BufTy).Contents (Elt F)),
    reshape main_v48 main_v49 rfl shapeCasts_S4000000x1_S4000000,
    binary main_v47 main_v49 main_v50 (Host.divf : (⟨S4000000, .f32⟩ : BufTy).Contents (Elt F) → (⟨S4000000, .f32⟩ : BufTy).Contents (Elt F) → (⟨S4000000, .f32⟩ : BufTy).Contents (Elt F)),
    nullary main_cst_11 (constant S_ .f32 0x00000000#32),
    TRef.unary (TRef.of (T := ⟨S_, .f32⟩) main_cst_11) (TRef.of (T := ⟨S_, .f32⟩) main_call1_v0) id,
    TRef.unary (TRef.of (T := ⟨S_, .f32⟩) main_call1_v0) (TRef.of (T := ⟨S4000000, .f32⟩) main_call1_v1) (broadcastInDim S4000000 ![] bcast_S_S4000000),
    TRef.ternary (TRef.of (T := ⟨S4000000, .i1⟩) main_v44) (TRef.of (T := ⟨S4000000, .f32⟩) main_v50) (TRef.of (T := ⟨S4000000, .f32⟩) main_call1_v1) (TRef.of (T := ⟨S4000000, .f32⟩) main_v51) select,
    nullary main_cst_12 (constant S_ .f32 0x00000000#32),
    binary main_v51 main_cst_12 main_v52 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    nullary main_cst_13 (constant S_ .f32 0x3F800000#32),
    binary main_v46 main_cst_13 main_v53 (maximumf : (⟨S_, .f32⟩ : BufTy).Contents (Elt F) → (⟨S_, .f32⟩ : BufTy).Contents (Elt F) → (⟨S_, .f32⟩ : BufTy).Contents (Elt F)),
    binary main_v52 main_v53 main_v54 (Host.divf : (⟨S_, .f32⟩ : BufTy).Contents (Elt F) → (⟨S_, .f32⟩ : BufTy).Contents (Elt F) → (⟨S_, .f32⟩ : BufTy).Contents (Elt F)),
    unary main_v10 main_v55 ((extractStridedSlice S4000000x1 ![0, 1] · slices_S4000000x5_S4000000x1_0_1) : (⟨S4000000x5, .f32⟩ : BufTy).Contents (Elt F) → (⟨S4000000x1, .f32⟩ : BufTy).Contents (Elt F)),
    reshape main_v55 main_v56 rfl shapeCasts_S4000000x1_S4000000,
    nullary main_cst_14 (constant S_ .f32 0x3F000000#32),
    unary main_cst_14 main_v57 (broadcastInDim S4000000 ![] bcast_S_S4000000 : (⟨S_, .f32⟩ : BufTy).Contents (Elt F) → (⟨S4000000, .f32⟩ : BufTy).Contents (Elt F)),
    binary main_v56 main_v57 main_v58 (cmpf .ogt : (⟨S4000000, .f32⟩ : BufTy).Contents (Elt F) → (⟨S4000000, .f32⟩ : BufTy).Contents (Elt F) → (⟨S4000000, .i1⟩ : BufTy).Contents (Elt F)),
    nullary main_c_15 (constantI S_ 32 1#32),
    unary main_c_15 main_v59 (broadcastInDim S4000000 ![] bcast_S_S4000000 : (⟨S_, .i32⟩ : BufTy).Contents (Elt F) → (⟨S4000000, .i32⟩ : BufTy).Contents (Elt F)),
    binary main_arg1 main_v59 main_v60 (cmpi .eq : (⟨S4000000, .i32⟩ : BufTy).Contents (Elt F) → (⟨S4000000, .i32⟩ : BufTy).Contents (Elt F) → (⟨S4000000, .i1⟩ : BufTy).Contents (Elt F)),
    binary main_v58 main_v60 main_v61 (andi : (⟨S4000000, .i1⟩ : BufTy).Contents (Elt F) → (⟨S4000000, .i1⟩ : BufTy).Contents (Elt F) → (⟨S4000000, .i1⟩ : BufTy).Contents (Elt F)),
    unary main_v61 main_v62 (uitofp .f32 : (⟨S4000000, .i1⟩ : BufTy).Contents (Elt F) → (⟨S4000000, .f32⟩ : BufTy).Contents (Elt F)),
    nullary main_cst_16 (constant S_ .f32 0x00000000#32),
    binary main_v62 main_cst_16 main_v63 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    unary main_v15 main_v64 (Host.negf : (⟨S4000000, .f32⟩ : BufTy).Contents (Elt F) → (⟨S4000000, .f32⟩ : BufTy).Contents (Elt F)),
    unary main_v10 main_v65 ((extractStridedSlice S4000000x1 ![0, 1] · slices_S4000000x5_S4000000x1_0_1) : (⟨S4000000x5, .f32⟩ : BufTy).Contents (Elt F) → (⟨S4000000x1, .f32⟩ : BufTy).Contents (Elt F)),
    reshape main_v65 main_v66 rfl shapeCasts_S4000000x1_S4000000,
    binary main_v64 main_v66 main_v67 (Host.divf : (⟨S4000000, .f32⟩ : BufTy).Contents (Elt F) → (⟨S4000000, .f32⟩ : BufTy).Contents (Elt F) → (⟨S4000000, .f32⟩ : BufTy).Contents (Elt F)),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S4000000, .f32⟩) main_call2_v1) (broadcastInDim S4000000 ![] bcast_S_S4000000),
    TRef.ternary (TRef.of (T := ⟨S4000000, .i1⟩) main_v61) (TRef.of (T := ⟨S4000000, .f32⟩) main_v67) (TRef.of (T := ⟨S4000000, .f32⟩) main_call2_v1) (TRef.of (T := ⟨S4000000, .f32⟩) main_v68) select,
    nullary main_cst_18 (constant S_ .f32 0x00000000#32),
    binary main_v68 main_cst_18 main_v69 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    nullary main_cst_19 (constant S_ .f32 0x3F800000#32),
    binary main_v63 main_cst_19 main_v70 (maximumf : (⟨S_, .f32⟩ : BufTy).Contents (Elt F) → (⟨S_, .f32⟩ : BufTy).Contents (Elt F) → (⟨S_, .f32⟩ : BufTy).Contents (Elt F)),
    binary main_v69 main_v70 main_v71 (Host.divf : (⟨S_, .f32⟩ : BufTy).Contents (Elt F) → (⟨S_, .f32⟩ : BufTy).Contents (Elt F) → (⟨S_, .f32⟩ : BufTy).Contents (Elt F)),
    unary main_v10 main_v72 ((extractStridedSlice S4000000x1 ![0, 2] · slices_S4000000x5_S4000000x1_0_2) : (⟨S4000000x5, .f32⟩ : BufTy).Contents (Elt F) → (⟨S4000000x1, .f32⟩ : BufTy).Contents (Elt F)),
    reshape main_v72 main_v73 rfl shapeCasts_S4000000x1_S4000000,
    nullary main_cst_20 (constant S_ .f32 0x3F000000#32),
    unary main_cst_20 main_v74 (broadcastInDim S4000000 ![] bcast_S_S4000000 : (⟨S_, .f32⟩ : BufTy).Contents (Elt F) → (⟨S4000000, .f32⟩ : BufTy).Contents (Elt F)),
    binary main_v73 main_v74 main_v75 (cmpf .ogt : (⟨S4000000, .f32⟩ : BufTy).Contents (Elt F) → (⟨S4000000, .f32⟩ : BufTy).Contents (Elt F) → (⟨S4000000, .i1⟩ : BufTy).Contents (Elt F)),
    nullary main_c_21 (constantI S_ 32 2#32),
    unary main_c_21 main_v76 (broadcastInDim S4000000 ![] bcast_S_S4000000 : (⟨S_, .i32⟩ : BufTy).Contents (Elt F) → (⟨S4000000, .i32⟩ : BufTy).Contents (Elt F)),
    binary main_arg1 main_v76 main_v77 (cmpi .eq : (⟨S4000000, .i32⟩ : BufTy).Contents (Elt F) → (⟨S4000000, .i32⟩ : BufTy).Contents (Elt F) → (⟨S4000000, .i1⟩ : BufTy).Contents (Elt F)),
    binary main_v75 main_v77 main_v78 (andi : (⟨S4000000, .i1⟩ : BufTy).Contents (Elt F) → (⟨S4000000, .i1⟩ : BufTy).Contents (Elt F) → (⟨S4000000, .i1⟩ : BufTy).Contents (Elt F)),
    unary main_v78 main_v79 (uitofp .f32 : (⟨S4000000, .i1⟩ : BufTy).Contents (Elt F) → (⟨S4000000, .f32⟩ : BufTy).Contents (Elt F)),
    nullary main_cst_22 (constant S_ .f32 0x00000000#32),
    binary main_v79 main_cst_22 main_v80 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    unary main_v15 main_v81 (Host.negf : (⟨S4000000, .f32⟩ : BufTy).Contents (Elt F) → (⟨S4000000, .f32⟩ : BufTy).Contents (Elt F)),
    unary main_v10 main_v82 ((extractStridedSlice S4000000x1 ![0, 2] · slices_S4000000x5_S4000000x1_0_2) : (⟨S4000000x5, .f32⟩ : BufTy).Contents (Elt F) → (⟨S4000000x1, .f32⟩ : BufTy).Contents (Elt F)),
    reshape main_v82 main_v83 rfl shapeCasts_S4000000x1_S4000000,
    binary main_v81 main_v83 main_v84 (Host.divf : (⟨S4000000, .f32⟩ : BufTy).Contents (Elt F) → (⟨S4000000, .f32⟩ : BufTy).Contents (Elt F) → (⟨S4000000, .f32⟩ : BufTy).Contents (Elt F)),
    nullary main_cst_23 (constant S_ .f32 0x00000000#32),
    TRef.unary (TRef.of (T := ⟨S_, .f32⟩) main_cst_23) (TRef.of (T := ⟨S_, .f32⟩) main_call3_v0) id,
    TRef.unary (TRef.of (T := ⟨S_, .f32⟩) main_call3_v0) (TRef.of (T := ⟨S4000000, .f32⟩) main_call3_v1) (broadcastInDim S4000000 ![] bcast_S_S4000000),
    TRef.ternary (TRef.of (T := ⟨S4000000, .i1⟩) main_v78) (TRef.of (T := ⟨S4000000, .f32⟩) main_v84) (TRef.of (T := ⟨S4000000, .f32⟩) main_call3_v1) (TRef.of (T := ⟨S4000000, .f32⟩) main_v85) select,
    nullary main_cst_24 (constant S_ .f32 0x00000000#32),
    binary main_v85 main_cst_24 main_v86 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    nullary main_cst_25 (constant S_ .f32 0x3F800000#32),
    binary main_v80 main_cst_25 main_v87 (maximumf : (⟨S_, .f32⟩ : BufTy).Contents (Elt F) → (⟨S_, .f32⟩ : BufTy).Contents (Elt F) → (⟨S_, .f32⟩ : BufTy).Contents (Elt F)),
    binary main_v86 main_v87 main_v88 (Host.divf : (⟨S_, .f32⟩ : BufTy).Contents (Elt F) → (⟨S_, .f32⟩ : BufTy).Contents (Elt F) → (⟨S_, .f32⟩ : BufTy).Contents (Elt F)),
    unary main_v10 main_v89 ((extractStridedSlice S4000000x1 ![0, 3] · slices_S4000000x5_S4000000x1_0_3) : (⟨S4000000x5, .f32⟩ : BufTy).Contents (Elt F) → (⟨S4000000x1, .f32⟩ : BufTy).Contents (Elt F)),
    reshape main_v89 main_v90 rfl shapeCasts_S4000000x1_S4000000,
    nullary main_cst_26 (constant S_ .f32 0x3F000000#32),
    unary main_cst_26 main_v91 (broadcastInDim S4000000 ![] bcast_S_S4000000 : (⟨S_, .f32⟩ : BufTy).Contents (Elt F) → (⟨S4000000, .f32⟩ : BufTy).Contents (Elt F)),
    binary main_v90 main_v91 main_v92 (cmpf .ogt : (⟨S4000000, .f32⟩ : BufTy).Contents (Elt F) → (⟨S4000000, .f32⟩ : BufTy).Contents (Elt F) → (⟨S4000000, .i1⟩ : BufTy).Contents (Elt F)),
    nullary main_c_27 (constantI S_ 32 3#32),
    unary main_c_27 main_v93 (broadcastInDim S4000000 ![] bcast_S_S4000000 : (⟨S_, .i32⟩ : BufTy).Contents (Elt F) → (⟨S4000000, .i32⟩ : BufTy).Contents (Elt F)),
    binary main_arg1 main_v93 main_v94 (cmpi .eq : (⟨S4000000, .i32⟩ : BufTy).Contents (Elt F) → (⟨S4000000, .i32⟩ : BufTy).Contents (Elt F) → (⟨S4000000, .i1⟩ : BufTy).Contents (Elt F)),
    binary main_v92 main_v94 main_v95 (andi : (⟨S4000000, .i1⟩ : BufTy).Contents (Elt F) → (⟨S4000000, .i1⟩ : BufTy).Contents (Elt F) → (⟨S4000000, .i1⟩ : BufTy).Contents (Elt F)),
    unary main_v95 main_v96 (uitofp .f32 : (⟨S4000000, .i1⟩ : BufTy).Contents (Elt F) → (⟨S4000000, .f32⟩ : BufTy).Contents (Elt F)),
    nullary main_cst_28 (constant S_ .f32 0x00000000#32),
    binary main_v96 main_cst_28 main_v97 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    unary main_v15 main_v98 (Host.negf : (⟨S4000000, .f32⟩ : BufTy).Contents (Elt F) → (⟨S4000000, .f32⟩ : BufTy).Contents (Elt F)),
    unary main_v10 main_v99 ((extractStridedSlice S4000000x1 ![0, 3] · slices_S4000000x5_S4000000x1_0_3) : (⟨S4000000x5, .f32⟩ : BufTy).Contents (Elt F) → (⟨S4000000x1, .f32⟩ : BufTy).Contents (Elt F)),
    reshape main_v99 main_v100 rfl shapeCasts_S4000000x1_S4000000,
    binary main_v98 main_v100 main_v101 (Host.divf : (⟨S4000000, .f32⟩ : BufTy).Contents (Elt F) → (⟨S4000000, .f32⟩ : BufTy).Contents (Elt F) → (⟨S4000000, .f32⟩ : BufTy).Contents (Elt F)),
    nullary main_cst_29 (constant S_ .f32 0x00000000#32),
    TRef.unary (TRef.of (T := ⟨S_, .f32⟩) main_cst_29) (TRef.of (T := ⟨S_, .f32⟩) main_call4_v0) id,
    TRef.unary (TRef.of (T := ⟨S_, .f32⟩) main_call4_v0) (TRef.of (T := ⟨S4000000, .f32⟩) main_call4_v1) (broadcastInDim S4000000 ![] bcast_S_S4000000),
    TRef.ternary (TRef.of (T := ⟨S4000000, .i1⟩) main_v95) (TRef.of (T := ⟨S4000000, .f32⟩) main_v101) (TRef.of (T := ⟨S4000000, .f32⟩) main_call4_v1) (TRef.of (T := ⟨S4000000, .f32⟩) main_v102) select,
    nullary main_cst_30 (constant S_ .f32 0x00000000#32),
    binary main_v102 main_cst_30 main_v103 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    nullary main_cst_31 (constant S_ .f32 0x3F800000#32),
    binary main_v97 main_cst_31 main_v104 (maximumf : (⟨S_, .f32⟩ : BufTy).Contents (Elt F) → (⟨S_, .f32⟩ : BufTy).Contents (Elt F) → (⟨S_, .f32⟩ : BufTy).Contents (Elt F)),
    binary main_v103 main_v104 main_v105 (Host.divf : (⟨S_, .f32⟩ : BufTy).Contents (Elt F) → (⟨S_, .f32⟩ : BufTy).Contents (Elt F) → (⟨S_, .f32⟩ : BufTy).Contents (Elt F)),
    nullary main_cst_32 (constant S_ .f32 0x3F000000#32),
    unary main_cst_32 main_v106 (broadcastInDim S4000000x5 ![] bcast_S_S4000000x5 : (⟨S_, .f32⟩ : BufTy).Contents (Elt F) → (⟨S4000000x5, .f32⟩ : BufTy).Contents (Elt F)),
    binary main_v10 main_v106 main_v107 (cmpf .ole : (⟨S4000000x5, .f32⟩ : BufTy).Contents (Elt F) → (⟨S4000000x5, .f32⟩ : BufTy).Contents (Elt F) → (⟨S4000000x5, .i1⟩ : BufTy).Contents (Elt F)),
    nullary main_c_33 (constantI S_ 1 1#1),
    binary main_v107 main_c_33 main_v108 ((fun x v => Host.reduce IntOp.andi x v reducesTo_S4000000x5_S4000000_d1 h_S_) : (⟨S4000000x5, .i1⟩ : BufTy).Contents (Elt F) → (⟨S_, .i1⟩ : BufTy).Contents (Elt F) → (⟨S4000000, .i1⟩ : BufTy).Contents (Elt F)),
    nullary main_c_34 (constantI S_ 32 4#32),
    unary main_c_34 main_v109 (broadcastInDim S4000000 ![] bcast_S_S4000000 : (⟨S_, .i32⟩ : BufTy).Contents (Elt F) → (⟨S4000000, .i32⟩ : BufTy).Contents (Elt F)),
    binary main_arg1 main_v109 main_v110 (cmpi .eq : (⟨S4000000, .i32⟩ : BufTy).Contents (Elt F) → (⟨S4000000, .i32⟩ : BufTy).Contents (Elt F) → (⟨S4000000, .i1⟩ : BufTy).Contents (Elt F)),
    binary main_v108 main_v110 main_v111 (andi : (⟨S4000000, .i1⟩ : BufTy).Contents (Elt F) → (⟨S4000000, .i1⟩ : BufTy).Contents (Elt F) → (⟨S4000000, .i1⟩ : BufTy).Contents (Elt F)),
    unary main_v15 main_v112 (Host.negf : (⟨S4000000, .f32⟩ : BufTy).Contents (Elt F) → (⟨S4000000, .f32⟩ : BufTy).Contents (Elt F)),
    nullary main_cst_35 (constant S_ .f32 0x00000000#32),
    TRef.unary (TRef.of (T := ⟨S_, .f32⟩) main_cst_35) (TRef.of (T := ⟨S_, .f32⟩) main_call5_v0) id,
    TRef.unary (TRef.of (T := ⟨S_, .f32⟩) main_call5_v0) (TRef.of (T := ⟨S4000000, .f32⟩) main_call5_v1) (broadcastInDim S4000000 ![] bcast_S_S4000000),
    TRef.ternary (TRef.of (T := ⟨S4000000, .i1⟩) main_v111) (TRef.of (T := ⟨S4000000, .f32⟩) main_v112) (TRef.of (T := ⟨S4000000, .f32⟩) main_call5_v1) (TRef.of (T := ⟨S4000000, .f32⟩) main_v113) select,
    nullary main_cst_36 (constant S_ .f32 0x00000000#32),
    binary main_v113 main_cst_36 main_v114 ((fun x v => Host.reduceAdd x v reducesTo_S4000000_S_d0 h_S_) : (⟨S4000000, .f32⟩ : BufTy).Contents (Elt F) → (⟨S_, .f32⟩ : BufTy).Contents (Elt F) → (⟨S_, .f32⟩ : BufTy).Contents (Elt F)),
    unary main_v19 main_v115 ((extractStridedSlice S1 ![4] · slices_S5_S1_4) : (⟨S5, .f32⟩ : BufTy).Contents (Elt F) → (⟨S1, .f32⟩ : BufTy).Contents (Elt F)),
    reshape main_v115 main_v116 rfl shapeCasts_S1_S_,
    nullary main_cst_37 (constant S_ .f32 0x3F800000#32),
    binary main_v116 main_cst_37 main_v117 (maximumf : (⟨S_, .f32⟩ : BufTy).Contents (Elt F) → (⟨S_, .f32⟩ : BufTy).Contents (Elt F) → (⟨S_, .f32⟩ : BufTy).Contents (Elt F)),
    binary main_v114 main_v117 main_v118 (Host.divf : (⟨S_, .f32⟩ : BufTy).Contents (Elt F) → (⟨S_, .f32⟩ : BufTy).Contents (Elt F) → (⟨S_, .f32⟩ : BufTy).Contents (Elt F)),
    unary main_v54 main_v119 (broadcastInDim S1 ![] bcast_S_S1 : (⟨S_, .f32⟩ : BufTy).Contents (Elt F) → (⟨S1, .f32⟩ : BufTy).Contents (Elt F)),
    unary main_v71 main_v120 (broadcastInDim S1 ![] bcast_S_S1 : (⟨S_, .f32⟩ : BufTy).Contents (Elt F) → (⟨S1, .f32⟩ : BufTy).Contents (Elt F)),
    unary main_v88 main_v121 (broadcastInDim S1 ![] bcast_S_S1 : (⟨S_, .f32⟩ : BufTy).Contents (Elt F) → (⟨S1, .f32⟩ : BufTy).Contents (Elt F)),
    unary main_v105 main_v122 (broadcastInDim S1 ![] bcast_S_S1 : (⟨S_, .f32⟩ : BufTy).Contents (Elt F) → (⟨S1, .f32⟩ : BufTy).Contents (Elt F)) ]

/-- Operations 194 … 194 of @main. -/
abbrev part3 : List (HloOp τ sig (Elt F)) :=
  [ nary ![main_v119, main_v120, main_v121, main_v122] main_v123 (fun u => concatenate S4 0 [⟨S1, u 0⟩, ⟨S1, u 1⟩, ⟨S1, u 2⟩, ⟨S1, u 3⟩] concatenates_S1_S1_S1_S1_S4_d0) ]

/-- Operations 195 … 220 of @main. -/
abbrev part4 : List (HloOp τ sig (Elt F)) :=
  [ unary main_v19 main_v124 ((extractStridedSlice S4 ![0] · slices_S5_S4_0) : (⟨S5, .f32⟩ : BufTy).Contents (Elt F) → (⟨S4, .f32⟩ : BufTy).Contents (Elt F)),
    nullary main_cst_38 (constant S_ .f32 0x3F800000#32),
    unary main_cst_38 main_v125 (broadcastInDim S4 ![] bcast_S_S4 : (⟨S_, .f32⟩ : BufTy).Contents (Elt F) → (⟨S4, .f32⟩ : BufTy).Contents (Elt F)),
    binary main_v125 main_v124 main_v126 (maximumf : (⟨S4, .f32⟩ : BufTy).Contents (Elt F) → (⟨S4, .f32⟩ : BufTy).Contents (Elt F) → (⟨S4, .f32⟩ : BufTy).Contents (Elt F)),
    unary main_v32 main_v127 ((extractStridedSlice S4 ![0] · slices_S5_S4_0) : (⟨S5, .f32⟩ : BufTy).Contents (Elt F) → (⟨S4, .f32⟩ : BufTy).Contents (Elt F)),
    binary main_v22 main_v127 main_v128 (mulf : (⟨S4, .f32⟩ : BufTy).Contents (Elt F) → (⟨S4, .f32⟩ : BufTy).Contents (Elt F) → (⟨S4, .f32⟩ : BufTy).Contents (Elt F)),
    binary main_v128 main_v126 main_v129 (Host.divf : (⟨S4, .f32⟩ : BufTy).Contents (Elt F) → (⟨S4, .f32⟩ : BufTy).Contents (Elt F) → (⟨S4, .f32⟩ : BufTy).Contents (Elt F)),
    nullary main_cst_39 (constant S_ .f32 0x00000000#32),
    binary main_v129 main_cst_39 main_v130 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    binary main_v22 main_v123 main_v131 (mulf : (⟨S4, .f32⟩ : BufTy).Contents (Elt F) → (⟨S4, .f32⟩ : BufTy).Contents (Elt F) → (⟨S4, .f32⟩ : BufTy).Contents (Elt F)),
    nullary main_cst_40 (constant S_ .f32 0x00000000#32),
    binary main_v131 main_cst_40 main_v132 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    binary main_v22 main_v37 main_v133 (mulf : (⟨S4, .f32⟩ : BufTy).Contents (Elt F) → (⟨S4, .f32⟩ : BufTy).Contents (Elt F) → (⟨S4, .f32⟩ : BufTy).Contents (Elt F)),
    binary main_v133 main_v126 main_v134 (Host.divf : (⟨S4, .f32⟩ : BufTy).Contents (Elt F) → (⟨S4, .f32⟩ : BufTy).Contents (Elt F) → (⟨S4, .f32⟩ : BufTy).Contents (Elt F)),
    nullary main_cst_41 (constant S_ .f32 0x00000000#32),
    binary main_v134 main_cst_41 main_v135 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    binary main_v130 main_v132 main_v136 (addf : (⟨S_, .f32⟩ : BufTy).Contents (Elt F) → (⟨S_, .f32⟩ : BufTy).Contents (Elt F) → (⟨S_, .f32⟩ : BufTy).Contents (Elt F)),
    binary main_v136 main_v135 main_v137 (subf : (⟨S_, .f32⟩ : BufTy).Contents (Elt F) → (⟨S_, .f32⟩ : BufTy).Contents (Elt F) → (⟨S_, .f32⟩ : BufTy).Contents (Elt F)),
    nullary main_cst_42 (constant S_ .f32 0x40800000#32),
    binary main_cst_42 main_v137 main_v138 (mulf : (⟨S_, .f32⟩ : BufTy).Contents (Elt F) → (⟨S_, .f32⟩ : BufTy).Contents (Elt F) → (⟨S_, .f32⟩ : BufTy).Contents (Elt F)),
    nullary main_cst_43 (constant S_ .f32 0x00000000#32),
    binary main_v138 main_cst_43 main_v139 (cmpf .olt : (⟨S_, .f32⟩ : BufTy).Contents (Elt F) → (⟨S_, .f32⟩ : BufTy).Contents (Elt F) → (⟨S_, .i1⟩ : BufTy).Contents (Elt F)),
    nullary main_cst_44 (constant S_ .f32 0x00000000#32),
    TRef.unary (TRef.of (T := ⟨S_, .f32⟩) main_cst_44) (TRef.of (T := ⟨S_, .f32⟩) main_call6_v0) id,
    TRef.ternary (TRef.of (T := ⟨S_, .i1⟩) main_v139) (TRef.of (T := ⟨S_, .f32⟩) main_call6_v0) (TRef.of (T := ⟨S_, .f32⟩) main_v138) (TRef.of (T := ⟨S_, .f32⟩) main_v140) select,
    binary main_v140 main_v118 main_v141 (addf : (⟨S_, .f32⟩ : BufTy).Contents (Elt F) → (⟨S_, .f32⟩ : BufTy).Contents (Elt F) → (⟨S_, .f32⟩ : BufTy).Contents (Elt F)) ]

/-- The stretches, in order, are @main's operations. -/
theorem ops_eq : (ops : List (HloOp τ sig (Elt F))) = part0 ++ (part1 ++ (part2 ++ (part3 ++ part4))) := rfl

/-! ## Stretch 0: from the launch contents -/

section
variable (m : (ℓ : Loc nD τ sig) → Buf (Elt F) ℓ) (c : Dev nD)
set_option maxHeartbeats 4000000 in
theorem p0_v10 :
    after (part0 (F := F)) (launchContents m c) (Proc.devRef .tc main_v10) = val_main_v10 (F := F) (m ((c.tc : Thread nD τ).loc main_arg0)) := by
  after_results_simp <;> rfl

set_option maxHeartbeats 4000000 in
theorem p0_v15 :
    after (part0 (F := F)) (launchContents m c) (Proc.devRef .tc main_v15) = val_main_v15 (F := F) (m ((c.tc : Thread nD τ).loc main_arg0)) := by
  after_results_simp <;> rfl

set_option maxHeartbeats 4000000 in
theorem p0_v19 :
    after (part0 (F := F)) (launchContents m c) (Proc.devRef .tc main_v19) = val_main_v19 (F := F) (m ((c.tc : Thread nD τ).loc main_arg1)) := by
  after_results_simp <;> rfl

set_option maxHeartbeats 4000000 in
theorem p0_v22 :
    after (part0 (F := F)) (launchContents m c) (Proc.devRef .tc main_v22) = val_main_v22 (F := F) (m ((c.tc : Thread nD τ).loc main_arg1)) := by
  after_results_simp <;> rfl

set_option maxHeartbeats 4000000 in
theorem p0_call0_v5 :
    after (part0 (F := F)) (launchContents m c) (Proc.devRef .tc main_call0_v5) = val_main_call0_v5 (F := F) (m ((c.tc : Thread nD τ).loc main_arg1)) := by
  after_results_simp <;> rfl

set_option maxHeartbeats 4000000 in
/-- The in-bounds test of the gather: an and-fold over the unit axis, equal to its stage by the equality of the folded operands. -/
theorem p0_call0_v12 :
    after (part0 (F := F)) (launchContents m c) (Proc.devRef .tc main_call0_v12) = val_main_call0_v12 (F := F) (m ((c.tc : Thread nD τ).loc main_arg1)) := by
  after_results_simp
  simp only [TRef.ofBuf, TRef.toBuf, cast_eq]
  unfold val_main_call0_v12
  exact reduce_congr _ _ _ rfl rfl

set_option maxHeartbeats 4000000 in
theorem p0_arg0 : after (part0 (F := F)) (launchContents m c) (Proc.devRef .tc main_arg0) = m ((c.tc : Thread nD τ).loc main_arg0) := by
  after_results_simp <;> rfl

set_option maxHeartbeats 4000000 in
theorem p0_arg1 : after (part0 (F := F)) (launchContents m c) (Proc.devRef .tc main_arg1) = m ((c.tc : Thread nD τ).loc main_arg1) := by
  after_results_simp <;> rfl

end

/-! ## Stretch 1: the gather and its select -/

set_option maxHeartbeats 4000000 in
theorem p1_v24 (W : Valuation τ sig (Elt F)) (x0 : (⟨S4000000x5, .f32⟩ : BufTy).Contents (Elt F)) (x1 : (⟨S4000000, .i32⟩ : BufTy).Contents (Elt F))
    (h_v10 : W (Proc.devRef .tc main_v10) = val_main_v10 (F := F) x0)
    (h_call0_v5 : W (Proc.devRef .tc main_call0_v5) = val_main_call0_v5 (F := F) x1)
    (h_call0_v12 : W (Proc.devRef .tc main_call0_v12) = val_main_call0_v12 (F := F) x1) :
    after (part1 (F := F)) W (Proc.devRef .tc main_v24) = val_main_v24 (F := F) x0 x1 := by
  after_results_simp
  simp only [TRef.ofBuf, TRef.toBuf, cast_eq]
  simp only [h_v10, h_call0_v5, h_call0_v12]
  rfl

set_option maxHeartbeats 4000000 in
theorem p1_keep_arg0 (W : Valuation τ sig (Elt F)) : after (part1 (F := F)) W (Proc.devRef .tc main_arg0) = W (Proc.devRef .tc main_arg0) := by
  after_results_simp

set_option maxHeartbeats 4000000 in
theorem p1_keep_arg1 (W : Valuation τ sig (Elt F)) : after (part1 (F := F)) W (Proc.devRef .tc main_arg1) = W (Proc.devRef .tc main_arg1) := by
  after_results_simp

set_option maxHeartbeats 4000000 in
theorem p1_keep_v10 (W : Valuation τ sig (Elt F)) : after (part1 (F := F)) W (Proc.devRef .tc main_v10) = W (Proc.devRef .tc main_v10) := by
  after_results_simp

set_option maxHeartbeats 4000000 in
theorem p1_keep_v15 (W : Valuation τ sig (Elt F)) : after (part1 (F := F)) W (Proc.devRef .tc main_v15) = W (Proc.devRef .tc main_v15) := by
  after_results_simp

set_option maxHeartbeats 4000000 in
theorem p1_keep_v19 (W : Valuation τ sig (Elt F)) : after (part1 (F := F)) W (Proc.devRef .tc main_v19) = W (Proc.devRef .tc main_v19) := by
  after_results_simp

set_option maxHeartbeats 4000000 in
theorem p1_keep_v22 (W : Valuation τ sig (Elt F)) : after (part1 (F := F)) W (Proc.devRef .tc main_v22) = W (Proc.devRef .tc main_v22) := by
  after_results_simp

/-! ## Stretch 2: the segment sums and the confidence quotients -/

set_option maxHeartbeats 4000000 in
theorem p2_v32 (W : Valuation τ sig (Elt F)) (x0 : (⟨S4000000x5, .f32⟩ : BufTy).Contents (Elt F)) (x1 : (⟨S4000000, .i32⟩ : BufTy).Contents (Elt F))
    (h_v24 : W (Proc.devRef .tc main_v24) = val_main_v24 (F := F) x0 x1)
    (h_arg1 : W (Proc.devRef .tc main_arg1) = x1)
    (h_v15 : W (Proc.devRef .tc main_v15) = val_main_v15 (F := F) x0)
    (h_v10 : W (Proc.devRef .tc main_v10) = val_main_v10 (F := F) x0)
    (h_v19 : W (Proc.devRef .tc main_v19) = val_main_v19 (F := F) x1) :
    after (part2 (F := F)) W (Proc.devRef .tc main_v32) = val_main_v32 (F := F) x0 x1 := by
  after_results_simp
  simp only [h_v24, h_arg1, h_v15, h_v10, h_v19]
  rfl

set_option maxHeartbeats 4000000 in
theorem p2_v37 (W : Valuation τ sig (Elt F)) (x0 : (⟨S4000000x5, .f32⟩ : BufTy).Contents (Elt F)) (x1 : (⟨S4000000, .i32⟩ : BufTy).Contents (Elt F))
    (h_v24 : W (Proc.devRef .tc main_v24) = val_main_v24 (F := F) x0 x1)
    (h_arg1 : W (Proc.devRef .tc main_arg1) = x1)
    (h_v15 : W (Proc.devRef .tc main_v15) = val_main_v15 (F := F) x0)
    (h_v10 : W (Proc.devRef .tc main_v10) = val_main_v10 (F := F) x0)
    (h_v19 : W (Proc.devRef .tc main_v19) = val_main_v19 (F := F) x1) :
    after (part2 (F := F)) W (Proc.devRef .tc main_v37) = val_main_v37 (F := F) x0 x1 := by
  after_results_simp
  simp only [h_v24, h_arg1, h_v15, h_v10, h_v19]
  rfl

set_option maxHeartbeats 4000000 in
theorem p2_v118 (W : Valuation τ sig (Elt F)) (x0 : (⟨S4000000x5, .f32⟩ : BufTy).Contents (Elt F)) (x1 : (⟨S4000000, .i32⟩ : BufTy).Contents (Elt F))
    (h_v24 : W (Proc.devRef .tc main_v24) = val_main_v24 (F := F) x0 x1)
    (h_arg1 : W (Proc.devRef .tc main_arg1) = x1)
    (h_v15 : W (Proc.devRef .tc main_v15) = val_main_v15 (F := F) x0)
    (h_v10 : W (Proc.devRef .tc main_v10) = val_main_v10 (F := F) x0)
    (h_v19 : W (Proc.devRef .tc main_v19) = val_main_v19 (F := F) x1) :
    after (part2 (F := F)) W (Proc.devRef .tc main_v118) = val_main_v118 (F := F) x0 x1 := by
  after_results_simp
  simp only [h_v24, h_arg1, h_v15, h_v10, h_v19]
  rfl

set_option maxHeartbeats 4000000 in
theorem p2_v119 (W : Valuation τ sig (Elt F)) (x0 : (⟨S4000000x5, .f32⟩ : BufTy).Contents (Elt F)) (x1 : (⟨S4000000, .i32⟩ : BufTy).Contents (Elt F))
    (h_v24 : W (Proc.devRef .tc main_v24) = val_main_v24 (F := F) x0 x1)
    (h_arg1 : W (Proc.devRef .tc main_arg1) = x1)
    (h_v15 : W (Proc.devRef .tc main_v15) = val_main_v15 (F := F) x0)
    (h_v10 : W (Proc.devRef .tc main_v10) = val_main_v10 (F := F) x0)
    (h_v19 : W (Proc.devRef .tc main_v19) = val_main_v19 (F := F) x1) :
    after (part2 (F := F)) W (Proc.devRef .tc main_v119) = val_main_v119 (F := F) x0 x1 := by
  after_results_simp
  simp only [h_v24, h_arg1, h_v15, h_v10, h_v19]
  rfl

set_option maxHeartbeats 4000000 in
theorem p2_v120 (W : Valuation τ sig (Elt F)) (x0 : (⟨S4000000x5, .f32⟩ : BufTy).Contents (Elt F)) (x1 : (⟨S4000000, .i32⟩ : BufTy).Contents (Elt F))
    (h_v24 : W (Proc.devRef .tc main_v24) = val_main_v24 (F := F) x0 x1)
    (h_arg1 : W (Proc.devRef .tc main_arg1) = x1)
    (h_v15 : W (Proc.devRef .tc main_v15) = val_main_v15 (F := F) x0)
    (h_v10 : W (Proc.devRef .tc main_v10) = val_main_v10 (F := F) x0)
    (h_v19 : W (Proc.devRef .tc main_v19) = val_main_v19 (F := F) x1) :
    after (part2 (F := F)) W (Proc.devRef .tc main_v120) = val_main_v120 (F := F) x0 x1 := by
  after_results_simp
  simp only [h_v24, h_arg1, h_v15, h_v10, h_v19]
  rfl

set_option maxHeartbeats 4000000 in
theorem p2_v121 (W : Valuation τ sig (Elt F)) (x0 : (⟨S4000000x5, .f32⟩ : BufTy).Contents (Elt F)) (x1 : (⟨S4000000, .i32⟩ : BufTy).Contents (Elt F))
    (h_v24 : W (Proc.devRef .tc main_v24) = val_main_v24 (F := F) x0 x1)
    (h_arg1 : W (Proc.devRef .tc main_arg1) = x1)
    (h_v15 : W (Proc.devRef .tc main_v15) = val_main_v15 (F := F) x0)
    (h_v10 : W (Proc.devRef .tc main_v10) = val_main_v10 (F := F) x0)
    (h_v19 : W (Proc.devRef .tc main_v19) = val_main_v19 (F := F) x1) :
    after (part2 (F := F)) W (Proc.devRef .tc main_v121) = val_main_v121 (F := F) x0 x1 := by
  after_results_simp
  simp only [h_v24, h_arg1, h_v15, h_v10, h_v19]
  rfl

set_option maxHeartbeats 4000000 in
theorem p2_v122 (W : Valuation τ sig (Elt F)) (x0 : (⟨S4000000x5, .f32⟩ : BufTy).Contents (Elt F)) (x1 : (⟨S4000000, .i32⟩ : BufTy).Contents (Elt F))
    (h_v24 : W (Proc.devRef .tc main_v24) = val_main_v24 (F := F) x0 x1)
    (h_arg1 : W (Proc.devRef .tc main_arg1) = x1)
    (h_v15 : W (Proc.devRef .tc main_v15) = val_main_v15 (F := F) x0)
    (h_v10 : W (Proc.devRef .tc main_v10) = val_main_v10 (F := F) x0)
    (h_v19 : W (Proc.devRef .tc main_v19) = val_main_v19 (F := F) x1) :
    after (part2 (F := F)) W (Proc.devRef .tc main_v122) = val_main_v122 (F := F) x0 x1 := by
  after_results_simp
  simp only [h_v24, h_arg1, h_v15, h_v10, h_v19]
  rfl

set_option maxHeartbeats 4000000 in
theorem p2_keep_arg0 (W : Valuation τ sig (Elt F)) : after (part2 (F := F)) W (Proc.devRef .tc main_arg0) = W (Proc.devRef .tc main_arg0) := by
  after_results_simp

set_option maxHeartbeats 4000000 in
theorem p2_keep_arg1 (W : Valuation τ sig (Elt F)) : after (part2 (F := F)) W (Proc.devRef .tc main_arg1) = W (Proc.devRef .tc main_arg1) := by
  after_results_simp

set_option maxHeartbeats 4000000 in
theorem p2_keep_v19 (W : Valuation τ sig (Elt F)) : after (part2 (F := F)) W (Proc.devRef .tc main_v19) = W (Proc.devRef .tc main_v19) := by
  after_results_simp

set_option maxHeartbeats 4000000 in
theorem p2_keep_v22 (W : Valuation τ sig (Elt F)) : after (part2 (F := F)) W (Proc.devRef .tc main_v22) = W (Proc.devRef .tc main_v22) := by
  after_results_simp

/-! ## Stretch 3: the join of the four quotients -/

set_option maxHeartbeats 4000000 in
theorem p3_v123 (W : Valuation τ sig (Elt F)) (x0 : (⟨S4000000x5, .f32⟩ : BufTy).Contents (Elt F)) (x1 : (⟨S4000000, .i32⟩ : BufTy).Contents (Elt F))
    (h_v119 : W (Proc.devRef .tc main_v119) = val_main_v119 (F := F) x0 x1)
    (h_v120 : W (Proc.devRef .tc main_v120) = val_main_v120 (F := F) x0 x1)
    (h_v121 : W (Proc.devRef .tc main_v121) = val_main_v121 (F := F) x0 x1)
    (h_v122 : W (Proc.devRef .tc main_v122) = val_main_v122 (F := F) x0 x1) :
    after (part3 (F := F)) W (Proc.devRef .tc main_v123) = val_main_v123 (F := F) x0 x1 := by
  rw [after_cons, after_nil, nary4_result]
  show concatenate S4 0 [⟨S1, W (Proc.devRef .tc main_v119)⟩, ⟨S1, W (Proc.devRef .tc main_v120)⟩, ⟨S1, W (Proc.devRef .tc main_v121)⟩, ⟨S1, W (Proc.devRef .tc main_v122)⟩] concatenates_S1_S1_S1_S1_S4_d0 = _
  rw [h_v119, h_v120, h_v121, h_v122]
  rfl

set_option maxHeartbeats 4000000 in
theorem p3_keep_arg0 (W : Valuation τ sig (Elt F)) : after (part3 (F := F)) W (Proc.devRef .tc main_arg0) = W (Proc.devRef .tc main_arg0) := by
  after_results_simp

set_option maxHeartbeats 4000000 in
theorem p3_keep_arg1 (W : Valuation τ sig (Elt F)) : after (part3 (F := F)) W (Proc.devRef .tc main_arg1) = W (Proc.devRef .tc main_arg1) := by
  after_results_simp

set_option maxHeartbeats 4000000 in
theorem p3_keep_v19 (W : Valuation τ sig (Elt F)) : after (part3 (F := F)) W (Proc.devRef .tc main_v19) = W (Proc.devRef .tc main_v19) := by
  after_results_simp

set_option maxHeartbeats 4000000 in
theorem p3_keep_v22 (W : Valuation τ sig (Elt F)) : after (part3 (F := F)) W (Proc.devRef .tc main_v22) = W (Proc.devRef .tc main_v22) := by
  after_results_simp

set_option maxHeartbeats 4000000 in
theorem p3_keep_v32 (W : Valuation τ sig (Elt F)) : after (part3 (F := F)) W (Proc.devRef .tc main_v32) = W (Proc.devRef .tc main_v32) := by
  after_results_simp

set_option maxHeartbeats 4000000 in
theorem p3_keep_v37 (W : Valuation τ sig (Elt F)) : after (part3 (F := F)) W (Proc.devRef .tc main_v37) = W (Proc.devRef .tc main_v37) := by
  after_results_simp

set_option maxHeartbeats 4000000 in
theorem p3_keep_v118 (W : Valuation τ sig (Elt F)) : after (part3 (F := F)) W (Proc.devRef .tc main_v118) = W (Proc.devRef .tc main_v118) := by
  after_results_simp

/-! ## Stretch 4: the scalar tail -/

set_option maxHeartbeats 4000000 in
theorem p4_v141 (W : Valuation τ sig (Elt F)) (x0 : (⟨S4000000x5, .f32⟩ : BufTy).Contents (Elt F)) (x1 : (⟨S4000000, .i32⟩ : BufTy).Contents (Elt F))
    (h_v123 : W (Proc.devRef .tc main_v123) = val_main_v123 (F := F) x0 x1)
    (h_v19 : W (Proc.devRef .tc main_v19) = val_main_v19 (F := F) x1)
    (h_v22 : W (Proc.devRef .tc main_v22) = val_main_v22 (F := F) x1)
    (h_v32 : W (Proc.devRef .tc main_v32) = val_main_v32 (F := F) x0 x1)
    (h_v37 : W (Proc.devRef .tc main_v37) = val_main_v37 (F := F) x0 x1)
    (h_v118 : W (Proc.devRef .tc main_v118) = val_main_v118 (F := F) x0 x1) :
    after (part4 (F := F)) W (Proc.devRef .tc main_v141) = val_main_v141 (F := F) x0 x1 := by
  after_results_simp
  simp only [h_v123, h_v19, h_v22, h_v32, h_v37, h_v118]
  rfl

set_option maxHeartbeats 4000000 in
theorem p4_keep_arg0 (W : Valuation τ sig (Elt F)) : after (part4 (F := F)) W (Proc.devRef .tc main_arg0) = W (Proc.devRef .tc main_arg0) := by
  after_results_simp

set_option maxHeartbeats 4000000 in
theorem p4_keep_arg1 (W : Valuation τ sig (Elt F)) : after (part4 (F := F)) W (Proc.devRef .tc main_arg1) = W (Proc.devRef .tc main_arg1) := by
  after_results_simp

end Cert.ReferenceIdeal.Stages

end
-- ==== Proof.RefRunBy.lean ====
/-
  The reference's run, assembled from its five stretches. The contents after all of @main's operations are those after the
  last stretch started from those after the stretch before, and so on back to the launch contents; each stretch hands the
  next the stage values it reads, and leaves alone the buffers it does not write. So the result buffer ends at the last
  stage's value of the two arguments, and the arguments end as launched; every weakly fair execution reaches that state.
-/
import proofs.«420255_j67396626809312_1_alg».proof.Proof.RefStages

noncomputable section

namespace Cert.ReferenceIdeal.Stages

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F] (m : (ℓ : Loc nD τ sig) → Buf (Elt F) ℓ) (ρ : Dev nD → PrngReg) (c : Dev nD)

/-- After all operations the result buffer holds the last stage's value of the two arguments. -/
theorem after_v141 :
    after (ops (F := F)) (launchContents m c) (Proc.devRef .tc main_v141) = val_main_v141 (F := F) (m ((c.tc : Thread nD τ).loc main_arg0)) (m ((c.tc : Thread nD τ).loc main_arg1)) := by
  rw [ops_eq, StableHlo.after_append, StableHlo.after_append, StableHlo.after_append, StableHlo.after_append]
  -- after stretch 0
  have a1 := p0_arg1 m c
  have h10 := p0_v10 m c
  have h15 := p0_v15 m c
  have h19 := p0_v19 m c
  have h22 := p0_v22 m c
  have h5 := p0_call0_v5 m c
  have h12 := p0_call0_v12 m c
  -- after stretch 1
  have h24 := p1_v24 _ _ _ h10 h5 h12
  have b1 := (p1_keep_arg1 _).trans a1
  have b10 := (p1_keep_v10 _).trans h10
  have b15 := (p1_keep_v15 _).trans h15
  have b19 := (p1_keep_v19 _).trans h19
  have b22 := (p1_keep_v22 _).trans h22
  -- after stretch 2
  have h32 := p2_v32 _ _ _ h24 b1 b15 b10 b19
  have h37 := p2_v37 _ _ _ h24 b1 b15 b10 b19
  have h118 := p2_v118 _ _ _ h24 b1 b15 b10 b19
  have h119 := p2_v119 _ _ _ h24 b1 b15 b10 b19
  have h120 := p2_v120 _ _ _ h24 b1 b15 b10 b19
  have h121 := p2_v121 _ _ _ h24 b1 b15 b10 b19
  have h122 := p2_v122 _ _ _ h24 b1 b15 b10 b19
  have c19 := (p2_keep_v19 _).trans b19
  have c22 := (p2_keep_v22 _).trans b22
  -- after stretch 3
  have h123 := p3_v123 _ _ _ h119 h120 h121 h122
  have d19 := (p3_keep_v19 _).trans c19
  have d22 := (p3_keep_v22 _).trans c22
  have d32 := (p3_keep_v32 _).trans h32
  have d37 := (p3_keep_v37 _).trans h37
  have d118 := (p3_keep_v118 _).trans h118
  -- stretch 4
  exact p4_v141 _ _ _ h123 d19 d22 d32 d37 d118

/-- No operation writes the first argument. -/
theorem after_arg0 : after (ops (F := F)) (launchContents m c) (Proc.devRef .tc main_arg0) = m ((c.tc : Thread nD τ).loc main_arg0) := by
  rw [ops_eq, StableHlo.after_append, StableHlo.after_append, StableHlo.after_append, StableHlo.after_append]
  exact (p4_keep_arg0 _).trans ((p3_keep_arg0 _).trans ((p2_keep_arg0 _).trans ((p1_keep_arg0 _).trans (p0_arg0 m c))))

/-- No operation writes the second argument. -/
theorem after_arg1 : after (ops (F := F)) (launchContents m c) (Proc.devRef .tc main_arg1) = m ((c.tc : Thread nD τ).loc main_arg1) := by
  rw [ops_eq, StableHlo.after_append, StableHlo.after_append, StableHlo.after_append, StableHlo.after_append]
  exact (p4_keep_arg1 _).trans ((p3_keep_arg1 _).trans ((p2_keep_arg1 _).trans ((p1_keep_arg1 _).trans (p0_arg1 m c))))

/-- On every device, for any float values, from any memory with zero counters: every weakly fair execution of @main
    terminates with the result at the last stage's value of the arguments and the arguments unchanged. -/
theorem run :
    θ_run defs (onTc (τ := τ) (main (F := F))) ⟨m, fun _ => 0, ρ⟩ fun r => ∀ c : Dev nD,
      r.2.mem ((c.tc : Thread nD τ).loc main_v141) = val_main_v141 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v141).trans (after_v141 m c), (h c main_arg0).trans (after_arg0 m c),
      (h c main_arg1).trans (after_arg1 m c)⟩)
    (run_seq scopedRefs_eq scopedSems_eq defs main (fun _ => ops) main_eq (fun _ => ops_sub) m ρ)

end Cert.ReferenceIdeal.Stages

end
-- ==== Proof.KPieces.lean ====
/-
  What each of the body's two control cases leaves in the accumulator's staging buffer, as a value: at the first grid
  point the zero block plus the point's partial sums, at every later point what the point before left plus them.
-/
import proofs.«420255_j67396626809312_1_alg».proof.Proof.Gen.KernelIdeal.Frame
import Idealize.ShloMosaic.Lib.Pipeline.Value
import Idealize.ShloMosaic.Lib.Tactic

noncomputable section

namespace Cert.KernelIdeal.KPieces

open Cert.KernelIdeal Cert.KernelIdeal.Gen Idealize.ShloMosaic Idealize.ShloMosaic.TcCoe Idealize.SL.Sem

variable {F : FTy → Type} [FloatOps F]

/-- The zero offsets of a rank-2 access, as the constant function. -/
theorem hz2 : (![0, 0] : Fin 2 → Nat) = fun _ => 0 := funext fun a => by fin_cases a <;> rfl

/-- The zero offset of a rank-1 access, as the constant function. -/
theorem hz1 : (![0] : Fin 1 → Nat) = fun _ => 0 := funext fun a => by fin_cases a; rfl

/-- The first point: the body resets the accumulator to the zero block, reads it back and stores it plus the partial sums. -/
theorem out_A (c : Dev nD) (i : grid0.Coords) (a1 : Memref sig .tc .vmem S8192x5 .f32) (h1 : a1.IsWhole)
    (a2 : Memref sig .tc .vmem S8192 .i32) (h2 : a2.IsWhole) (a3 : Memref sig .tc .vmem S1x23 .f32) (h3 : a3.IsWhole)
    (hc : cond0_0 i) (x0 : Vec F S8192x5 .f32) (x1 : Vec F S8192 .i32) :
    out0_A_2 c i a1 h1 a2 h2 a3 h3 hc x0 x1
      = k0_pay1 (k0_pay3 x0) (k0_pay4 x1) (k0_pay6 x0) (k0_pay7 x1) (k0_pay8 x0 x1) (k0_pay10 x0) (k0_pay11 x0 x1) (k0_pay12 x0 x1) (k0_pay2 (F := F)) := by
  unfold out0_A_2
  rw [View.read_writes_eq_canon _ _ _ (cover0_A_2 c i a1 h1 a2 h2 a3 h3 hc x0 x1)]
  unfold kernelRun0_A
  dsimp only
  sl_unfold_words
  rw [View.canon_cons_unit_zero (S := S1x23) hz2, View.readCov_unit_zero (S := S1x23) _ hz2]
  simp only [View.readAt_eq_ld, h1.read_unread, h2.read_unread,
    View.ld_unit_zero (S := S8192x5) hz2, View.ld_unit_zero (S := S8192) hz1]

/-- A later point: the body stores what the accumulator held plus the partial sums. -/
theorem out_B (c : Dev nD) (i : grid0.Coords) (a1 : Memref sig .tc .vmem S8192x5 .f32) (h1 : a1.IsWhole)
    (a2 : Memref sig .tc .vmem S8192 .i32) (h2 : a2.IsWhole) (a3 : Memref sig .tc .vmem S1x23 .f32) (h3 : a3.IsWhole)
    (hc : ¬cond0_0 i) (x0 : Vec F S8192x5 .f32) (x1 : Vec F S8192 .i32) (xo : Vec F S1x23 .f32) :
    out0_B_2 c i a1 h1 a2 h2 a3 h3 hc x0 x1 xo
      = k0_pay1 (k0_pay3 x0) (k0_pay4 x1) (k0_pay6 x0) (k0_pay7 x1) (k0_pay8 x0 x1) (k0_pay10 x0) (k0_pay11 x0 x1) (k0_pay12 x0 x1) xo := by
  unfold out0_B_2
  rw [View.read_writes_eq_canon _ _ _ (cover0_B_2 c i a1 h1 a2 h2 a3 h3 hc x0 x1 xo)]
  unfold kernelRun0_B
  dsimp only
  sl_unfold_words
  rw [View.canon_unit_zero hz2]
  simp only [View.readAt_eq_ld, h1.read_unread, h2.read_unread, h3.read_unread,
    View.ld_unit_zero (S := S8192x5) hz2, View.ld_unit_zero (S := S8192) hz1, View.ld_unit_zero (S := S1x23) hz2]

end Cert.KernelIdeal.KPieces

end
-- ==== Proof.RowSpec.lean ====
/-
  The quantities both programs compute, on the extended reals.

  One row is five logits `x` and a label word `t`. From the logits: the softmax `prob x c = exp (x c - max x) / ∑ exp (x c' - max x)`
  and the negated logarithm `nlp x c = -log (prob x c + ε)`. From the label: the indicator `hot t c` of `t = c`, which is `0` for
  every class when the label is outside `0 … 4`. A row contributes twenty-three terms (`rowTerm`), laid out as the accumulator is:
  five class counts, five class losses, four losses against the last class, four selection counts, four confidence ratios and one
  last-class confidence. The loss is a fixed scalar function (`tailOf`) of the twenty-three sums over the rows (`rowSums`).
-/
import Idealize.ShloMosaic.PureOps.Ideal
import Idealize.ShloMosaic.Lib.ValueIdx

noncomputable section

open scoped BigOperators

namespace Cert.RowSpec

open Idealize.ShloMosaic Idealize.ShloMosaic.ValueIdx

/-! ## The float words of the two programs, as extended reals -/

abbrev negInfW : EReal := Ideal.ofBits .f32 0xFF800000#32
abbrev zeroW : EReal := Ideal.ofBits .f32 0x00000000#32
abbrev oneW : EReal := Ideal.ofBits .f32 0x3F800000#32
abbrev epsW : EReal := Ideal.ofBits .f32 0x3089705F#32
abbrev halfW : EReal := Ideal.ofBits .f32 0x3F000000#32
abbrev fourHalfW : EReal := Ideal.ofBits .f32 0x40900000#32
abbrev rowsW : EReal := Ideal.ofBits .f32 0x4A742400#32
abbrev fourW : EReal := Ideal.ofBits .f32 0x40800000#32

/-! ## One row -/

/-- The largest of a row's five logits (a fold of `max` from `-∞`). -/
def rowMax (x : Fin 5 → EReal) : EReal := (Finset.univ : Finset (Fin 5)).fold max negInfW x

/-- The shifted exponential of logit `c`. -/
def ex (x : Fin 5 → EReal) (c : Fin 5) : EReal := Ideal.exp (x c - rowMax x)

/-- The softmax's denominator. -/
def den (x : Fin 5 → EReal) : EReal := ∑ c : Fin 5, ex x c

/-- The softmax probability of class `c`. -/
def prob (x : Fin 5 → EReal) (c : Fin 5) : EReal := Ideal.div (ex x c) (den x)

/-- The negated logarithm of class `c`'s probability, shifted by `ε`. -/
def nlp (x : Fin 5 → EReal) (c : Fin 5) : EReal := -(Ideal.log (prob x c + epsW))

/-- A one-bit word as the number `0` or `1`. -/
def bitE (b : BitVec 1) : EReal := if b = 1#1 then 1 else 0

/-- The indicator that the label word is class `c`. -/
def hot (t : BitVec 32) (c : Fin 5) : EReal := if t = BitVec.ofNat 32 c.val then 1 else 0

/-- A positive class read as one of the five. -/
abbrev up (i : Fin 4) : Fin 5 := ⟨i.val, by omega⟩

/-- The last (negative) class. -/
abbrev last : Fin 5 := ⟨4, by omega⟩

/-- The row is selected for positive class `i`: its probability exceeds one half and the label is `i`. -/
def sel (x : Fin 5 → EReal) (t : BitVec 32) (i : Fin 4) : EReal :=
  bitE (Ideal.cmp .ogt (prob x (up i)) halfW) * hot t (up i)

/-- The confidence ratio of a selected row for positive class `i`, `0` for a row not selected. -/
def ratio (x : Fin 5 → EReal) (t : BitVec 32) (i : Fin 4) : EReal :=
  if Ideal.cmp .ogt (sel x t i) zeroW = 1#1 then Ideal.div (nlp x last) (prob x (up i)) else zeroW

/-- How many of the five probabilities are at most one half. -/
def lowCount (x : Fin 5 → EReal) : EReal := ∑ c : Fin 5, bitE (Ideal.cmp .ole (prob x c) halfW)

/-- The last-class confidence term: every probability at most one half and the label the last class. -/
def lastConf (x : Fin 5 → EReal) (t : BitVec 32) : EReal :=
  (bitE (Ideal.cmp .oge (lowCount x) fourHalfW) * hot t last) * nlp x last

/-- The twenty-three terms a row contributes, in the accumulator's layout. -/
def rowTerm (x : Fin 5 → EReal) (t : BitVec 32) (j : Fin 23) : EReal :=
  if h0 : j.val < 5 then hot t ⟨j.val, h0⟩
  else if h1 : j.val < 10 then hot t ⟨j.val - 5, by omega⟩ * nlp x ⟨j.val - 5, by omega⟩
  else if h2 : j.val < 14 then hot t ⟨j.val - 10, by omega⟩ * nlp x last
  else if h3 : j.val < 18 then sel x t ⟨j.val - 14, by omega⟩
  else if h4 : j.val < 22 then ratio x t ⟨j.val - 18, by omega⟩
  else lastConf x t

theorem rowTerm_count (x : Fin 5 → EReal) (t : BitVec 32) (c : Fin 5) :
    rowTerm x t ⟨c.val, by omega⟩ = hot t c := by
  unfold rowTerm; rw [dif_pos (show c.val < 5 from c.isLt)]

theorem rowTerm_closs (x : Fin 5 → EReal) (t : BitVec 32) (c : Fin 5) :
    rowTerm x t ⟨5 + c.val, by omega⟩ = hot t c * nlp x c := by
  unfold rowTerm
  rw [dif_neg (show ¬(5 + c.val < 5) by omega), dif_pos (show 5 + c.val < 10 by omega)]
  have : (⟨5 + c.val - 5, by omega⟩ : Fin 5) = c := Fin.ext (by show 5 + c.val - 5 = c.val; omega)
  simp only [this]

theorem rowTerm_lossneg (x : Fin 5 → EReal) (t : BitVec 32) (i : Fin 4) :
    rowTerm x t ⟨10 + i.val, by omega⟩ = hot t (up i) * nlp x last := by
  unfold rowTerm
  rw [dif_neg (show ¬(10 + i.val < 5) by omega), dif_neg (show ¬(10 + i.val < 10) by omega),
    dif_pos (show 10 + i.val < 14 by omega)]
  have : (⟨10 + i.val - 10, by omega⟩ : Fin 5) = up i := Fin.ext (by show 10 + i.val - 10 = i.val; omega)
  simp only [this]

theorem rowTerm_sel (x : Fin 5 → EReal) (t : BitVec 32) (i : Fin 4) :
    rowTerm x t ⟨14 + i.val, by omega⟩ = sel x t i := by
  unfold rowTerm
  rw [dif_neg (show ¬(14 + i.val < 5) by omega), dif_neg (show ¬(14 + i.val < 10) by omega),
    dif_neg (show ¬(14 + i.val < 14) by omega), dif_pos (show 14 + i.val < 18 by omega)]
  have : (⟨14 + i.val - 14, by omega⟩ : Fin 4) = i := Fin.ext (by show 14 + i.val - 14 = i.val; omega)
  simp only [this]

theorem rowTerm_ratio (x : Fin 5 → EReal) (t : BitVec 32) (i : Fin 4) :
    rowTerm x t ⟨18 + i.val, by omega⟩ = ratio x t i := by
  unfold rowTerm
  rw [dif_neg (show ¬(18 + i.val < 5) by omega), dif_neg (show ¬(18 + i.val < 10) by omega),
    dif_neg (show ¬(18 + i.val < 14) by omega), dif_neg (show ¬(18 + i.val < 18) by omega),
    dif_pos (show 18 + i.val < 22 by omega)]
  have : (⟨18 + i.val - 18, by omega⟩ : Fin 4) = i := Fin.ext (by show 18 + i.val - 18 = i.val; omega)
  simp only [this]

theorem rowTerm_lastConf (x : Fin 5 → EReal) (t : BitVec 32) :
    rowTerm x t ⟨22, by omega⟩ = lastConf x t := by
  unfold rowTerm
  rw [dif_neg (show ¬((22 : Nat) < 5) by omega), dif_neg (show ¬((22 : Nat) < 10) by omega),
    dif_neg (show ¬((22 : Nat) < 14) by omega), dif_neg (show ¬((22 : Nat) < 18) by omega),
    dif_neg (show ¬((22 : Nat) < 22) by omega)]

/-! ## All the rows -/

/-- Row `n` of a matrix of logits. -/
abbrev rowOf {N : Nat} (X : (⟨2, ![N, 5]⟩ : Shape).Idx → EReal) (n : Fin N) : Fin 5 → EReal := fun c => X (ix2 n c)

/-- The twenty-three sums over the rows. -/
def rowSums {N : Nat} (X : (⟨2, ![N, 5]⟩ : Shape).Idx → EReal) (T : (⟨1, ![N]⟩ : Shape).Idx → BitVec 32) (j : Fin 23) : EReal :=
  ∑ n : Fin N, rowTerm (rowOf X n) (T (ix1 n)) j

/-! ## The scalar tail -/

/-- The empirical prior of positive class `i`: its count over the number of rows. -/
def prior (S : Fin 23 → EReal) (i : Fin 4) : EReal := Ideal.div (S ⟨i.val, by omega⟩) rowsW

/-- The count of positive class `i`, at least one. -/
def cntMax (S : Fin 23 → EReal) (i : Fin 4) : EReal := max oneW (S ⟨i.val, by omega⟩)

/-- The loss from the twenty-three sums. -/
def tailOf (S : Fin 23 → EReal) : EReal :=
  (if Ideal.cmp .olt
      (fourW * (((zeroW + ∑ i : Fin 4, Ideal.div (prior S i * S ⟨5 + i.val, by omega⟩) (cntMax S i))
        + (zeroW + ∑ i : Fin 4, prior S i * Ideal.div (S ⟨18 + i.val, by omega⟩) (max (S ⟨14 + i.val, by omega⟩) oneW)))
        - (zeroW + ∑ i : Fin 4, Ideal.div (prior S i * S ⟨10 + i.val, by omega⟩) (cntMax S i)))) zeroW = 1#1
    then zeroW
    else fourW * (((zeroW + ∑ i : Fin 4, Ideal.div (prior S i * S ⟨5 + i.val, by omega⟩) (cntMax S i))
        + (zeroW + ∑ i : Fin 4, prior S i * Ideal.div (S ⟨18 + i.val, by omega⟩) (max (S ⟨14 + i.val, by omega⟩) oneW)))
        - (zeroW + ∑ i : Fin 4, Ideal.div (prior S i * S ⟨10 + i.val, by omega⟩) (cntMax S i))))
    + Ideal.div (S ⟨22, by omega⟩) (max (S ⟨4, by omega⟩) oneW)

/-- The loss of a batch of rows. -/
def total {N : Nat} (X : (⟨2, ![N, 5]⟩ : Shape).Idx → EReal) (T : (⟨1, ![N]⟩ : Shape).Idx → BitVec 32) : EReal :=
  tailOf (rowSums X T)

end Cert.RowSpec

end
-- ==== Proof.KRow.lean ====
/-
  The kernel body's three row-wise values, read at a row `r` and a class `c` of a block: the softmax probability,
  the label's indicator, and the negated logarithm — each is the specification's function of row `r` of the block.
-/
import proofs.«420255_j67396626809312_1_alg».proof.Proof.Gen.KernelIdeal.Skeleton
import proofs.«420255_j67396626809312_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KRow

open Cert.KernelIdeal Cert.KernelIdeal.Gen Cert.RowSpec Idealize.ShloMosaic Idealize.ShloMosaic.ValueIdx

/-- Row `r` of a block of logits. -/
abbrev brow (x0 : Vec Ideal S8192x5 .f32) (r : Fin 8192) : Fin 5 → EReal := fun c => x0 (ix2 r c)

/-! ## The keep-dims column forms, and the lane reductions of a block read at a row -/

/-- An [a] array cast to [a, 1] reads, at (i, u), the operand at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's one column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Inserting class k into the row index r gives the block index (r, k). -/
theorem lift_row (h : S8192x5.Reduces [1] S8192) (r : Fin 8192) (k : Fin 5) :
    h.lift (ix1 r) k = ix2 r k := by
  funext a
  match a with
  | ⟨0, _⟩ => rfl
  | ⟨1, _⟩ => rfl

/-- The lane maximum over the classes, at row r, is the row's maximum. -/
theorem laneMax_apply (x : FVec Ideal S8192x5 .f32) (h : S8192x5.Reduces [1] S8192) (hφ : FKind.Formats .f32)
    (hacc : (0xFF800000#32 : BitVec 32) = FKind.maximumf.neutral .f32 hφ) (r : Fin 8192) :
    multiReduction .maximumf [1] S8192 x 0xFF800000#32 h hφ hacc (ix1 r) = rowMax (fun c => x (ix2 r c)) := by
  refine (Ideal.multiReduction_maximumf_single x _ h hφ hacc (ix1 r)).trans ?_
  unfold rowMax
  refine congrArg (fun f => (Finset.univ : Finset (Fin 5)).fold max negInfW f) ?_
  funext k
  exact congrArg x (lift_row h r k)

/-- The lane sum over the classes, at row r, is the sum of the row. -/
theorem laneSum_apply (x : FVec Ideal S8192x5 .f32) (h : S8192x5.Reduces [1] S8192) (hφ : FKind.Formats .f32)
    (hacc : (0x00000000#32 : BitVec 32) = FKind.add.neutral .f32 hφ) (r : Fin 8192) :
    multiReduction .add [1] S8192 x 0x00000000#32 h hφ hacc (ix1 r) = ∑ c : Fin 5, x (ix2 r c) := by
  refine (Ideal.multiReduction_add_single x _ h hφ hacc (ix1 r)).trans ?_
  refine Finset.sum_congr rfl fun k _ => ?_
  exact congrArg x (lift_row h r k)

/-- A per-row value kept as a column and spread over the classes reads, at (r, c), the value of row r. -/
theorem keepdims_apply {α : Type} (v : S8192.Idx → α) (h1 : S8192.ShapeCasts S8192x1) (h2 : S8192x1.Broadcasts S8192x5)
    (r : Fin 8192) (c : Fin 5) :
    broadcastTo S8192x5 (shapeCast S8192x1 v h1) h2 (ix2 r c) = v (ix1 r) :=
  (broadcastTo_a1_ab_apply _ h2 r c).trans (shapeCast_a_a1_apply v h1 r 0)

/-- The exponential of a block shifted by a per-row value, at (r, c). -/
theorem expShift_apply (x : FVec Ideal S8192x5 .f32) (m : FVec Ideal S8192 .f32) (h1 : S8192.ShapeCasts S8192x1)
    (h2 : S8192x1.Broadcasts S8192x5) (r : Fin 8192) (c : Fin 5) :
    exp (subf x (broadcastTo S8192x5 (shapeCast S8192x1 m h1) h2)) (ix2 r c) = Ideal.exp (x (ix2 r c) - m (ix1 r)) :=
  congrArg (fun z => Ideal.exp (x (ix2 r c) - z)) (keepdims_apply m h1 h2 r c)

/-- The shifted exponentials of a block, at (r, c). -/
theorem exps_apply (x0 : FVec Ideal S8192x5 .f32) (h : S8192x5.Reduces [1] S8192) (hφ : FKind.Formats .f32)
    (hacc : (0xFF800000#32 : BitVec 32) = FKind.maximumf.neutral .f32 hφ)
    (h1 : S8192.ShapeCasts S8192x1) (h2 : S8192x1.Broadcasts S8192x5) (r : Fin 8192) (c : Fin 5) :
    exp (subf x0 (broadcastTo S8192x5 (shapeCast S8192x1 (multiReduction .maximumf [1] S8192 x0 0xFF800000#32 h hφ hacc) h1) h2)) (ix2 r c)
      = ex (fun k => x0 (ix2 r k)) c :=
  (expShift_apply x0 _ h1 h2 r c).trans (congrArg (fun z => Ideal.exp (x0 (ix2 r c) - z)) (laneMax_apply x0 h hφ hacc r))

/-- The one-bit word of an equality test, widened to a word and read as a number, is the indicator of the equality. -/
theorem eqBit_toReal (t u : BitVec 32) :
    (FloatOps.sitofp (F := Ideal) .f32 ((IntOp.cmpi .eq t u).setWidth 32) : EReal) = if t = u then 1 else 0 := by
  show (((((IntOp.cmpi .eq t u).setWidth 32).toInt : ℝ)) : EReal) = _
  unfold IntOp.cmpi
  by_cases h : t = u
  · subst h
    simp
  · have hb : (t == u) = false := by simpa using h
    simp [hb, h]

/-! ## The three row-wise values -/

/-- The body's softmax at `(r, c)` is the row's softmax probability of class `c`. -/
theorem pay3_apply (x0 : Vec Ideal S8192x5 .f32) (r : Fin 8192) (c : Fin 5) :
    k0_pay3 (F := Ideal) x0 (ix2 r c) = prob (brow x0 r) c := by
  unfold k0_pay3
  simp only [shapeCast_self]
  refine (divf_apply _ _ _).trans ?_
  unfold prob
  refine congrArg₂ Ideal.div ?_ ?_
  · exact exps_apply x0 _ _ _ _ _ r c
  · refine (keepdims_apply _ _ _ r c).trans ?_
    refine (laneSum_apply _ _ _ _ r).trans ?_
    unfold den
    exact Finset.sum_congr rfl fun k _ => exps_apply x0 _ _ _ _ _ r k

/-- The body's one-hot at `(r, c)` is the indicator that row `r`'s label is `c`. -/
theorem pay4_apply (x1 : Vec Ideal S8192 .i32) (r : Fin 8192) (c : Fin 5) :
    k0_pay4 (F := Ideal) x1 (ix2 r c) = hot (x1 (ix1 r)) c := by
  unfold k0_pay4
  simp only [shapeCast_self]
  refine (congrArg₂ (fun a b => FloatOps.sitofp (F := Ideal) .f32 ((IntOp.cmpi .eq a b).setWidth 32))
    (keepdims_apply x1 _ _ r c) (iota_single_apply .tc S8192x5 32 1 _ (ix2 r c))).trans ?_
  exact eqBit_toReal _ _

/-- The body's negated logarithm at `(r, c)`. -/
theorem pay5_apply (x0 : Vec Ideal S8192x5 .f32) (r : Fin 8192) (c : Fin 5) :
    k0_pay5 (F := Ideal) x0 (ix2 r c) = nlp (brow x0 r) c := by
  unfold k0_pay5
  refine (congrArg (fun z => zeroW - Ideal.log (z + epsW)) (pay3_apply x0 r c)).trans ?_
  unfold nlp
  have hz : zeroW = 0 := Ideal.ofBits_zero_f32
  rw [hz, zero_sub]

end Cert.KernelIdeal.KRow

end
-- ==== Proof.KBlock.lean ====
/-
  What one grid point adds to the accumulator: entry `j` of the block's partial sums is the sum over the block's
  8192 rows of the row's term `j`, and the body stores the accumulator plus that.
-/
import proofs.«420255_j67396626809312_1_alg».proof.Proof.KRow

noncomputable section

open scoped BigOperators

namespace Cert.KernelIdeal.KBlock

open Cert.KernelIdeal Cert.KernelIdeal.Gen Cert.KernelIdeal.KRow Cert.RowSpec Idealize.ShloMosaic Idealize.ShloMosaic.ValueIdx

/-- A sum over the 8192 rows (axis 0) of an `[8192, n]` array, read at column `c`. -/
theorem colSum {n : Nat} (src : FVec Ideal ⟨2, ![8192, n]⟩ .f32) (h : (⟨2, ![8192, n]⟩ : Shape).Reduces [0] ⟨1, ![n]⟩)
    (hφ : FKind.Formats .f32) (hacc : (0x00000000#32 : BitVec 32) = FKind.add.neutral .f32 hφ) (c : Fin n) :
    multiReduction .add [0] ⟨1, ![n]⟩ src 0x00000000#32 h hφ hacc (ix1 c) = ∑ r : Fin 8192, src (ix2 r c) := by
  refine (Ideal.multiReduction_add_single src _ h hφ hacc (ix1 c)).trans ?_
  refine Finset.sum_congr rfl fun r _ => congrArg src ?_
  funext a
  match a with
  | ⟨0, _⟩ => rfl
  | ⟨1, _⟩ => rfl

/-- The same sum after the cast `[n] → [1, n]`. -/
theorem castColSum {n : Nat} (src : FVec Ideal ⟨2, ![8192, n]⟩ .f32) (h : (⟨2, ![8192, n]⟩ : Shape).Reduces [0] ⟨1, ![n]⟩)
    (hφ : FKind.Formats .f32) (hacc : (0x00000000#32 : BitVec 32) = FKind.add.neutral .f32 hφ)
    (hc : (⟨1, ![n]⟩ : Shape).ShapeCasts ⟨2, ![1, n]⟩) (u : Fin 1) (c : Fin n) :
    shapeCast ⟨2, ![1, n]⟩ (multiReduction .add [0] ⟨1, ![n]⟩ src 0x00000000#32 h hφ hacc) hc (ix2 u c)
      = ∑ r : Fin 8192, src (ix2 r c) :=
  (shapeCast_a_1a_apply _ hc u c).trans (colSum src h hφ hacc c)

/-- A sum over the five lanes (axis 1) of an `[8192, 5]` array, read at row `r`. -/
theorem laneSum (src : FVec Ideal ⟨2, ![8192, 5]⟩ .f32) (h : (⟨2, ![8192, 5]⟩ : Shape).Reduces [1] ⟨1, ![8192]⟩)
    (hφ : FKind.Formats .f32) (hacc : (0x00000000#32 : BitVec 32) = FKind.add.neutral .f32 hφ) (r : Fin 8192) :
    multiReduction .add [1] ⟨1, ![8192]⟩ src 0x00000000#32 h hφ hacc (ix1 r) = ∑ c : Fin 5, src (ix2 r c) := by
  refine (Ideal.multiReduction_add_single src _ h hφ hacc (ix1 r)).trans ?_
  refine Finset.sum_congr rfl fun c _ => congrArg src ?_
  funext a
  match a with
  | ⟨0, _⟩ => rfl
  | ⟨1, _⟩ => rfl

/-- One column broadcast over `n` columns. -/
theorem bcastCol {α : Type} {n : Nat} (v : (⟨2, ![8192, 1]⟩ : Shape).Idx → α)
    (h : (⟨2, ![8192, 1]⟩ : Shape).Broadcasts ⟨2, ![8192, n]⟩) (r : Fin 8192) (i : Fin n) :
    broadcastTo ⟨2, ![8192, n]⟩ v h (ix2 r i) = v (ix2 r (0 : Fin 1)) := by
  refine broadcastTo_apply v h (ix2 r i) (ix2 r (0 : Fin 1)) fun ax => ?_
  match ax with
  | ⟨0, _⟩ => rfl
  | ⟨1, _⟩ => rfl

/-- A vector cast to one column. -/
theorem castCol {α : Type} (x : (⟨1, ![8192]⟩ : Shape).Idx → α) (h : (⟨1, ![8192]⟩ : Shape).ShapeCasts ⟨2, ![8192, 1]⟩)
    (r : Fin 8192) (u : Fin 1) : shapeCast ⟨2, ![8192, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A one-bit word widened and read as a signed integer is the number `0` or `1`. -/
theorem sitofp_extui_bit (b : BitVec 1) :
    (FloatOps.sitofp (F := Ideal) .f32 (b.setWidth 32) : EReal) = bitE b := by
  unfold bitE
  by_cases h : b = 1#1
  · subst h
    rw [if_pos rfl]
    show (((((1#1 : BitVec 1).setWidth 32).toInt : ℤ) : ℝ) : EReal) = 1
    have e : ((1#1 : BitVec 1).setWidth 32).toInt = 1 := by decide
    rw [e]; norm_num
  · have h0 := eq_zero_of_ne_one h
    subst h0
    rw [if_neg (by decide)]
    show (((((0#1 : BitVec 1).setWidth 32).toInt : ℤ) : ℝ) : EReal) = 0
    have e : ((0#1 : BitVec 1).setWidth 32).toInt = 0 := by decide
    rw [e]; norm_num

/-- The first four columns of the one-hot. -/
theorem pay9_apply (x1 : Vec Ideal S8192 .i32) (r : Fin 8192) (i : Fin 4) :
    k0_pay9 (F := Ideal) x1 (ix2 r i) = hot (x1 (ix1 r)) (up i) := by
  unfold k0_pay9
  exact (slice2_axis1_apply 0 _ _ r i (up i) (by show i.val = 0 + i.val; omega)).trans (pay4_apply x1 r (up i))

/-- The first four columns of the softmax. -/
theorem pay10_apply (x0 : Vec Ideal S8192x5 .f32) (r : Fin 8192) (i : Fin 4) :
    k0_pay10 (F := Ideal) x0 (ix2 r i) = prob (brow x0 r) (up i) := by
  unfold k0_pay10
  exact (slice2_axis1_apply 0 _ _ r i (up i) (by show i.val = 0 + i.val; omega)).trans (pay3_apply x0 r (up i))

/-- The last column of the negated logarithm. -/
theorem pay6_apply (x0 : Vec Ideal S8192x5 .f32) (r : Fin 8192) (u : Fin 1) :
    k0_pay6 (F := Ideal) x0 (ix2 r u) = nlp (brow x0 r) last := by
  unfold k0_pay6
  exact (slice2_axis1_apply 4 _ _ r u last (by show 4 = 4 + u.val; omega)).trans (pay5_apply x0 r last)

/-- The class counts of the block. -/
theorem pay7_apply (x1 : Vec Ideal S8192 .i32) (u : Fin 1) (c : Fin 5) :
    k0_pay7 (F := Ideal) x1 (ix2 u c) = ∑ r : Fin 8192, hot (x1 (ix1 r)) c := by
  unfold k0_pay7
  refine (castColSum _ _ _ _ _ u c).trans ?_
  exact Finset.sum_congr rfl fun r _ => pay4_apply x1 r c

/-- The class losses of the block. -/
theorem pay8_apply (x0 : Vec Ideal S8192x5 .f32) (x1 : Vec Ideal S8192 .i32) (u : Fin 1) (c : Fin 5) :
    k0_pay8 (F := Ideal) x0 x1 (ix2 u c) = ∑ r : Fin 8192, hot (x1 (ix1 r)) c * nlp (brow x0 r) c := by
  unfold k0_pay8
  refine (castColSum _ _ _ _ _ u c).trans ?_
  refine Finset.sum_congr rfl fun r _ => ?_
  show k0_pay4 (F := Ideal) x1 (ix2 r c) * k0_pay5 (F := Ideal) x0 (ix2 r c) = _
  rw [pay4_apply, pay5_apply]

/-- The losses against the last class. -/
theorem pay11_apply (x0 : Vec Ideal S8192x5 .f32) (x1 : Vec Ideal S8192 .i32) (u : Fin 1) (i : Fin 4) :
    k0_pay11 (F := Ideal) x0 x1 (ix2 u i) = ∑ r : Fin 8192, hot (x1 (ix1 r)) (up i) * nlp (brow x0 r) last := by
  unfold k0_pay11
  refine (castColSum _ _ _ _ _ u i).trans ?_
  refine Finset.sum_congr rfl fun r _ => ?_
  show k0_pay9 (F := Ideal) x1 (ix2 r i)
      * broadcastTo S8192x4 (k0_pay6 (F := Ideal) x0) broadcasts_S8192x1_S8192x4 (ix2 r i) = _
  rw [pay9_apply, bcastCol, pay6_apply]

/-- The selection indicator of a row. -/
theorem pay12_apply (x0 : Vec Ideal S8192x5 .f32) (x1 : Vec Ideal S8192 .i32) (r : Fin 8192) (i : Fin 4) :
    k0_pay12 (F := Ideal) x0 x1 (ix2 r i) = sel (brow x0 r) (x1 (ix1 r)) i := by
  unfold k0_pay12 sel
  show FloatOps.sitofp (F := Ideal) .f32
        ((Ideal.cmp .ogt (k0_pay10 (F := Ideal) x0 (ix2 r i)) halfW).setWidth 32)
      * k0_pay9 (F := Ideal) x1 (ix2 r i) = _
  rw [sitofp_extui_bit, pay10_apply, pay9_apply]

/-- How many of a row's probabilities are at most one half, as the body counts them. -/
theorem lowCount_read (x0 : Vec Ideal S8192x5 .f32) (hφ : FKind.Formats .f32)
    (hacc : (0x00000000#32 : BitVec 32) = FKind.add.neutral .f32 hφ) (r : Fin 8192) (u : Fin 1) :
    shapeCast S8192x1
        (multiReduction (F := Ideal) .add [1] S8192
          (sitofp (F := Ideal) .f32 (extui 32 (cmpf .ole (k0_pay3 (F := Ideal) x0)
            (broadcast S8192x5 (FloatOps.ofBits (F := Ideal) .f32 0x3F000000#32))) natLt_1_32))
          0x00000000#32 reduces_S8192x5_S8192 hφ hacc)
        shapeCasts_S8192_S8192x1 (ix2 r u)
      = lowCount (brow x0 r) := by
  refine (castCol _ _ r u).trans ?_
  refine (laneSum _ _ _ _ r).trans ?_
  unfold lowCount
  refine Finset.sum_congr rfl fun c _ => ?_
  show FloatOps.sitofp (F := Ideal) .f32
      ((Ideal.cmp .ole (k0_pay3 (F := Ideal) x0 (ix2 r c)) halfW).setWidth 32) = _
  rw [sitofp_extui_bit, pay3_apply]

/-- The stored value at entry `j`: what the accumulator held there plus the block's sum of row terms. -/
theorem pay1_apply (x0 : Vec Ideal S8192x5 .f32) (x1 : Vec Ideal S8192 .i32) (xo : Vec Ideal S1x23 .f32) (j : Fin 23) :
    k0_pay1 (F := Ideal) (k0_pay3 x0) (k0_pay4 x1) (k0_pay6 x0) (k0_pay7 x1) (k0_pay8 x0 x1) (k0_pay10 x0) (k0_pay11 x0 x1) (k0_pay12 x0 x1) xo (ix2 (0 : Fin 1) j)
      = xo (ix2 (0 : Fin 1) j) + ∑ r : Fin 8192, rowTerm (brow x0 r) (x1 (ix1 r)) j := by
  unfold k0_pay1
  refine congrArg₂ (· + ·) (shapeCast_apply xo _ _ _ rfl) ?_
  have hi : ∀ {n : Nat} (q : Fin n) (b : Fin 2), b.cast (rfl : (2 : Nat) = 2) ≠ (1 : Fin 2) →
      ((ix2 (0 : Fin 1) q : (⟨2, ![1, n]⟩ : Shape).Idx) b).val = ((ix2 (0 : Fin 1) j : S1x23.Idx) (b.cast rfl)).val := by
    intro n q b hb
    match b with
    | ⟨0, _⟩ => rfl
    | ⟨1, _⟩ => exact absurd rfl hb
  by_cases h0 : j.val < 5
  · -- the class counts
    refine Eq.trans (concatenate_apply_piece (1 : Fin 2) _ _ (ix2 (0 : Fin 1) j) 0 (by show (0 : Nat) < 6; omega) S1x5 _ rfl rfl 0 rfl
      (ix2 (0 : Fin 1) (⟨j.val, h0⟩ : Fin 5)) (hi _) (by show 0 + j.val = j.val; omega)) ?_
    refine (pay7_apply x1 0 ⟨j.val, h0⟩).trans ?_
    exact Finset.sum_congr rfl fun r _ => (rowTerm_count _ _ ⟨j.val, h0⟩).symm
  by_cases h1 : j.val < 10
  · -- the class losses
    have hj : j = ⟨5 + (⟨j.val - 5, by omega⟩ : Fin 5).val, by show 5 + (j.val - 5) < 23; omega⟩ :=
      Fin.ext (by show j.val = 5 + (j.val - 5); omega)
    refine Eq.trans (concatenate_apply_piece (1 : Fin 2) _ _ (ix2 (0 : Fin 1) j) 1 (by show (1 : Nat) < 6; omega) S1x5 _ rfl rfl 5 rfl
      (ix2 (0 : Fin 1) (⟨j.val - 5, by omega⟩ : Fin 5)) (hi _) (by show 5 + (j.val - 5) = j.val; omega)) ?_
    refine (pay8_apply x0 x1 0 ⟨j.val - 5, by omega⟩).trans ?_
    exact Finset.sum_congr rfl fun r _ =>
      ((congrArg (rowTerm (brow x0 r) (x1 (ix1 r))) hj).trans (rowTerm_closs _ _ ⟨j.val - 5, by omega⟩)).symm
  by_cases h2 : j.val < 14
  · -- the losses against the last class
    have hj : j = ⟨10 + (⟨j.val - 10, by omega⟩ : Fin 4).val, by show 10 + (j.val - 10) < 23; omega⟩ :=
      Fin.ext (by show j.val = 10 + (j.val - 10); omega)
    refine Eq.trans (concatenate_apply_piece (1 : Fin 2) _ _ (ix2 (0 : Fin 1) j) 2 (by show (2 : Nat) < 6; omega) S1x4 _ rfl rfl 10 rfl
      (ix2 (0 : Fin 1) (⟨j.val - 10, by omega⟩ : Fin 4)) (hi _) (by show 10 + (j.val - 10) = j.val; omega)) ?_
    refine (pay11_apply x0 x1 0 ⟨j.val - 10, by omega⟩).trans ?_
    exact Finset.sum_congr rfl fun r _ =>
      ((congrArg (rowTerm (brow x0 r) (x1 (ix1 r))) hj).trans (rowTerm_lossneg _ _ ⟨j.val - 10, by omega⟩)).symm
  by_cases h3 : j.val < 18
  · -- the selection counts
    have hj : j = ⟨14 + (⟨j.val - 14, by omega⟩ : Fin 4).val, by show 14 + (j.val - 14) < 23; omega⟩ :=
      Fin.ext (by show j.val = 14 + (j.val - 14); omega)
    refine Eq.trans (concatenate_apply_piece (1 : Fin 2) _ _ (ix2 (0 : Fin 1) j) 3 (by show (3 : Nat) < 6; omega) S1x4 _ rfl rfl 14 rfl
      (ix2 (0 : Fin 1) (⟨j.val - 14, by omega⟩ : Fin 4)) (hi _) (by show 14 + (j.val - 14) = j.val; omega)) ?_
    refine Eq.trans (castColSum _ _ _ _ _ 0 ⟨j.val - 14, by omega⟩) ?_
    exact Finset.sum_congr rfl fun r _ => (pay12_apply x0 x1 r ⟨j.val - 14, by omega⟩).trans
      ((congrArg (rowTerm (brow x0 r) (x1 (ix1 r))) hj).trans (rowTerm_sel _ _ ⟨j.val - 14, by omega⟩)).symm
  by_cases h4 : j.val < 22
  · -- the confidence ratios
    have hj : j = ⟨18 + (⟨j.val - 18, by omega⟩ : Fin 4).val, by show 18 + (j.val - 18) < 23; omega⟩ :=
      Fin.ext (by show j.val = 18 + (j.val - 18); omega)
    refine Eq.trans (concatenate_apply_piece (1 : Fin 2) _ _ (ix2 (0 : Fin 1) j) 4 (by show (4 : Nat) < 6; omega) S1x4 _ rfl rfl 18 rfl
      (ix2 (0 : Fin 1) (⟨j.val - 18, by omega⟩ : Fin 4)) (hi _) (by show 18 + (j.val - 18) = j.val; omega)) ?_
    refine Eq.trans (castColSum _ _ _ _ _ 0 ⟨j.val - 18, by omega⟩) ?_
    refine Finset.sum_congr rfl fun r _ => ?_
    refine Eq.trans ?_ ((congrArg (rowTerm (brow x0 r) (x1 (ix1 r))) hj).trans (rowTerm_ratio _ _ ⟨j.val - 18, by omega⟩)).symm
    show Scalar.select (Ideal.cmp .ogt (k0_pay12 (F := Ideal) x0 x1 (ix2 r (⟨j.val - 18, by omega⟩ : Fin 4))) zeroW)
        (Ideal.div (broadcastTo S8192x4 (k0_pay6 (F := Ideal) x0) broadcasts_S8192x1_S8192x4 (ix2 r (⟨j.val - 18, by omega⟩ : Fin 4)))
          (k0_pay10 (F := Ideal) x0 (ix2 r (⟨j.val - 18, by omega⟩ : Fin 4)))) zeroW = _
    rw [pay12_apply, bcastCol, pay6_apply, pay10_apply]
    rfl
  · -- the last-class confidence
    have hj : j = ⟨22, by omega⟩ := Fin.ext (by show j.val = 22; omega)
    refine Eq.trans (concatenate_apply_piece (1 : Fin 2) _ _ (ix2 (0 : Fin 1) j) 5 (by show (5 : Nat) < 6; omega) S1x1 _ rfl rfl 22 rfl
      (ix2 (0 : Fin 1) (0 : Fin 1)) (hi _) (by show 22 + 0 = j.val; omega)) ?_
    refine Eq.trans (castColSum _ _ _ _ _ 0 (0 : Fin 1)) ?_
    refine Finset.sum_congr rfl fun r _ => ?_
    refine Eq.trans ?_ ((congrArg (rowTerm (brow x0 r) (x1 (ix1 r))) hj).trans (rowTerm_lastConf _ _)).symm
    show (FloatOps.sitofp (F := Ideal) .f32
          ((Ideal.cmp .oge (shapeCast S8192x1 _ shapeCasts_S8192_S8192x1 (ix2 r (0 : Fin 1))) fourHalfW).setWidth 32)
        * extractStridedSlice S8192x1 ![0, 4] (k0_pay4 (F := Ideal) x1) slices_S8192x5_o0_4_S8192x1 (ix2 r (0 : Fin 1)))
        * k0_pay6 (F := Ideal) x0 (ix2 r (0 : Fin 1)) = _
    refine Eq.trans (congrArg₂ (· * ·) (congrArg₂ (· * ·)
      (congrArg (fun z => FloatOps.sitofp (F := Ideal) .f32 ((Ideal.cmp .oge z fourHalfW).setWidth 32))
        (lowCount_read x0 _ _ r (0 : Fin 1)))
      (slice2_axis1_apply 4 _ _ r (0 : Fin 1) last (by show 4 = 4 + 0; rfl))) (pay6_apply x0 r 0)) ?_
    rw [sitofp_extui_bit, pay4_apply]
    rfl

end Cert.KernelIdeal.KBlock

end
-- ==== Proof.KBlocks.lean ====
/-
  The two input windows' blocks, read through the host's padding: block `t` of the padded logits is rows
  `8192 t … 8192 t + 8191`, and a padded row (row number 4000000 or more) holds zero logits and the label 5.
-/
import proofs.«420255_j67396626809312_1_alg».proof.Proof.Gen.KernelIdeal.Frame
import Idealize.ShloMosaic.Lib.ValueIdx
import Idealize.ShloMosaic.Lib.Pipeline.Value
import Idealize.ShloMosaic.Lib.KernelVsHost
import Idealize.ShloMosaic.Lib.StableHlo.Run

noncomputable section

namespace Cert.KernelIdeal.KBlocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The logits as launched. -/
abbrev Xarg (c : Dev nD) : FVec Ideal S4000000x5 .f32 := m ((c.tc : Thread nD τ).loc main_arg0)
/-- The labels as launched. -/
abbrev Targ (c : Dev nD) : IVec S4000000 32 := m ((c.tc : Thread nD τ).loc main_arg1)

/-- The padded logits: the launched rows, then zero rows. -/
def Xpad (c : Dev nD) (n : Fin 4005888) (k : Fin 5) : EReal :=
  if h : n.val < 4000000 then Xarg m c (ix2 ⟨n.val, h⟩ k) else 0

/-- The padded labels: the launched labels, then the label 5. -/
def Tpad (c : Dev nD) (n : Fin 4005888) : BitVec 32 :=
  if h : n.val < 4000000 then Targ m c (ix1 ⟨n.val, h⟩) else 5#32

/-- Window 0's block at point `t`, at its literal type. -/
abbrev xblk (c : Dev nD) (t : Fin cfg0.N) : Vec Ideal S8192x5 .f32 := iblk m c 0 t
/-- Window 1's block at point `t`, at its literal type. -/
abbrev tblk (c : Dev nD) (t : Fin cfg0.N) : Vec Ideal S8192 .i32 := iblk m c 1 t

/-- Row `r` of block `t` is a row of the padded array. -/
theorem blk_lt (t : Fin cfg0.N) (r : Fin 8192) : 8192 * t.val + r.val < 4005888 := by
  have hN : t.val < 489 := lt_of_lt_of_eq t.isLt (show cfg0.N = 489 from N_0)
  have := r.isLt
  omega

/-! ## The blocks read off the padded arrays -/

/-- The logits' window at point `t` is block `t` along the rows and block `0` along the classes. -/
theorem index_x : ∀ t : Fin cfg0.N, win0_0.index t 0 = t.val ∧ win0_0.index t 1 = 0 :=
  (by decide +kernel : ∀ t : Fin grid0.N, win0_0.index t 0 = t.val ∧ win0_0.index t 1 = 0)

/-- The labels' window at point `t` is block `t`. -/
theorem index_t : ∀ t : Fin cfg0.N, win0_1.index t 0 = t.val :=
  (by decide +kernel : ∀ t : Fin grid0.N, win0_1.index t 0 = t.val)

/-- Entry `(r, k)` of block `t` of the logits' window is entry `(8192 t + r, k)` of the window's array: on each axis an
    element sits at block index × block size + its coordinate in the block. -/
theorem xblk_read (c : Dev nD) (t : Fin cfg0.N) (r : Fin 8192) (k : Fin 5) :
    xblk m c t (ix2 r k)
      = (V m c main_v0 : S4005888x5.Idx → EReal) (ix2 ⟨8192 * t.val + r.val, blk_lt t r⟩ k) := by
  have hi := index_x t
  show V m c main_v0 (((cfg0.win 0).blk t).view.emb (ix2 r k)) = V m c main_v0 _
  congr 1
  funext a
  apply Fin.ext
  match a with
  | ⟨0, _⟩ => show win0_0.index t 0 * 8192 + 1 * r.val = 8192 * t.val + r.val; rw [hi.1]; omega
  | ⟨1, _⟩ => show win0_0.index t 1 * 5 + 1 * k.val = k.val; rw [hi.2]; omega

/-- Entry `r` of block `t` of the labels' window is entry `8192 t + r` of the window's array. -/
theorem tblk_read (c : Dev nD) (t : Fin cfg0.N) (r : Fin 8192) :
    tblk m c t (ix1 r)
      = (V m c main_v1 : S4005888.Idx → BitVec 32) (ix1 ⟨8192 * t.val + r.val, blk_lt t r⟩) := by
  have hi := index_t t
  show V m c main_v1 (((cfg0.win 1).blk t).view.emb (ix1 r)) = V m c main_v1 _
  congr 1
  funext a
  apply Fin.ext
  match a with
  | ⟨0, _⟩ => show win0_1.index t 0 * 8192 + 1 * r.val = 8192 * t.val + r.val; rw [hi]; omega

/-! ## The arrays the region finds -/

/-- The logits' window's array when the region is entered: the host's pad of the launched logits, 5888 rows after the
    last, with the integer zero converted to a float. -/
theorem V_padded_x (c : Dev nD) : (V m c main_v0 : S4005888x5.Idx → EReal)
    = pad S4005888x5 ![0, 0] ![5888, 0] ![0, 0] (Xarg m c) (sitofp (F := Ideal) .f32 (constantI S_ 32 0#32))
        pads_S4000000x5_S4005888x5_058880_000 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The labels' window's array when the region is entered: the host's pad of the launched labels, 5888 entries after the
    last, with the constant 5. -/
theorem V_padded_t (c : Dev nD) : (V m c main_v1 : S4005888.Idx → BitVec 32)
    = pad S4005888 ![0] ![5888] ![0] (Targ m c) (constantI S_ 32 5#32)
        pads_S4000000_S4005888_058880 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-! ## The pads read at a row -/

/-- The padded logits at a launched row (row number below 4000000): the launched logits there. -/
theorem padX_inside (x : FVec Ideal S4000000x5 .f32) (v : FVec Ideal S_ .f32) (n : Fin 4005888) (k : Fin 5)
    (h : n.val < 4000000) :
    pad S4005888x5 ![0, 0] ![5888, 0] ![0, 0] x v pads_S4000000x5_S4005888x5_058880_000 h_S_ (ix2 n k)
      = x (ix2 ⟨n.val, h⟩ k) := by
  refine pad_apply_of_inside _ _ _ x v _ h_S_ (ix2 n k) (ix2 ⟨n.val, h⟩ k) ?_
  intro a
  match a with
  | ⟨0, _⟩ => show n.val = 0 + n.val * (0 + 1); omega
  | ⟨1, _⟩ => show k.val = 0 + k.val * (0 + 1); omega

/-- The padded logits at a row past the launched ones: the padding value. -/
theorem padX_outside (x : FVec Ideal S4000000x5 .f32) (v : FVec Ideal S_ .f32) (n : Fin 4005888) (k : Fin 5)
    (h : ¬ n.val < 4000000) :
    pad S4005888x5 ![0, 0] ![5888, 0] ![0, 0] x v pads_S4000000x5_S4005888x5_058880_000 h_S_ (ix2 n k)
      = v (Shape.Idx.first h_S_) := by
  refine pad_apply_of_not_inside _ _ _ x v _ h_S_ (ix2 n k) (0 : Fin 2) ?_
  intro hin
  have h3 : (n.val - 0) / (0 + 1) < 4000000 := hin.2.2
  omega

/-- The padded labels at a launched entry: the launched label there. -/
theorem padT_inside (x : IVec S4000000 32) (v : IVec S_ 32) (n : Fin 4005888) (h : n.val < 4000000) :
    pad S4005888 ![0] ![5888] ![0] x v pads_S4000000_S4005888_058880 h_S_ (ix1 n) = x (ix1 ⟨n.val, h⟩) := by
  refine pad_apply_of_inside _ _ _ x v _ h_S_ (ix1 n) (ix1 ⟨n.val, h⟩) ?_
  intro a
  match a with
  | ⟨0, _⟩ => show n.val = 0 + n.val * (0 + 1); omega

/-- The padded labels at an entry past the launched ones: the padding value. -/
theorem padT_outside (x : IVec S4000000 32) (v : IVec S_ 32) (n : Fin 4005888) (h : ¬ n.val < 4000000) :
    pad S4005888 ![0] ![5888] ![0] x v pads_S4000000_S4005888_058880 h_S_ (ix1 n) = v (Shape.Idx.first h_S_) := by
  refine pad_apply_of_not_inside _ _ _ x v _ h_S_ (ix1 n) (0 : Fin 1) ?_
  intro hin
  have h3 : (n.val - 0) / (0 + 1) < 4000000 := hin.2.2
  omega

/-! ## The two block reads -/

/-- Block `t` of the logits' window reads the padded logits at row `8192 t + r`. -/
theorem xblk_apply (c : Dev nD) (t : Fin cfg0.N) (r : Fin 8192) (k : Fin 5) :
    xblk m c t (ix2 r k) = Xpad m c ⟨8192 * t.val + r.val, blk_lt t r⟩ k := by
  refine (xblk_read m c t r k).trans ?_
  refine (congrFun (V_padded_x m c) _).trans ?_
  unfold Xpad
  by_cases h : 8192 * t.val + r.val < 4000000
  · rw [dif_pos h]
    exact padX_inside (Xarg m c) _ ⟨8192 * t.val + r.val, blk_lt t r⟩ k h
  · rw [dif_neg h]
    -- the padding value is the integer zero converted: the real zero
    refine (padX_outside (Xarg m c) _ ⟨8192 * t.val + r.val, blk_lt t r⟩ k h).trans ?_
    exact sitofp_zero

/-- Block `t` of the labels' window reads the padded labels at row `8192 t + r`. -/
theorem tblk_apply (c : Dev nD) (t : Fin cfg0.N) (r : Fin 8192) :
    tblk m c t (ix1 r) = Tpad m c ⟨8192 * t.val + r.val, blk_lt t r⟩ := by
  refine (tblk_read m c t r).trans ?_
  refine (congrFun (V_padded_t m c) _).trans ?_
  unfold Tpad
  by_cases h : 8192 * t.val + r.val < 4000000
  · rw [dif_pos h]
    exact padT_inside (Targ m c) _ ⟨8192 * t.val + r.val, blk_lt t r⟩ h
  · rw [dif_neg h]
    exact padT_outside (Targ m c) _ ⟨8192 * t.val + r.val, blk_lt t r⟩ h

end Cert.KernelIdeal.KBlocks

end
-- ==== Proof.KAccum.lean ====
/-
  The accumulator after the whole grid. After point `n` the accumulator's entry `j` is the sum over the blocks `0 … n` of
  the block's sum of row terms (induction on the point: the first point starts from the zero block, every later point adds
  to what the point before left). The one write-back, after the last point, puts that into the result array. The blocks tile
  the padded rows, a padded row carries the label 5 and so contributes nothing, and what is left is the sum over the
  4,000,000 launched rows.
-/
import proofs.«420255_j67396626809312_1_alg».proof.Proof.KPieces
import proofs.«420255_j67396626809312_1_alg».proof.Proof.KBlock
import proofs.«420255_j67396626809312_1_alg».proof.Proof.KBlocks
import Idealize.ShloMosaic.PureOps.Ideal.Laws

noncomputable section

open scoped BigOperators

namespace Cert.KernelIdeal.KAccum

open Cert.KernelIdeal Cert.KernelIdeal.Gen Cert.KernelIdeal.KPieces Cert.KernelIdeal.KBlock Cert.KernelIdeal.KBlocks
  Cert.KernelIdeal.KRow Cert.RowSpec Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## A row labelled 5 contributes nothing -/

theorem hot_five (c : Fin 5) : hot 5#32 c = 0 := by
  unfold hot
  rw [if_neg]
  fin_cases c <;> decide

theorem zeroW_eq : zeroW = 0 := Ideal.ofBits_zero_f32

theorem rowTerm_five (x : Fin 5 → EReal) (j : Fin 23) : rowTerm x 5#32 j = 0 := by
  unfold rowTerm
  split_ifs
  · exact hot_five _
  · rw [hot_five, zero_mul]
  · rw [hot_five, zero_mul]
  · unfold sel; rw [hot_five, mul_zero]
  · unfold ratio sel
    rw [hot_five, mul_zero, zeroW_eq]
    simp [Ideal.cmp]
  · unfold lastConf; rw [hot_five, mul_zero, zero_mul]

/-! ## The padded rows' terms, block by block -/

/-- Entry `j` of padded row `n`'s term. -/
def padTerm (c : Dev nD) (n : Fin 4005888) (j : Fin 23) : EReal := rowTerm (fun k => Xpad m c n k) (Tpad m c n) j

theorem padTerm_pad (c : Dev nD) (n : Fin 4005888) (hn : ¬n.val < 4000000) (j : Fin 23) : padTerm m c n j = 0 := by
  unfold padTerm
  have : Tpad m c n = 5#32 := by unfold Tpad; rw [dif_neg hn]
  rw [this]
  exact rowTerm_five _ j

theorem padTerm_row (c : Dev nD) (n : Fin 4000000) (j : Fin 23) :
    padTerm m c ⟨n.val, by have := n.isLt; omega⟩ j = rowTerm (rowOf (Xarg m c) n) (Targ m c (ix1 n)) j := by
  have hn : n.val < 4000000 := n.isLt
  have hx : (fun k => Xpad m c ⟨n.val, by omega⟩ k) = rowOf (Xarg m c) n := by
    funext k
    unfold Xpad
    exact dif_pos hn
  have ht : Tpad m c ⟨n.val, by omega⟩ = Targ m c (ix1 n) := by
    unfold Tpad
    exact dif_pos hn
  unfold padTerm
  rw [hx, ht]

/-- Block `t`'s sum of entry `j` over its 8192 rows. -/
def blockSum (c : Dev nD) (t : Fin cfg0.N) (j : Fin 23) : EReal :=
  ∑ r : Fin 8192, padTerm m c ⟨8192 * t.val + r.val, blk_lt t r⟩ j

/-- What the body stores at point `t` over an accumulator `xo`: `xo` plus the block's sums. -/
theorem stored_apply (c : Dev nD) (t : Fin cfg0.N) (xo : Vec Ideal S1x23 .f32) (j : Fin 23) :
    k0_pay1 (F := Ideal) (k0_pay3 (xblk m c t)) (k0_pay4 (tblk m c t)) (k0_pay6 (xblk m c t)) (k0_pay7 (tblk m c t))
        (k0_pay8 (xblk m c t) (tblk m c t)) (k0_pay10 (xblk m c t)) (k0_pay11 (xblk m c t) (tblk m c t))
        (k0_pay12 (xblk m c t) (tblk m c t)) xo (ix2 (0 : Fin 1) j)
      = xo (ix2 (0 : Fin 1) j) + blockSum m c t j := by
  rw [pay1_apply]
  refine congrArg (fun z => xo (ix2 (0 : Fin 1) j) + z) ?_
  unfold blockSum padTerm
  refine Finset.sum_congr rfl fun r _ => ?_
  rw [show brow (xblk m c t) r = (fun k => Xpad m c ⟨8192 * t.val + r.val, blk_lt t r⟩ k) from
    funext fun k => xblk_apply m c t r k, tblk_apply m c t r]

/-! ## The accumulator after each point -/

/-- Block `s`'s sum, `0` past the grid. -/
def blockSumN (c : Dev nD) (s : ℕ) (j : Fin 23) : EReal := if h : s < cfg0.N then blockSum m c ⟨s, h⟩ j else 0

/-- The zero block is zero. -/
theorem pay2_apply (j : Fin 23) : (k0_pay2 (F := Ideal)) (ix2 (0 : Fin 1) j) = 0 := by
  unfold k0_pay2
  exact Ideal.ofBits_zero_f32

/-- After point `n` the accumulator's entry `j` is the sum of the blocks `0 … n`. -/
theorem outsAt_apply (c : Dev nD) : ∀ (n : ℕ) (h : n < cfg0.N) (j : Fin 23),
    (outsAt0 m c n h : Vec Ideal S1x23 .f32) (ix2 (0 : Fin 1) j) = ∑ s ∈ Finset.range (n + 1), blockSumN m c s j
  | 0, h, j => by
    rw [outsAt0_A m c ⟨0, h⟩ rfl, out_A]
    refine (stored_apply m c ⟨0, h⟩ _ j).trans ?_
    rw [pay2_apply, zero_add, Finset.sum_range_one]
    unfold blockSumN
    rw [dif_pos h]
  | n + 1, h, j => by
    have hN : cfg0.N = 489 := N_0
    have hB : ¬(⟨n + 1, h⟩ : Fin cfg0.N).val % 489 = 0 := by dsimp only; omega
    rw [outsAt0_B m c ⟨n + 1, h⟩ hB, out_B]
    refine (stored_apply m c ⟨n + 1, h⟩ _ j).trans ?_
    rw [Finset.sum_range_succ _ (n + 1)]
    refine congrArg₂ (· + ·) ?_ ?_
    · exact outsAt_apply c n _ j
    · unfold blockSumN
      rw [dif_pos h]

end Cert.KernelIdeal.KAccum

end
-- ==== Proof.KFinal.lean ====
/-
  The result array after the kernel. The accumulator is written back once, after the last grid point, so the array holds
  what that point left: entry `j` is the sum over all 489 blocks of the block's sums. The blocks tile the 4,005,888 padded
  rows; a padded row carries the label 5 and contributes nothing; what is left is the sum over the 4,000,000 launched rows.
-/
import proofs.«420255_j67396626809312_1_alg».proof.Proof.KAccum

noncomputable section

open scoped BigOperators

namespace Cert.KernelIdeal.KFinal

open Cert.KernelIdeal Cert.KernelIdeal.Gen Cert.KernelIdeal.KBlocks Cert.KernelIdeal.KAccum
  Cert.RowSpec Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The result array -/

/-- The last grid point. -/
abbrev tLast : Fin cfg0.N := ⟨488, lt_of_lt_of_eq (by decide : 488 < 489) N_0.symm⟩

/-- What the last point leaves, as contents of the result array (its one block is the array). -/
abbrev result (c : Dev nD) : Buf (Elt Ideal) ((c : Thread nD τ).loc main_v2) := outsAt0 m c tLast.val tLast.isLt

/-- The one write-back, at the last point, writes what that point left, here under a name `R` of its own. -/
theorem flushed_eq (c : Dev nD) (R : Buf (Elt Ideal) ((c : Thread nD τ).loc main_v2)) (hR : result m c = R)
    (t : Fin cfg0.N) (hf : (cfg0.win 2).flush t = true) :
    (dats m 0 c).flushed 2 t = ((cfg0.win 2).blk t).view.read (Elt Ideal) R := by
  have hN : cfg0.N = 489 := N_0
  have h3 : t.val = 488 := by have := (flush0_2 t).mp hf; have := t.isLt; omega
  obtain rfl : t = tLast := Fin.ext h3
  show (cfg0.win 2).cut (grid0.coords tLast) ((dats m 0 c).after 2 tLast) = _
  rw [after0_2, show outsAt0 m c tLast.val tLast.isLt = R from hR]
  have hz' : (fun a => win0_2.index tLast a * main_v2.ty.shape.size a) = fun _ => 0 :=
    funext fun a => by fin_cases a <;> decide +kernel
  exact (Memref.read_access_unit_zero (Elt Ideal) main_v2 hz' (fun a => by rw [congrFun hz' a]; simp) R).symm

/-- So the result array ends holding what the last point left. -/
theorem final_eq (c : Dev nD) : (dats m 0 c).arrAt 2 cfg0.N = result m c := by
  generalize hR : result m c = R
  exact (dats m 0 c).arrAt_eq_of_cover 2 R (flushed_eq m c R hR) fun i =>
    ⟨tLast, (flush0_2 tLast).mpr rfl, by
      show i ∈ ((View.whole main_v2).slice (win0_2.rect tLast)).set
      rw [View.set_slice_whole, Rect.mem_set_unit]
      intro a
      have h0 : (i 0 : Nat) < 1 := (i 0).isLt
      have h1 : (i 1 : Nat) < 23 := (i 1).isLt
      match a with
      | ⟨0, _⟩ =>
        show win0_2.index tLast 0 * win0_2.size 0 ≤ (i 0 : Nat) ∧ (i 0 : Nat) < win0_2.index tLast 0 * win0_2.size 0 + win0_2.xsize (grid0.coords tLast) 0
        rw [show win0_2.index tLast 0 * win0_2.size 0 = 0 from by decide +kernel, show win0_2.xsize (grid0.coords tLast) 0 = 1 from by decide +kernel]; omega
      | ⟨1, _⟩ =>
        show win0_2.index tLast 1 * win0_2.size 1 ≤ (i 1 : Nat) ∧ (i 1 : Nat) < win0_2.index tLast 1 * win0_2.size 1 + win0_2.xsize (grid0.coords tLast) 1
        rw [show win0_2.index tLast 1 * win0_2.size 1 = 0 from by decide +kernel, show win0_2.xsize (grid0.coords tLast) 1 = 23 from by decide +kernel]; omega⟩

/-! ## From blocks to rows -/

/-- The blocks tile the padded rows: the double sum over blocks and rows of a block is the sum over the padded rows. -/
theorem sum_blocks (G : Fin 4005888 → EReal) :
    ∑ s : Fin 489, ∑ r : Fin 8192, G ⟨8192 * s.val + r.val, by have := s.isLt; have := r.isLt; omega⟩ = ∑ n : Fin 4005888, G n := by
  have hmul : 489 * 8192 = 4005888 := by norm_num
  refine (Fintype.sum_prod_type' (fun (s : Fin 489) (r : Fin 8192) =>
    G ⟨8192 * s.val + r.val, by have := s.isLt; have := r.isLt; omega⟩)).symm.trans ?_
  refine Fintype.sum_equiv ((finProdFinEquiv (m := 489) (n := 8192)).trans (finCongr hmul)) _ G fun p => ?_
  refine congrArg G (Fin.ext ?_)
  show 8192 * p.1.val + p.2.val = ((finCongr hmul) (finProdFinEquiv p)).val
  rw [finCongr_apply, Fin.val_cast, finProdFinEquiv_apply_val]
  omega

/-- The padded rows are the launched rows followed by the padding, and the padding contributes nothing. -/
theorem sum_padded (c : Dev nD) (j : Fin 23) :
    ∑ n : Fin 4005888, padTerm m c n j = ∑ n : Fin 4000000, rowTerm (rowOf (Xarg m c) n) (Targ m c (ix1 n)) j := by
  have hadd : 4000000 + 5888 = 4005888 := by norm_num
  have h1 : ∑ n : Fin 4005888, padTerm m c n j = ∑ i : Fin (4000000 + 5888), padTerm m c (finCongr hadd i) j :=
    (Fintype.sum_equiv (finCongr hadd) (fun i => padTerm m c (finCongr hadd i) j) (fun n => padTerm m c n j) fun _ => rfl).symm
  rw [h1, Fin.sum_univ_add]
  have hpad : ∑ i : Fin 5888, padTerm m c (finCongr hadd (Fin.natAdd 4000000 i)) j = 0 :=
    Finset.sum_eq_zero fun i _ => padTerm_pad m c _ (by
      show ¬((finCongr hadd (Fin.natAdd 4000000 i)).val < 4000000)
      rw [finCongr_apply, Fin.val_cast, Fin.val_natAdd]; omega) j
  rw [hpad, add_zero]
  refine Finset.sum_congr rfl fun n _ => ?_
  have hidx : finCongr hadd (Fin.castAdd 5888 n) = (⟨n.val, by have := n.isLt; omega⟩ : Fin 4005888) := Fin.ext (by
    rw [finCongr_apply, Fin.val_cast, Fin.val_castAdd])
  rw [hidx]
  exact padTerm_row m c n j

/-- Entry `j` of the result array: the sum over the launched rows of the row's term. -/
theorem acc_apply (c : Dev nD) (j : Fin 23) :
    ((dats m 0 c).arrAt 2 cfg0.N : Vec Ideal S1x23 .f32) (ix2 (0 : Fin 1) j) = rowSums (Xarg m c) (Targ m c) j := by
  have hN : cfg0.N = 489 := N_0
  rw [final_eq]
  show (outsAt0 m c tLast.val tLast.isLt : Vec Ideal S1x23 .f32) (ix2 (0 : Fin 1) j) = _
  rw [outsAt_apply m c tLast.val tLast.isLt j]
  show ∑ s ∈ Finset.range 489, blockSumN m c s j = _
  rw [Finset.sum_range (fun s => blockSumN m c s j)]
  have h1 : ∀ s : Fin 489, blockSumN m c s.val j
      = ∑ r : Fin 8192, padTerm m c ⟨8192 * s.val + r.val, by have := s.isLt; have := r.isLt; omega⟩ j := by
    intro s
    unfold blockSumN
    rw [dif_pos (lt_of_lt_of_eq s.isLt hN.symm)]
    rfl
  rw [Finset.sum_congr rfl fun s _ => h1 s, sum_blocks (fun n => padTerm m c n j), sum_padded]
  rfl

end Cert.KernelIdeal.KFinal

end
-- ==== Proof.KTail.lean ====
/-
  The host operations after the kernel: from the accumulator's twenty-three sums they compute the loss, the scalar
  function `tailOf` of the specification.
-/
import proofs.«420255_j67396626809312_1_alg».proof.Proof.Gen.KernelIdeal.Frame
import proofs.«420255_j67396626809312_1_alg».proof.Proof.RowSpec
import Idealize.ShloMosaic.Lib.ValueIdx
import Idealize.ShloMosaic.Lib.ValueIdxRank1
import Idealize.ShloMosaic.Lib.ValueLayout
import Idealize.ShloMosaic.Lib.Pipeline.Value
import Idealize.ShloMosaic.Lib.IdealHost
import Idealize.ShloMosaic.Lib.StableHlo.Run
import Idealize.ShloMosaic.PureOps.Ideal.Laws

noncomputable section

open scoped BigOperators

namespace Cert.KernelIdeal.KTail

open Cert.KernelIdeal Cert.KernelIdeal.Gen Cert.RowSpec Idealize.ShloMosaic Idealize.ShloMosaic.TcCoe Idealize.SL.Sem
  Idealize.ShloMosaic.ValueIdx

variable (m : (ℓ : Loc nD τ sig) → Buf (Elt Ideal) ℓ)

/-- The accumulator's array after the kernel, at its literal type. -/
abbrev acc (c : Dev nD) : Vec Ideal S1x23 .f32 := (dats m 0 c).arrAt 2 cfg0.N

/-! ## The tail as a function of the accumulator

The host operations after the kernel, one definition per group of lines, over the accumulator `A`. -/

/-- The accumulator's twenty-three sums as a function of the position. -/
abbrev row (A : FVec Ideal S1x23 .f32) : Fin 23 → EReal := fun j => A (ix2 (0 : Fin 1) j)

/-- The accumulator as a vector of twenty-three entries. -/
def flat (A : FVec Ideal S1x23 .f32) : FVec Ideal S23 .f32 := fun i => shapeCast S23 A shapeCasts_S1x23_S23 i

/-- The five class counts. -/
def cnt5 (A : FVec Ideal S1x23 .f32) : FVec Ideal S5 .f32 := extractStridedSlice S5 ![0] (flat A) slices_S23_S5_0
/-- The five class losses. -/
def closs5 (A : FVec Ideal S1x23 .f32) : FVec Ideal S5 .f32 := extractStridedSlice S5 ![5] (flat A) slices_S23_S5_5
/-- The four losses against the last class. -/
def lneg4 (A : FVec Ideal S1x23 .f32) : FVec Ideal S4 .f32 := extractStridedSlice S4 ![10] (flat A) slices_S23_S4_10
/-- The four selection counts. -/
def nsel4 (A : FVec Ideal S1x23 .f32) : FVec Ideal S4 .f32 := extractStridedSlice S4 ![14] (flat A) slices_S23_S4_14
/-- The four confidence ratios. -/
def li4 (A : FVec Ideal S1x23 .f32) : FVec Ideal S4 .f32 := extractStridedSlice S4 ![18] (flat A) slices_S23_S4_18
/-- The last-class confidence, as a vector of one entry. -/
def lin1 (A : FVec Ideal S1x23 .f32) : FVec Ideal S1 .f32 := extractStridedSlice S1 ![22] (flat A) slices_S23_S1_22

/-- The empirical priors of the four positive classes. -/
def prior4 (A : FVec Ideal S1x23 .f32) : FVec Ideal S4 .f32 :=
  Host.divf (extractStridedSlice S4 ![0] (cnt5 A) slices_S5_S4_0)
    (broadcastInDim S4 ![] bcast_S_S4 (constant (F := Ideal) S_ .f32 0x4A742400#32))
/-- The counts of the four positive classes, at least one. -/
def cntMax4 (A : FVec Ideal S1x23 .f32) : FVec Ideal S4 .f32 :=
  maximumf (broadcastInDim S4 ![] bcast_S_S4 (constant (F := Ideal) S_ .f32 0x3F800000#32))
    (extractStridedSlice S4 ![0] (cnt5 A) slices_S5_S4_0)

/-- The first sum: the prior-weighted class losses over the counts. -/
def sum1 (A : FVec Ideal S1x23 .f32) : FVec Ideal S_ .f32 :=
  Host.reduceAdd (Host.divf (mulf (prior4 A) (extractStridedSlice S4 ![0] (closs5 A) slices_S5_S4_0)) (cntMax4 A))
    (constant (F := Ideal) S_ .f32 0x00000000#32) reducesTo_S4_S_d0 h_S_
/-- The second sum: the prior-weighted confidence ratios over the selection counts. -/
def sum2 (A : FVec Ideal S1x23 .f32) : FVec Ideal S_ .f32 :=
  Host.reduceAdd (mulf (prior4 A) (Host.divf (li4 A)
      (maximumf (nsel4 A) (broadcastInDim S4 ![] bcast_S_S4 (constant (F := Ideal) S_ .f32 0x3F800000#32)))))
    (constant (F := Ideal) S_ .f32 0x00000000#32) reducesTo_S4_S_d0 h_S_
/-- The third sum: the prior-weighted losses against the last class over the counts. -/
def sum3 (A : FVec Ideal S1x23 .f32) : FVec Ideal S_ .f32 :=
  Host.reduceAdd (Host.divf (mulf (prior4 A) (lneg4 A)) (cntMax4 A))
    (constant (F := Ideal) S_ .f32 0x00000000#32) reducesTo_S4_S_d0 h_S_

/-- The last-class term: its confidence over its count, at least one. -/
def lastTerm (A : FVec Ideal S1x23 .f32) : FVec Ideal S_ .f32 :=
  Host.divf (fun i => shapeCast S_ (lin1 A) shapeCasts_S1_S_ i)
    (maximumf (fun i => shapeCast S_ (extractStridedSlice S1 ![4] (cnt5 A) slices_S5_S1_4) shapeCasts_S1_S_ i)
      (constant (F := Ideal) S_ .f32 0x3F800000#32))

/-- Four times the first two sums less the third. -/
def scaled (A : FVec Ideal S1x23 .f32) : FVec Ideal S_ .f32 :=
  mulf (constant (F := Ideal) S_ .f32 0x40800000#32) (subf (addf (sum1 A) (sum2 A)) (sum3 A))

/-- The whole tail: the scaled sums clipped at zero from below, plus the last-class term. -/
def tailFn (A : FVec Ideal S1x23 .f32) : FVec Ideal S_ .f32 :=
  addf (select (cmpf .olt (scaled A) (constant (F := Ideal) S_ .f32 0x00000000#32))
      (constant (F := Ideal) S_ .f32 0x00000000#32) (scaled A)) (lastTerm A)

/-! ## The layout operations read at a position -/

/-- The flattened accumulator at a position is the accumulator's sum there. -/
theorem flat_apply (A : FVec Ideal S1x23 .f32) (q : Fin 23) : flat A (ix1 q) = row A q :=
  shapeCast_1a_a_apply A shapeCasts_S1x23_S23 q

/-- A contiguous slice of a vector at a position is the vector at the offset position. -/
theorem slice1_apply {n k : Nat} (o : Nat) (x : (⟨1, ![n]⟩ : Shape).Idx → EReal)
    (h : (⟨1, ![n]⟩ : Shape).Slices ![o] ⟨1, ![k]⟩) (i : Fin k) (q : Fin n) (hq : q.val = o + i.val) :
    extractStridedSlice ⟨1, ![k]⟩ ![o] x h (ix1 i) = x (ix1 q) :=
  extractStridedSlice_apply ![o] x h (ix1 i) (ix1 q) (fun a => match a with | ⟨0, _⟩ => hq)

/-- A vector of one entry as a scalar is that entry. -/
theorem scalar_apply (x : FVec Ideal S1 .f32) (j : S_.Idx) :
    shapeCast S_ x shapeCasts_S1_S_ j = x (ix1 (0 : Fin 1)) :=
  shapeCast_apply x shapeCasts_S1_S_ j (ix1 0) (by
    have h1 : (S1.rowMajor (ix1 (0 : Fin 1))).val = 0 := by rw [Shape.rowMajor_val_one]; rfl
    have h2 := (S_.rowMajor j).isLt
    have h3 : S_.numel = 1 := by simp [Shape.numel]
    omega)

theorem cnt5_apply (A : FVec Ideal S1x23 .f32) (k : Fin 5) : cnt5 A (ix1 k) = row A ⟨k.val, by omega⟩ :=
  (slice1_apply 0 (flat A) slices_S23_S5_0 k ⟨k.val, by omega⟩ (Nat.zero_add _).symm).trans (flat_apply A _)

theorem closs5_apply (A : FVec Ideal S1x23 .f32) (k : Fin 5) : closs5 A (ix1 k) = row A ⟨5 + k.val, by omega⟩ :=
  (slice1_apply 5 (flat A) slices_S23_S5_5 k ⟨5 + k.val, by omega⟩ rfl).trans (flat_apply A _)

theorem lneg4_apply (A : FVec Ideal S1x23 .f32) (i : Fin 4) : lneg4 A (ix1 i) = row A ⟨10 + i.val, by omega⟩ :=
  (slice1_apply 10 (flat A) slices_S23_S4_10 i ⟨10 + i.val, by omega⟩ rfl).trans (flat_apply A _)

theorem nsel4_apply (A : FVec Ideal S1x23 .f32) (i : Fin 4) : nsel4 A (ix1 i) = row A ⟨14 + i.val, by omega⟩ :=
  (slice1_apply 14 (flat A) slices_S23_S4_14 i ⟨14 + i.val, by omega⟩ rfl).trans (flat_apply A _)

theorem li4_apply (A : FVec Ideal S1x23 .f32) (i : Fin 4) : li4 A (ix1 i) = row A ⟨18 + i.val, by omega⟩ :=
  (slice1_apply 18 (flat A) slices_S23_S4_18 i ⟨18 + i.val, by omega⟩ rfl).trans (flat_apply A _)

theorem lin1_apply (A : FVec Ideal S1x23 .f32) (u : Fin 1) : lin1 A (ix1 u) = row A ⟨22, by omega⟩ :=
  (slice1_apply 22 (flat A) slices_S23_S1_22 u ⟨22, by omega⟩ (by show 22 = 22 + u.val; omega)).trans (flat_apply A _)

/-- The first four class counts. -/
theorem cntLow4_apply (A : FVec Ideal S1x23 .f32) (i : Fin 4) :
    extractStridedSlice S4 ![0] (cnt5 A) slices_S5_S4_0 (ix1 i) = row A ⟨i.val, by omega⟩ :=
  (slice1_apply 0 (cnt5 A) slices_S5_S4_0 i ⟨i.val, by omega⟩ (Nat.zero_add _).symm).trans (cnt5_apply A _)

/-- The first four class losses. -/
theorem clossLow4_apply (A : FVec Ideal S1x23 .f32) (i : Fin 4) :
    extractStridedSlice S4 ![0] (closs5 A) slices_S5_S4_0 (ix1 i) = row A ⟨5 + i.val, by omega⟩ :=
  (slice1_apply 0 (closs5 A) slices_S5_S4_0 i ⟨i.val, by omega⟩ (Nat.zero_add _).symm).trans (closs5_apply A _)

/-! ## The arithmetic read at a position -/

theorem prior4_apply (A : FVec Ideal S1x23 .f32) (i : Fin 4) : prior4 A (ix1 i) = prior (row A) i := by
  unfold prior4 prior
  exact (hostDivf_apply _ _ _).trans (congrArg₂ Ideal.div (cntLow4_apply A i) rfl)

theorem cntMax4_apply (A : FVec Ideal S1x23 .f32) (i : Fin 4) : cntMax4 A (ix1 i) = cntMax (row A) i := by
  unfold cntMax4 cntMax
  exact (maximumf_apply _ _ _).trans (congrArg₂ max rfl (cntLow4_apply A i))

/-- The host's sum of a vector of four entries from the zero word. -/
theorem reduce4_apply (x : FVec Ideal S4 .f32) (j : S_.Idx) :
    Host.reduceAdd x (constant (F := Ideal) S_ .f32 0x00000000#32) reducesTo_S4_S_d0 h_S_ j
      = zeroW + ∑ i : Fin 4, x (ix1 i) := by
  refine (hostReduceAdd_apply x _ reducesTo_S4_S_d0 h_S_ j).trans ?_
  refine (Ideal.hostReduceAdd_total reducesTo_S4_S_d0 (fun b => b.elim0) x _ j).trans ?_
  exact congrArg (zeroW + ·) (Equiv.sum_comp idxEquiv1.symm x).symm

theorem sum1_apply (A : FVec Ideal S1x23 .f32) (j : S_.Idx) :
    sum1 A j = zeroW + ∑ i : Fin 4, Ideal.div (prior (row A) i * row A ⟨5 + i.val, by omega⟩) (cntMax (row A) i) := by
  unfold sum1
  refine (reduce4_apply _ j).trans (congrArg (zeroW + ·) (Finset.sum_congr rfl fun i _ => ?_))
  exact (hostDivf_apply _ _ _).trans (congrArg₂ Ideal.div
    ((mulf_apply _ _ _).trans (congrArg₂ (· * ·) (prior4_apply A i) (clossLow4_apply A i))) (cntMax4_apply A i))

theorem sum2_apply (A : FVec Ideal S1x23 .f32) (j : S_.Idx) :
    sum2 A j = zeroW + ∑ i : Fin 4, prior (row A) i
      * Ideal.div (row A ⟨18 + i.val, by omega⟩) (max (row A ⟨14 + i.val, by omega⟩) oneW) := by
  unfold sum2
  refine (reduce4_apply _ j).trans (congrArg (zeroW + ·) (Finset.sum_congr rfl fun i _ => ?_))
  exact (mulf_apply _ _ _).trans (congrArg₂ (· * ·) (prior4_apply A i)
    ((hostDivf_apply _ _ _).trans (congrArg₂ Ideal.div (li4_apply A i)
      ((maximumf_apply _ _ _).trans (congrArg₂ max (nsel4_apply A i) rfl)))))

theorem sum3_apply (A : FVec Ideal S1x23 .f32) (j : S_.Idx) :
    sum3 A j = zeroW + ∑ i : Fin 4, Ideal.div (prior (row A) i * row A ⟨10 + i.val, by omega⟩) (cntMax (row A) i) := by
  unfold sum3
  refine (reduce4_apply _ j).trans (congrArg (zeroW + ·) (Finset.sum_congr rfl fun i _ => ?_))
  exact (hostDivf_apply _ _ _).trans (congrArg₂ Ideal.div
    ((mulf_apply _ _ _).trans (congrArg₂ (· * ·) (prior4_apply A i) (lneg4_apply A i))) (cntMax4_apply A i))

theorem lastTerm_apply (A : FVec Ideal S1x23 .f32) (j : S_.Idx) :
    lastTerm A j = Ideal.div (row A ⟨22, by omega⟩) (max (row A ⟨4, by omega⟩) oneW) := by
  unfold lastTerm
  refine (hostDivf_apply _ _ _).trans (congrArg₂ Ideal.div ?_ ((maximumf_apply _ _ _).trans (congrArg₂ max ?_ rfl)))
  · exact (scalar_apply (lin1 A) j).trans (lin1_apply A 0)
  · exact (scalar_apply _ j).trans
      ((slice1_apply 4 (cnt5 A) slices_S5_S1_4 (0 : Fin 1) ⟨4, by omega⟩ rfl).trans (cnt5_apply A _))

/-- The specification's scaled sums, named. -/
def scaledOf (S : Fin 23 → EReal) : EReal :=
  fourW * (((zeroW + ∑ i : Fin 4, Ideal.div (prior S i * S ⟨5 + i.val, by omega⟩) (cntMax S i))
    + (zeroW + ∑ i : Fin 4, prior S i * Ideal.div (S ⟨18 + i.val, by omega⟩) (max (S ⟨14 + i.val, by omega⟩) oneW)))
    - (zeroW + ∑ i : Fin 4, Ideal.div (prior S i * S ⟨10 + i.val, by omega⟩) (cntMax S i)))

theorem tailOf_eq (S : Fin 23 → EReal) :
    tailOf S = (if Ideal.cmp .olt (scaledOf S) zeroW = 1#1 then zeroW else scaledOf S)
      + Ideal.div (S ⟨22, by omega⟩) (max (S ⟨4, by omega⟩) oneW) := rfl

theorem scaled_apply (A : FVec Ideal S1x23 .f32) (j : S_.Idx) : scaled A j = scaledOf (row A) := by
  unfold scaled scaledOf
  exact (mulf_apply _ _ _).trans (congrArg₂ (· * ·) rfl ((subf_apply _ _ _).trans (congrArg₂ (· - ·)
    ((addf_apply _ _ _).trans (congrArg₂ (· + ·) (sum1_apply A j) (sum2_apply A j))) (sum3_apply A j))))

/-- The tail at its one position is the specification's scalar function of the accumulator's sums. -/
theorem tailFn_apply (A : FVec Ideal S1x23 .f32) (j : S_.Idx) : tailFn A j = tailOf (row A) := by
  unfold tailFn
  refine (addf_apply _ _ _).trans ?_
  rw [tailOf_eq]
  refine congrArg₂ (· + ·) ?_ (lastTerm_apply A j)
  show Scalar.select (Ideal.cmp .olt (scaled A j) zeroW) zeroW (scaled A j) = _
  rw [scaled_apply A j]
  rfl

/-- The result buffer after the host operations that follow the kernel: the loss of the accumulated sums. -/
theorem tail_apply (c : Dev nD) :
    Pipeline.afterTail₀ cfgs (dats m) 0 (V0 m) [hostOps1, hostOps1_1, hostOps1_2] c main_v38
      = fun _ => tailOf (fun j => acc m c (ix2 (0 : Fin 1) j)) := by
  have hA : Pipeline.withArrays (cfgs 0).spec c (V0 m c) (fun w => (dats m 0 c).arrAt w (cfgs 0).N) (Proc.devRef .tc main_v2)
      = acc m c := Pipeline.withArrays_arr spec0 launch0.win.arr_inj c _ _ 2
  unfold Pipeline.afterTail₀
  simp only [Gen.hostOps1, Gen.hostOps1_1, Gen.hostOps1_2, List.flatten_cons, List.flatten_nil, List.append_nil, List.cons_append, List.nil_append]
  show StableHlo.after _ _ (Proc.devRef .tc main_v38) = _
  open StableHlo in after_results_simp
  refine (congrArg tailFn hA).trans ?_
  exact funext fun j => tailFn_apply (acc m c) j

end Cert.KernelIdeal.KTail

end
-- ==== Proof.KRun.lean ====
/-
  The idealized kernel's run, read as a value: every weakly fair execution ends with the result buffer at the loss of the
  launched batch — the host operations after the kernel applied to the accumulated twenty-three sums — and the two
  argument arrays unchanged.
-/
import proofs.«420255_j67396626809312_1_alg».proof.Proof.KFinal
import proofs.«420255_j67396626809312_1_alg».proof.Proof.KTail

noncomputable section

namespace Cert.KernelIdeal.KRun

open Cert.KernelIdeal Cert.KernelIdeal.Gen Cert.KernelIdeal.KBlocks Cert.KernelIdeal.KFinal Cert.KernelIdeal.KTail
  Cert.RowSpec Idealize.ShloMosaic Idealize.ShloMosaic.TcCoe Idealize.SL.Sem Idealize.ShloMosaic.ValueIdx

variable (m : (ℓ : Loc nD τ sig) → Buf (Elt Ideal) ℓ) (ρ : Dev nD → PrngReg)

/-- The loss of the batch a device was launched with. -/
abbrev lossOf (c : Dev nD) : EReal := total (Xarg m c) (Targ m c)

/-- The result buffer after the host tail is the loss of the launched batch. -/
theorem result_eq (c : Dev nD) :
    Pipeline.afterTail₀ cfgs (dats m) 0 (V0 m) [hostOps1, hostOps1_1, hostOps1_2] c main_v38 = fun _ => lossOf m c := by
  rw [tail_apply]
  funext _
  show tailOf _ = tailOf _
  refine congrArg tailOf (funext fun j => ?_)
  exact acc_apply m c j

theorem run : θ_run defs (onTc (τ := τ) (main (F := Ideal))) ⟨m, fun _ => 0, ρ⟩ fun r => ∀ c : Dev nD,
      r.2.mem ((c.tc : Thread nD τ).loc main_v38) = (fun _ => lossOf m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v38 (Pipeline.mem_restRefs_of main_v38 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KRun

end
-- ==== Proof.RRow.lean ====
/-
  The reference's row-wise stages read at a row: its softmax `%10` at `(n, c)` is the specification's probability of class `c`
  for row `n`, and `%15` at `n` is the logarithm of the last class's shifted probability.
-/
import proofs.«420255_j67396626809312_1_alg».proof.Proof.RefRead
import proofs.«420255_j67396626809312_1_alg».proof.Proof.RowSpec
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.PureOps.Ideal.Laws

noncomputable section

open scoped BigOperators

namespace Cert.ReferenceIdeal.RRow

open Cert.ReferenceIdeal Cert.ReferenceIdeal.ReadP Cert.RowSpec Idealize.ShloMosaic Idealize.ShloMosaic.ValueIdx

variable (X : (⟨S4000000x5, .f32⟩ : BufTy).Contents (Elt Ideal)) (T : (⟨S4000000, .i32⟩ : BufTy).Contents (Elt Ideal))

/-- Row `n` with the coordinate `k` put back on the class axis is `(n, k)`. -/
private theorem lift_row {N : Nat} (h : (⟨2, ![N, 5]⟩ : Shape).Reduces [1] (⟨1, ![N]⟩ : Shape)) (n : Fin N)
    (k : Fin ((⟨2, ![N, 5]⟩ : Shape).size 1)) :
    h.lift (ix1 n) k = ix2 n (⟨k.val, k.isLt⟩ : Fin 5) := by
  funext c; apply Fin.ext
  fin_cases c <;> rfl

/-- A maximum-reduce over the class axis, at row `n`, is the fold of `max` over the row. -/
private theorem hostReduce_max_row {N : Nat} (x : FVec Ideal ⟨2, ![N, 5]⟩ .f32) (init : FVec Ideal ⟨0, ![]⟩ .f32)
    (h' : (⟨2, ![N, 5]⟩ : Shape).ReducesTo [1] (⟨1, ![N]⟩ : Shape))
    (h : (⟨2, ![N, 5]⟩ : Shape).Reduces [1] (⟨1, ![N]⟩ : Shape)) (hu : 0 < (⟨0, ![]⟩ : Shape).numel) (n : Fin N) :
    Host.reduce FloatOps.maximumf x init h' hu (ix1 n)
      = (Finset.univ : Finset (Fin 5)).fold max (init (Shape.Idx.first hu)) (fun c => x (ix2 n c)) := by
  refine (Host.reduce_eq_fold_single FloatOps.maximumf x init h' h hu (ix1 n)).trans ?_
  have hf : (x ∘ h.lift (ix1 n)) = fun c : Fin 5 => x (ix2 n c) := funext fun k => congrArg x (lift_row h n k)
  exact congrArg (fun f => Finset.fold max (init (Shape.Idx.first hu)) f (Finset.univ : Finset (Fin 5))) hf

/-- The reference's row maximum `%0` at row `n`. -/
theorem v0_apply (n : Fin 4000000) : val_main_v0 (F := Ideal) X (ix1 n) = rowMax (rowOf X n) := by
  have h : (⟨2, ![4000000, 5]⟩ : Shape).Reduces [1] (⟨1, ![4000000]⟩ : Shape) := by decide
  exact hostReduce_max_row (N := 4000000) X (val_main_cst (F := Ideal)) Gen.reducesTo_S4000000x5_S4000000_d1 h Gen.h_S_ n

/-- The least extended real is below every row maximum. -/
theorem negInf_le_rowMax (x : Fin 5 → EReal) : negInfW ≤ rowMax x :=
  (Finset.le_fold_max _).2 (Or.inl le_rfl)

/-- `%2` at row `n`: the maximum against `-∞` changes nothing. -/
theorem v2_apply (n : Fin 4000000) : val_main_v2 (F := Ideal) X (ix1 n) = rowMax (rowOf X n) := by
  rw [val_main_v2_apply, val_main_v1_apply, val_main_cst_0_apply, v0_apply]
  exact max_eq_right (negInf_le_rowMax _)

/-- `%4` at `(n, c)`: the row maximum, broadcast along the classes. -/
theorem v4_apply (n : Fin 4000000) (c : Fin 5) : val_main_v4 (F := Ideal) X (ix2 n c) = rowMax (rowOf X n) := by
  have hi : idx_main_v3 (idx_main_v4 (ix2 n c)) = ix1 n := by
    funext a; match a with | ⟨0, _⟩ => rfl
  rw [val_main_v4_apply, val_main_v3_apply, hi]
  exact v2_apply X n

/-- `%6` at `(n, c)`: the shifted exponential of logit `c`. -/
theorem v6_apply (n : Fin 4000000) (c : Fin 5) : val_main_v6 (F := Ideal) X (ix2 n c) = ex (rowOf X n) c := by
  rw [val_main_v6_apply, val_main_v5_apply, v4_apply]
  rfl

/-- `%7` at row `n`: the softmax's denominator. -/
theorem v7_apply (n : Fin 4000000) : val_main_v7 (F := Ideal) X (ix1 n) = den (rowOf X n) := by
  have hk : ∀ k : Fin 5, val_main_v6 (F := Ideal) X (idx_main_v7 (ix1 n) k) = ex (rowOf X n) k := fun k => by
    have hi : idx_main_v7 (ix1 n) k = ix2 n k := by
      funext a; match a with | ⟨0, _⟩ => rfl | ⟨1, _⟩ => rfl
    rw [hi]; exact v6_apply X n k
  rw [val_main_v7_apply, val_main_cst_1_apply, Finset.sum_congr rfl (fun k _ => hk k)]
  show Ideal.ofBits .f32 0x00000000#32 + _ = _
  rw [Ideal.ofBits_zero_f32, zero_add]
  rfl

/-- `%9` at `(n, c)`: the denominator, broadcast along the classes. -/
theorem v9_apply (n : Fin 4000000) (c : Fin 5) : val_main_v9 (F := Ideal) X (ix2 n c) = den (rowOf X n) := by
  have hi : idx_main_v8 (idx_main_v9 (ix2 n c)) = ix1 n := by
    funext a; match a with | ⟨0, _⟩ => rfl
  rw [val_main_v9_apply, val_main_v8_apply, hi]
  exact v7_apply X n

/-- The reference's softmax at `(n, c)`. -/
theorem v10_apply (n : Fin 4000000) (c : Fin 5) :
    val_main_v10 (F := Ideal) X (ix2 n c) = prob (rowOf X n) c := by
  rw [val_main_v10_apply, v6_apply, v9_apply]
  rfl

/-- The reference's logarithm of the last class's shifted probability at row `n`. -/
theorem v15_apply (n : Fin 4000000) :
    val_main_v15 (F := Ideal) X (ix1 n) = Ideal.log (prob (rowOf X n) last + epsW) := by
  have hi : idx_main_v11 (idx_main_v12 (ix1 n)) = ix2 n last := by
    funext a; match a with
    | ⟨0, _⟩ => exact Fin.ext (Nat.div_one _)
    | ⟨1, _⟩ => rfl
  rw [val_main_v15_apply, val_main_v14_apply, val_main_v13_apply, val_main_cst_2_apply, val_main_v12_apply,
    val_main_v11_apply, hi, v10_apply]
  rfl

end Cert.ReferenceIdeal.RRow

end
-- ==== Proof.RScatter.lean ====
/-
  The reference's three segment sums (scatter-adds into five classes at the label column), read at a class: a row whose
  label is outside `0 … 4` is dropped by the scatter, so each is the sum over the rows of the label's indicator times the
  row's update. For the class losses the update is the negated logarithm of the probability gathered at the row's own label.
-/
import proofs.«420255_j67396626809312_1_alg».proof.Proof.RRow
import Idealize.ShloMosaic.Lib.ValueIdxRank1

noncomputable section

open scoped BigOperators

namespace Cert.ReferenceIdeal.RScatter

open Cert.ReferenceIdeal Cert.ReferenceIdeal.ReadP Cert.RowSpec Idealize.ShloMosaic Idealize.ShloMosaic.ValueIdx Cert.ReferenceIdeal.RRow

/-! ## A scatter-add of one value per row into five classes

The dimension numbers are those of `x.at[t].add(u)` for an operand `x` of five classes, one label `t n` per row read as
a one-component index vector, and one update `u n` per row: no window axes, the operand's only axis inserted and named by
the index vector's only component. Row `n` lands on class `t n`, read as a signed integer and not clamped; a row whose
label is outside `0 … 4` is dropped. So class `c` receives `x c` plus the sum over all rows of the indicator of
`t n = c` times `u n`. -/

section ClassScatter

/-- The dimension numbers of the three segment sums. -/
abbrev dS : ScatterDims S5 S4000000x1 S4000000 := scatter_S5_S4000000x1_S4000000_n_0_0_1

/-- A label word read signed is the class `c` exactly when it is the word of `c`. -/
theorem toInt_eq_class (t : BitVec 32) (c : Fin 5) : t.toInt = (c.val : Int) ↔ t = BitVec.ofNat 32 c.val := by
  have hc : (BitVec.ofNat 32 c.val).toInt = (c.val : Int) := by
    match c with
    | ⟨0, _⟩ => rfl
    | ⟨1, _⟩ => rfl
    | ⟨2, _⟩ => rfl
    | ⟨3, _⟩ => rfl
    | ⟨4, _⟩ => rfl
  rw [← hc]; exact BitVec.toInt_inj

/-- The start of row `n`'s window on the class axis is its label, read signed. -/
theorem dS_start (idx : IVec S4000000x1 32) (n : Fin 4000000) :
    dS.start (ix1 n) idx (0 : Fin S5.rank) = (idx (ix2 n 0)).toInt := by
  unfold ScatterDims.start
  rw [dif_pos (show (0 : Fin S5.rank) ∈ dS.scatterDimsToOperandDims from List.mem_singleton.mpr rfl)]
  have hsi : dS.siIdx (ix1 n) ⟨List.idxOf (0 : Fin S5.rank) dS.scatterDimsToOperandDims,
      List.idxOf_lt_length_iff.2 (List.mem_singleton.mpr rfl)⟩ = ix2 n 0 := by
    funext b; refine Fin.ext ?_
    match b with
    | ⟨0, _⟩ => rfl
    | ⟨1, _⟩ => rfl
  rw [hsi]

/-- There is no window: the class axis is an inserted one. -/
theorem dS_window (j : S4000000.Idx) : dS.window j (0 : Fin S5.rank) = 0 := by
  unfold ScatterDims.window
  rw [dif_neg]
  decide

/-- Row `n` lands on class `c` exactly when its label, read signed, is `c`. -/
theorem dS_resultIdx_iff (idx : IVec S4000000x1 32) (n : Fin 4000000) (c : Fin 5) :
    dS.resultIdx? (ix1 n) idx = some (ix1 c) ↔ (idx (ix2 n 0)).toInt = (c.val : Int) := by
  have key : ∀ a : Fin S5.rank,
      dS.start (ix1 n) idx a + (dS.window (ix1 n) a : Int) = (idx (ix2 n 0)).toInt := by
    intro a
    obtain rfl : a = 0 := Subsingleton.elim _ _
    rw [dS_start, dS_window]; simp
  have hsz : ∀ a : Fin S5.rank, ((S5.size a : Nat) : Int) = 5 := by
    intro a
    obtain rfl : a = 0 := Subsingleton.elim _ _
    rfl
  have hc := c.isLt
  unfold ScatterDims.resultIdx?
  split
  · rename_i h
    constructor
    · intro he
      have he' := congrFun (Option.some.inj he) (0 : Fin S5.rank)
      have hv : (dS.start (ix1 n) idx 0 + (dS.window (ix1 n) 0 : Int)).toNat = c.val := congrArg Fin.val he'
      have h0 := (h 0).1
      rw [key] at hv h0
      omega
    · intro he
      refine congrArg some ?_
      funext a
      obtain rfl : a = 0 := Subsingleton.elim _ _
      refine Fin.ext ?_
      show (dS.start (ix1 n) idx 0 + (dS.window (ix1 n) 0 : Int)).toNat = c.val
      rw [key]; omega
  · rename_i h
    constructor
    · intro he; cases he
    · intro he
      exfalso; apply h
      intro a
      rw [key a, hsz a, he]
      constructor <;> omega

/-- THE SCATTER-ADD READ AT A CLASS: the operand's entry plus the sum over the rows of the label's indicator times the
    row's update. -/
theorem scatterAdd_class (x : FVec Ideal S5 .f32) (idx : IVec S4000000x1 32) (upd : FVec Ideal S4000000 .f32) (c : Fin 5) :
    Host.scatterAdd (F := Ideal) (φ := .f32) dS x idx upd (ix1 c)
      = x (ix1 c) + ∑ n : Fin 4000000, hot (idx (ix2 n 0)) c * upd (ix1 n) := by
  show Ideal.hostScatterAdd dS x idx upd (ix1 c) = _
  unfold Ideal.hostScatterAdd
  refine congrArg (x (ix1 c) + ·) ?_
  rw [Finset.sum_filter, ← Equiv.sum_comp (idxEquiv1 (n := 4000000)).symm]
  refine Finset.sum_congr rfl fun n _ => ?_
  show (if dS.resultIdx? (ix1 n) idx = some (ix1 c) then upd (ix1 n) else 0) = hot (idx (ix2 n 0)) c * upd (ix1 n)
  unfold hot
  by_cases ht : idx (ix2 n 0) = BitVec.ofNat 32 c.val
  · rw [if_pos ht, if_pos ((dS_resultIdx_iff idx n c).2 ((toInt_eq_class _ c).2 ht)), one_mul]
  · rw [if_neg ht, if_neg (fun h => ht ((toInt_eq_class _ c).1 ((dS_resultIdx_iff idx n c).1 h))), zero_mul]

end ClassScatter

/-! ## The probability gathered at a row's own label

`take_along_axis` of the probabilities along the class axis at one label per row: the label is wrapped when negative, the
result is the probability at `(n, label)` with the label clamped into `0 … 4`, and a row whose wrapped label is out of
range reads a junk value instead. Only rows whose label is a class `c` are needed: there nothing is wrapped or clamped and
the row reads its probability of class `c`. -/

section RowGather

/-- The dimension numbers of the gather along the class axis: rows batched, the class axis collapsed and named by the
    index vector's only component. -/
abbrev dG : GatherDims S4000000x5 S4000000x1x1 S4000000x1 := gather_S4000000x5_S4000000x1x1_S4000000x1_n_1_0_0_1_2_11

/-- The word of a class, read signed, is the class. -/
theorem toInt_class (c : Fin 5) : (BitVec.ofNat 32 c.val).toInt = (c.val : Int) := by
  match c with
  | ⟨0, _⟩ => rfl
  | ⟨1, _⟩ => rfl
  | ⟨2, _⟩ => rfl
  | ⟨3, _⟩ => rfl
  | ⟨4, _⟩ => rfl

/-- THE GATHER READ AT A ROW whose start index is a class `c`: the operand at `(n, c)`. -/
theorem gather_row {α : Type} (x : S4000000x5.Idx → α) (idx : IVec S4000000x1x1 32) (n : Fin 4000000) (c : Fin 5)
    (hc : idx (ix3 n (0 : Fin 1) (0 : Fin 1)) = BitVec.ofNat 32 c.val) :
    Host.gather dG x idx (ix2 n (0 : Fin 1)) = x (ix2 n c) := by
  unfold Host.gather
  refine congrArg x ?_
  funext a
  refine Fin.ext ?_
  match a with
  | ⟨0, _⟩ =>
    show dG.start (ix2 n 0) idx 0 + dG.batchCoord (ix2 n 0) 0 + dG.offCoord (ix2 n 0) 0 = n.val
    rw [GatherDims.start_batching _ _ _ _ (show (0 : Fin S4000000x5.rank) ∈ dG.operandBatchingDims from List.mem_singleton.mpr rfl),
      GatherDims.offCoord_eq_zero _ _ _ (fun h => ((GatherDims.mem_sKept _ _).mp h).2 (List.mem_singleton.mpr rfl)),
      Nat.zero_add, Nat.add_zero]
    unfold GatherDims.batchCoord
    rw [dif_pos (show (0 : Fin S4000000x5.rank) ∈ dG.operandBatchingDims from List.mem_singleton.mpr rfl)]
    rfl
  | ⟨1, _⟩ =>
    show dG.start (ix2 n 0) idx 1 + dG.batchCoord (ix2 n 0) 1 + dG.offCoord (ix2 n 0) 1 = c.val
    rw [GatherDims.batchCoord_eq_zero _ _ _ (show (1 : Fin S4000000x5.rank) ∉ dG.operandBatchingDims by decide),
      GatherDims.offCoord_eq_zero _ _ _ (fun h => ((GatherDims.mem_sKept _ _).mp h).1 (List.mem_singleton.mpr rfl))]
    unfold GatherDims.start
    rw [dif_pos (show (1 : Fin S4000000x5.rank) ∈ dG.startIndexMap from List.mem_singleton.mpr rfl)]
    have hsi : dG.siIdx (ix2 n 0) ⟨List.idxOf (1 : Fin S4000000x5.rank) dG.startIndexMap,
        List.idxOf_lt_length_iff.2 (List.mem_singleton.mpr rfl)⟩ = ix3 n 0 0 := by
      funext b; refine Fin.ext ?_
      match b with
      | ⟨0, _⟩ => rfl
      | ⟨1, _⟩ => rfl
      | ⟨2, _⟩ => rfl
    rw [hsi, hc, toInt_class]
    show min ((c.val : Int)).toNat (5 - 1) + 0 + 0 = c.val
    have := c.isLt
    omega

end RowGather

variable (X : (⟨S4000000x5, .f32⟩ : BufTy).Contents (Elt Ideal)) (T : (⟨S4000000, .i32⟩ : BufTy).Contents (Elt Ideal))

/-- The index the label column `[N, 1]` reads the labels at. -/
theorem idx18_row (n : Fin 4000000) : idx_main_v18 (ix2 n (0 : Fin 1)) = ix1 n := by
  funext a; match a with | ⟨0, _⟩ => rfl
theorem idx23_row (n : Fin 4000000) : idx_main_v23 (ix2 n (0 : Fin 1)) = ix1 n := by
  funext a; match a with | ⟨0, _⟩ => rfl
theorem idx31_row (n : Fin 4000000) : idx_main_v31 (ix2 n (0 : Fin 1)) = ix1 n := by
  funext a; match a with | ⟨0, _⟩ => rfl
theorem idx35_row (n : Fin 4000000) : idx_main_v35 (ix2 n (0 : Fin 1)) = ix1 n := by
  funext a; match a with | ⟨0, _⟩ => rfl

/-- The word of `1.0` is the number one. -/
theorem oneW_eq : oneW = 1 := by
  show Ideal.ofBits .f32 0x3F800000#32 = 1
  simp [Ideal.ofBits, Ideal.ieee, -EReal.coe_mul]; norm_num

/-- The class counts `%19`. -/
theorem counts_apply (c : Fin 5) :
    val_main_v19 (F := Ideal) T (ix1 c) = ∑ n : Fin 4000000, hot (T (ix1 n)) c := by
  unfold val_main_v19
  refine (scatterAdd_class _ _ _ c).trans ?_
  rw [val_main_v17_apply, val_main_cst_4_apply]
  show Ideal.ofBits .f32 0x00000000#32 + _ = _
  rw [Ideal.ofBits_zero_f32, zero_add]
  refine Finset.sum_congr rfl fun n _ => ?_
  rw [val_main_v18_apply, idx18_row, val_main_v16_apply, val_main_cst_3_apply]
  show hot (T (ix1 n)) c * oneW = _
  rw [oneW_eq, mul_one]

/-- The index the reshape `[N] → [N, 1]` reads at. -/
theorem idx25_row (n : Fin 4000000) : idx_main_v25 (ix1 n) = ix2 n (0 : Fin 1) := by
  funext a
  match a with
  | ⟨0, _⟩ => refine Fin.ext ?_; show n.val / 1 = n.val; omega
  | ⟨1, _⟩ => rfl

/-- The index the reshape `[N, 1] → [N, 1, 1]` reads at. -/
theorem idxc5_row (n : Fin 4000000) : idx_main_call0_v5 (ix3 n (0 : Fin 1) (0 : Fin 1)) = ix2 n (0 : Fin 1) := by
  funext a
  match a with
  | ⟨0, _⟩ => refine Fin.ext ?_; show ((n.val * 1 + 0) * 1 + 0) / 1 = n.val; omega
  | ⟨1, _⟩ => rfl

/-- Over row `n` of the `[N, 1]` result the and-reduction reads the one element `(n, 0, 0)`. -/
theorem lift_row (hR : S4000000x1x1.Reduces [2] S4000000x1) (n : Fin 4000000) (k : Fin (S4000000x1x1.size 2)) :
    hR.lift (ix2 n (0 : Fin 1)) k = ix3 n (0 : Fin 1) (0 : Fin 1) := by
  funext a; refine Fin.ext ?_
  rw [Shape.Reduces.lift_val]
  match a with
  | ⟨0, _⟩ => rfl
  | ⟨1, _⟩ => rfl
  | ⟨2, _⟩ =>
    have hk : k.val < 1 := k.isLt
    show k.val = 0
    omega

/-- A class is not negative, so wrapping leaves it as it is. -/
theorem wrap_class : ∀ k : Fin 5,
    Scalar.select (IntOp.cmpi .slt (BitVec.ofNat 32 k.val) 0#32) (IntOp.addi (BitVec.ofNat 32 k.val) 5#32) (BitVec.ofNat 32 k.val)
      = BitVec.ofNat 32 k.val := by
  decide

/-- A class is within `0 … 4`. -/
theorem inb_class : ∀ k : Fin 5,
    IntOp.andi (IntOp.andi (IntOp.cmpi .sge (BitVec.ofNat 32 k.val) 0#32) (IntOp.cmpi .sle (BitVec.ofNat 32 k.val) 4#32)) 1#1
      = 1#1 := by
  decide

/-- A fold over an axis of one coordinate is one application of the operation. -/
theorem fold_unit_axis {α : Type} (op : α → α → α) [Std.Commutative op] [Std.Associative op] {m : Nat} (hm : m = 1)
    (b : α) (f : Fin m → α) :
    (Finset.univ : Finset (Fin m)).fold op b f = op (f ⟨0, by omega⟩) b := by
  subst hm
  rw [Finset.univ_unique, Finset.fold_singleton]
  rfl

/-- At a row whose label is the class `c` the wrapped label `%5` is `c`: a class is not negative. -/
theorem c5_row (n : Fin 4000000) (c : Fin 5) (hT : T (ix1 n) = BitVec.ofNat 32 c.val) :
    val_main_call0_v5 (F := Ideal) T (ix3 n (0 : Fin 1) (0 : Fin 1)) = BitVec.ofNat 32 c.val := by
  rw [val_main_call0_v5_apply, idxc5_row, val_main_call0_v4_apply, val_main_call0_v1_apply, val_main_call0_v3_apply,
    val_main_v23_apply, idx23_row, hT, val_main_call0_v0_apply, val_main_call0_c_apply, val_main_call0_v2_apply,
    val_main_call0_c_0_apply]
  exact wrap_class c

/-- At such a row the in-bounds bit `%12` is set: `0 ≤ c ≤ 4`. -/
theorem c12_row (n : Fin 4000000) (c : Fin 5) (hT : T (ix1 n) = BitVec.ofNat 32 c.val) :
    val_main_call0_v12 (F := Ideal) T (ix2 n (0 : Fin 1)) = 1#1 := by
  have hR : S4000000x1x1.Reduces [2] S4000000x1 := by decide
  unfold val_main_call0_v12
  refine (Host.reduce_eq_fold_single IntOp.andi _ _ _ hR _ (ix2 n (0 : Fin 1))).trans ?_
  refine (fold_unit_axis IntOp.andi (m := S4000000x1x1.size 2) rfl _ _).trans ?_
  rw [Function.comp_apply, lift_row, val_main_call0_c_3_apply, val_main_call0_v11_apply, val_main_call0_v7_apply,
    val_main_call0_v10_apply, c5_row T n c hT, val_main_call0_v6_apply, val_main_call0_c_2_apply, val_main_call0_v9_apply,
    val_main_call0_v8_apply, val_main_call0_c_1_apply]
  exact inb_class c

/-- At such a row the update `%29` is the negated logarithm of the row's probability of class `c`. -/
theorem v29_row (n : Fin 4000000) (c : Fin 5) (hT : T (ix1 n) = BitVec.ofNat 32 c.val) :
    val_main_v29 (F := Ideal) X T (ix1 n) = nlp (rowOf X n) c := by
  rw [val_main_v29_apply, val_main_v28_apply, val_main_v27_apply, val_main_v25_apply, idx25_row, val_main_v24_apply,
    c12_row T n c hT, select_one, val_main_v26_apply, val_main_cst_6_apply]
  unfold val_main_call0_v13
  rw [gather_row _ _ n c (c5_row T n c hT), v10_apply]
  rfl

/-- The class losses `%32`. -/
theorem closs_apply (c : Fin 5) :
    val_main_v32 (F := Ideal) X T (ix1 c) = ∑ n : Fin 4000000, hot (T (ix1 n)) c * nlp (rowOf X n) c := by
  unfold val_main_v32
  refine (scatterAdd_class _ _ _ c).trans ?_
  rw [val_main_v30_apply, val_main_cst_7_apply]
  show Ideal.ofBits .f32 0x00000000#32 + _ = _
  rw [Ideal.ofBits_zero_f32, zero_add]
  refine Finset.sum_congr rfl fun n _ => ?_
  rw [val_main_v31_apply, idx31_row]
  unfold hot
  split
  · rename_i hT
    rw [v29_row X T n c hT]
  · rw [zero_mul, zero_mul]

/-- The losses against the last class `%36`. -/
theorem lossneg_apply (c : Fin 5) :
    val_main_v36 (F := Ideal) X T (ix1 c) = ∑ n : Fin 4000000, hot (T (ix1 n)) c * nlp (rowOf X n) last := by
  unfold val_main_v36
  refine (scatterAdd_class _ _ _ c).trans ?_
  rw [val_main_v34_apply, val_main_cst_8_apply]
  show Ideal.ofBits .f32 0x00000000#32 + _ = _
  rw [Ideal.ofBits_zero_f32, zero_add]
  refine Finset.sum_congr rfl fun n _ => ?_
  rw [val_main_v35_apply, idx35_row, val_main_v33_apply, v15_apply]
  rfl

end Cert.ReferenceIdeal.RScatter

end
-- ==== Proof.RConf.lean ====
/-
  The reference's selection counts and confidence sums of the four positive classes, each a sum over the rows of the
  specification's selection term and confidence ratio.
-/
import proofs.«420255_j67396626809312_1_alg».proof.Proof.RRow
import Idealize.ShloMosaic.Lib.ValueIdxRank1

noncomputable section

open scoped BigOperators

namespace Cert.ReferenceIdeal.RConf

open Cert.ReferenceIdeal Cert.ReferenceIdeal.ReadP Cert.RowSpec Idealize.ShloMosaic Idealize.ShloMosaic.ValueIdx Cert.ReferenceIdeal.RRow

/-! ## One row, as scalars -/

/-- A one-bit word read unsigned is `0` or `1`. -/
theorem uitofp_bit (b : BitVec 1) : (FloatOps.uitofp (F := Ideal) .f32 b : EReal) = bitE b := by
  rcases BitVec.eq_zero_or_eq_one b with h | h <;> subst h <;> simp [bitE, FloatOps.uitofp]

/-- The label comparison's bit is `1` exactly when the label is the class's word. -/
theorem cmpi_eq_one (t w : BitVec 32) : IntOp.cmpi .eq t w = 1#1 ↔ t = w := by
  unfold IntOp.cmpi
  by_cases h : t = w
  · subst h; simp
  · have hb : (t == w) = false := beq_false_of_ne h
    simp only [hb, h, iff_false]
    decide

/-- The conjunction of two bits, as a number, is the product of the bits as numbers. -/
theorem bitE_and (a b : BitVec 1) : bitE (IntOp.andi a b) = bitE a * bitE b := by
  rcases BitVec.eq_zero_or_eq_one a with h | h <;> rcases BitVec.eq_zero_or_eq_one b with h' | h' <;>
    subst h <;> subst h' <;> simp [bitE, IntOp.andi]

/-- The label bit as a number is the indicator of the class. -/
theorem bitE_cmpi (t : BitVec 32) (c : Fin 5) : bitE (IntOp.cmpi .eq t (BitVec.ofNat 32 c.val)) = hot t c := by
  unfold bitE hot
  simp only [cmpi_eq_one]

/-- A row's selection term from the two bits the reference computes: the probability of the class against one half
    and the label against the class's word. -/
theorem sel_row (x : Fin 5 → EReal) (t : BitVec 32) (i : Fin 4) (p : EReal) (w : BitVec 32)
    (hp : p = prob x (up i)) (hw : w = BitVec.ofNat 32 (up i).val) :
    (FloatOps.uitofp (F := Ideal) .f32 (IntOp.andi (FloatOps.cmpf (F := Ideal) (φ := .f32) .ogt p halfW) (IntOp.cmpi .eq t w)) : EReal)
      = sel x t i := by
  subst hp; subst hw
  rw [uitofp_bit, bitE_and, bitE_cmpi]
  rfl

/-- The selection term is positive exactly when both bits are set. -/
theorem sel_pos_iff (a b : BitVec 1) :
    Ideal.cmp .ogt (bitE a * bitE b) zeroW = 1#1 ↔ IntOp.andi a b = 1#1 := by
  rcases BitVec.eq_zero_or_eq_one a with h | h <;> rcases BitVec.eq_zero_or_eq_one b with h' | h' <;>
    subst h <;> subst h' <;> simp [bitE, IntOp.andi, Ideal.cmp, Ideal.ofBits_zero_f32]

/-- A row's confidence ratio from the reference's select: the negated logarithm over the class's probability where both
    bits are set, zero elsewhere. -/
theorem ratio_row (x : Fin 5 → EReal) (t : BitVec 32) (i : Fin 4) (p q l z : EReal) (w : BitVec 32)
    (hp : p = prob x (up i)) (hq : q = prob x (up i)) (hw : w = BitVec.ofNat 32 (up i).val)
    (hl : l = Ideal.log (prob x last + epsW)) (hz : z = zeroW) :
    Scalar.select (IntOp.andi (FloatOps.cmpf (F := Ideal) (φ := .f32) .ogt p halfW) (IntOp.cmpi .eq t w))
        (FloatOps.hostDivf (F := Ideal) (φ := .f32) (FloatOps.hostNegf (F := Ideal) (φ := .f32) l) q) z
      = ratio x t i := by
  subst hp; subst hq; subst hw; subst hl; subst hz
  unfold ratio sel Scalar.select
  rw [← bitE_cmpi]
  simp only [sel_pos_iff]
  rfl

/-! ## Sums over the rows -/

/-- A sum over the rank-one index set, started from the zero word, is the sum over the rows. -/
theorem sum_rows (f : S4000000.Idx → EReal) : zeroW + ∑ j : S4000000.Idx, f j = ∑ n : Fin 4000000, f (ix1 n) := by
  have hz : zeroW = 0 := Ideal.ofBits_zero_f32
  rw [hz, zero_add]
  exact (Equiv.sum_comp (idxEquiv1 (n := 4000000)).symm f).symm

variable (X : (⟨S4000000x5, .f32⟩ : BufTy).Contents (Elt Ideal)) (T : (⟨S4000000, .i32⟩ : BufTy).Contents (Elt Ideal))

/-! ## Positive class 0 -/

/-- The column slice and its reshape read row `n` at the class's column. -/
theorem idx0 (n : Fin 4000000) : idx_main_v38 (idx_main_v39 (ix1 n)) = ix2 n (up ⟨0, by omega⟩) := by
  funext a
  match a with
  | ⟨0, _⟩ => exact Fin.ext (Nat.div_one _)
  | ⟨1, _⟩ => rfl

/-- The same for the divisor's copy of the slice. -/
theorem idx0' (n : Fin 4000000) : idx_main_v48 (idx_main_v49 (ix1 n)) = ix2 n (up ⟨0, by omega⟩) := by
  funext a
  match a with
  | ⟨0, _⟩ => exact Fin.ext (Nat.div_one _)
  | ⟨1, _⟩ => rfl

/-- The compared value at row `n` is the class's probability. -/
theorem p0 (n : Fin 4000000) : val_main_v39 (F := Ideal) X (ix1 n) = prob (rowOf X n) (up ⟨0, by omega⟩) := by
  rw [val_main_v39_apply, val_main_v38_apply, idx0]
  exact v10_apply X n _

/-- The divisor at row `n` is the class's probability. -/
theorem q0 (n : Fin 4000000) : val_main_v49 (F := Ideal) X (ix1 n) = prob (rowOf X n) (up ⟨0, by omega⟩) := by
  rw [val_main_v49_apply, val_main_v48_apply, idx0']
  exact v10_apply X n _

/-- The threshold at every row is one half. -/
theorem half0 (n : Fin 4000000) : val_main_v40 (F := Ideal) (ix1 n) = halfW :=
  (val_main_v40_apply _).trans ((val_main_cst_9_apply _).trans rfl)

/-- The label compared against at every row is the class's word. -/
theorem w0 (n : Fin 4000000) : val_main_v42 (F := Ideal) (ix1 n) = BitVec.ofNat 32 (up ⟨0, by omega⟩).val :=
  (val_main_v42_apply _).trans ((val_main_c_apply _).trans rfl)

/-- The value of a row not selected is the zero word. -/
theorem z0 (n : Fin 4000000) : val_main_call1_v1 (F := Ideal) (ix1 n) = zeroW :=
  (val_main_call1_v1_apply _).trans ((val_main_call1_v0_apply _).trans ((val_main_cst_11_apply _).trans rfl))

/-- The converted conjunction at row `n` is the row's selection term. -/
theorem sel0_row (n : Fin 4000000) :
    val_main_v45 (F := Ideal) X T (ix1 n) = sel (rowOf X n) (T (ix1 n)) ⟨0, by omega⟩ := by
  rw [val_main_v45_apply, val_main_v44_apply, val_main_v41_apply, val_main_v43_apply, half0]
  exact sel_row _ _ _ _ _ (p0 X n) (w0 n)

/-- The selected quotient at row `n` is the row's confidence ratio. -/
theorem ratio0_row (n : Fin 4000000) :
    val_main_v51 (F := Ideal) X T (ix1 n) = ratio (rowOf X n) (T (ix1 n)) ⟨0, by omega⟩ := by
  rw [val_main_v51_apply, val_main_v44_apply, val_main_v41_apply, val_main_v43_apply, half0,
    val_main_v50_apply, val_main_v47_apply]
  exact ratio_row _ _ _ _ _ _ _ _ (p0 X n) (q0 X n) (w0 n) (v15_apply X n) (z0 n)

/-- How many rows are selected for positive class 0 (`%46`). -/
theorem nsel0 : val_main_v46 (F := Ideal) X T ix0 = ∑ n : Fin 4000000, sel (rowOf X n) (T (ix1 n)) ⟨0, by omega⟩ := by
  rw [val_main_v46_apply, val_main_cst_10_apply]
  refine (sum_rows _).trans ?_
  exact Finset.sum_congr rfl (fun n _ => sel0_row X T n)

/-- The confidence sum of positive class 0 (`%52`). -/
theorem li0 : val_main_v52 (F := Ideal) X T ix0 = ∑ n : Fin 4000000, ratio (rowOf X n) (T (ix1 n)) ⟨0, by omega⟩ := by
  rw [val_main_v52_apply, val_main_cst_12_apply]
  refine (sum_rows _).trans ?_
  exact Finset.sum_congr rfl (fun n _ => ratio0_row X T n)

/-! ## Positive class 1 -/

/-- The column slice and its reshape read row `n` at the class's column. -/
theorem idx1 (n : Fin 4000000) : idx_main_v55 (idx_main_v56 (ix1 n)) = ix2 n (up ⟨1, by omega⟩) := by
  funext a
  match a with
  | ⟨0, _⟩ => exact Fin.ext (Nat.div_one _)
  | ⟨1, _⟩ => rfl

/-- The same for the divisor's copy of the slice. -/
theorem idx1' (n : Fin 4000000) : idx_main_v65 (idx_main_v66 (ix1 n)) = ix2 n (up ⟨1, by omega⟩) := by
  funext a
  match a with
  | ⟨0, _⟩ => exact Fin.ext (Nat.div_one _)
  | ⟨1, _⟩ => rfl

/-- The compared value at row `n` is the class's probability. -/
theorem p1 (n : Fin 4000000) : val_main_v56 (F := Ideal) X (ix1 n) = prob (rowOf X n) (up ⟨1, by omega⟩) := by
  rw [val_main_v56_apply, val_main_v55_apply, idx1]
  exact v10_apply X n _

/-- The divisor at row `n` is the class's probability. -/
theorem q1 (n : Fin 4000000) : val_main_v66 (F := Ideal) X (ix1 n) = prob (rowOf X n) (up ⟨1, by omega⟩) := by
  rw [val_main_v66_apply, val_main_v65_apply, idx1']
  exact v10_apply X n _

/-- The threshold at every row is one half. -/
theorem half1 (n : Fin 4000000) : val_main_v57 (F := Ideal) (ix1 n) = halfW :=
  (val_main_v57_apply _).trans ((val_main_cst_14_apply _).trans rfl)

/-- The label compared against at every row is the class's word. -/
theorem w1 (n : Fin 4000000) : val_main_v59 (F := Ideal) (ix1 n) = BitVec.ofNat 32 (up ⟨1, by omega⟩).val :=
  (val_main_v59_apply _).trans ((val_main_c_15_apply _).trans rfl)

/-- The value of a row not selected is the zero word. -/
theorem z1 (n : Fin 4000000) : val_main_call2_v1 (F := Ideal) (ix1 n) = zeroW :=
  (val_main_call2_v1_apply _).trans ((val_main_call2_v0_apply _).trans ((val_main_cst_17_apply _).trans rfl))

/-- The converted conjunction at row `n` is the row's selection term. -/
theorem sel1_row (n : Fin 4000000) :
    val_main_v62 (F := Ideal) X T (ix1 n) = sel (rowOf X n) (T (ix1 n)) ⟨1, by omega⟩ := by
  rw [val_main_v62_apply, val_main_v61_apply, val_main_v58_apply, val_main_v60_apply, half1]
  exact sel_row _ _ _ _ _ (p1 X n) (w1 n)

/-- The selected quotient at row `n` is the row's confidence ratio. -/
theorem ratio1_row (n : Fin 4000000) :
    val_main_v68 (F := Ideal) X T (ix1 n) = ratio (rowOf X n) (T (ix1 n)) ⟨1, by omega⟩ := by
  rw [val_main_v68_apply, val_main_v61_apply, val_main_v58_apply, val_main_v60_apply, half1,
    val_main_v67_apply, val_main_v64_apply]
  exact ratio_row _ _ _ _ _ _ _ _ (p1 X n) (q1 X n) (w1 n) (v15_apply X n) (z1 n)

/-- How many rows are selected for positive class 1 (`%63`). -/
theorem nsel1 : val_main_v63 (F := Ideal) X T ix0 = ∑ n : Fin 4000000, sel (rowOf X n) (T (ix1 n)) ⟨1, by omega⟩ := by
  rw [val_main_v63_apply, val_main_cst_16_apply]
  refine (sum_rows _).trans ?_
  exact Finset.sum_congr rfl (fun n _ => sel1_row X T n)

/-- The confidence sum of positive class 1 (`%69`). -/
theorem li1 : val_main_v69 (F := Ideal) X T ix0 = ∑ n : Fin 4000000, ratio (rowOf X n) (T (ix1 n)) ⟨1, by omega⟩ := by
  rw [val_main_v69_apply, val_main_cst_18_apply]
  refine (sum_rows _).trans ?_
  exact Finset.sum_congr rfl (fun n _ => ratio1_row X T n)

/-! ## Positive class 2 -/

/-- The column slice and its reshape read row `n` at the class's column. -/
theorem idx2 (n : Fin 4000000) : idx_main_v72 (idx_main_v73 (ix1 n)) = ix2 n (up ⟨2, by omega⟩) := by
  funext a
  match a with
  | ⟨0, _⟩ => exact Fin.ext (Nat.div_one _)
  | ⟨1, _⟩ => rfl

/-- The same for the divisor's copy of the slice. -/
theorem idx2' (n : Fin 4000000) : idx_main_v82 (idx_main_v83 (ix1 n)) = ix2 n (up ⟨2, by omega⟩) := by
  funext a
  match a with
  | ⟨0, _⟩ => exact Fin.ext (Nat.div_one _)
  | ⟨1, _⟩ => rfl

/-- The compared value at row `n` is the class's probability. -/
theorem p2 (n : Fin 4000000) : val_main_v73 (F := Ideal) X (ix1 n) = prob (rowOf X n) (up ⟨2, by omega⟩) := by
  rw [val_main_v73_apply, val_main_v72_apply, idx2]
  exact v10_apply X n _

/-- The divisor at row `n` is the class's probability. -/
theorem q2 (n : Fin 4000000) : val_main_v83 (F := Ideal) X (ix1 n) = prob (rowOf X n) (up ⟨2, by omega⟩) := by
  rw [val_main_v83_apply, val_main_v82_apply, idx2']
  exact v10_apply X n _

/-- The threshold at every row is one half. -/
theorem half2 (n : Fin 4000000) : val_main_v74 (F := Ideal) (ix1 n) = halfW :=
  (val_main_v74_apply _).trans ((val_main_cst_20_apply _).trans rfl)

/-- The label compared against at every row is the class's word. -/
theorem w2 (n : Fin 4000000) : val_main_v76 (F := Ideal) (ix1 n) = BitVec.ofNat 32 (up ⟨2, by omega⟩).val :=
  (val_main_v76_apply _).trans ((val_main_c_21_apply _).trans rfl)

/-- The value of a row not selected is the zero word. -/
theorem z2 (n : Fin 4000000) : val_main_call3_v1 (F := Ideal) (ix1 n) = zeroW :=
  (val_main_call3_v1_apply _).trans ((val_main_call3_v0_apply _).trans ((val_main_cst_23_apply _).trans rfl))

/-- The converted conjunction at row `n` is the row's selection term. -/
theorem sel2_row (n : Fin 4000000) :
    val_main_v79 (F := Ideal) X T (ix1 n) = sel (rowOf X n) (T (ix1 n)) ⟨2, by omega⟩ := by
  rw [val_main_v79_apply, val_main_v78_apply, val_main_v75_apply, val_main_v77_apply, half2]
  exact sel_row _ _ _ _ _ (p2 X n) (w2 n)

/-- The selected quotient at row `n` is the row's confidence ratio. -/
theorem ratio2_row (n : Fin 4000000) :
    val_main_v85 (F := Ideal) X T (ix1 n) = ratio (rowOf X n) (T (ix1 n)) ⟨2, by omega⟩ := by
  rw [val_main_v85_apply, val_main_v78_apply, val_main_v75_apply, val_main_v77_apply, half2,
    val_main_v84_apply, val_main_v81_apply]
  exact ratio_row _ _ _ _ _ _ _ _ (p2 X n) (q2 X n) (w2 n) (v15_apply X n) (z2 n)

/-- How many rows are selected for positive class 2 (`%80`). -/
theorem nsel2 : val_main_v80 (F := Ideal) X T ix0 = ∑ n : Fin 4000000, sel (rowOf X n) (T (ix1 n)) ⟨2, by omega⟩ := by
  rw [val_main_v80_apply, val_main_cst_22_apply]
  refine (sum_rows _).trans ?_
  exact Finset.sum_congr rfl (fun n _ => sel2_row X T n)

/-- The confidence sum of positive class 2 (`%86`). -/
theorem li2 : val_main_v86 (F := Ideal) X T ix0 = ∑ n : Fin 4000000, ratio (rowOf X n) (T (ix1 n)) ⟨2, by omega⟩ := by
  rw [val_main_v86_apply, val_main_cst_24_apply]
  refine (sum_rows _).trans ?_
  exact Finset.sum_congr rfl (fun n _ => ratio2_row X T n)

/-! ## Positive class 3 -/

/-- The column slice and its reshape read row `n` at the class's column. -/
theorem idx3 (n : Fin 4000000) : idx_main_v89 (idx_main_v90 (ix1 n)) = ix2 n (up ⟨3, by omega⟩) := by
  funext a
  match a with
  | ⟨0, _⟩ => exact Fin.ext (Nat.div_one _)
  | ⟨1, _⟩ => rfl

/-- The same for the divisor's copy of the slice. -/
theorem idx3' (n : Fin 4000000) : idx_main_v99 (idx_main_v100 (ix1 n)) = ix2 n (up ⟨3, by omega⟩) := by
  funext a
  match a with
  | ⟨0, _⟩ => exact Fin.ext (Nat.div_one _)
  | ⟨1, _⟩ => rfl

/-- The compared value at row `n` is the class's probability. -/
theorem p3 (n : Fin 4000000) : val_main_v90 (F := Ideal) X (ix1 n) = prob (rowOf X n) (up ⟨3, by omega⟩) := by
  rw [val_main_v90_apply, val_main_v89_apply, idx3]
  exact v10_apply X n _

/-- The divisor at row `n` is the class's probability. -/
theorem q3 (n : Fin 4000000) : val_main_v100 (F := Ideal) X (ix1 n) = prob (rowOf X n) (up ⟨3, by omega⟩) := by
  rw [val_main_v100_apply, val_main_v99_apply, idx3']
  exact v10_apply X n _

/-- The threshold at every row is one half. -/
theorem half3 (n : Fin 4000000) : val_main_v91 (F := Ideal) (ix1 n) = halfW :=
  (val_main_v91_apply _).trans ((val_main_cst_26_apply _).trans rfl)

/-- The label compared against at every row is the class's word. -/
theorem w3 (n : Fin 4000000) : val_main_v93 (F := Ideal) (ix1 n) = BitVec.ofNat 32 (up ⟨3, by omega⟩).val :=
  (val_main_v93_apply _).trans ((val_main_c_27_apply _).trans rfl)

/-- The value of a row not selected is the zero word. -/
theorem z3 (n : Fin 4000000) : val_main_call4_v1 (F := Ideal) (ix1 n) = zeroW :=
  (val_main_call4_v1_apply _).trans ((val_main_call4_v0_apply _).trans ((val_main_cst_29_apply _).trans rfl))

/-- The converted conjunction at row `n` is the row's selection term. -/
theorem sel3_row (n : Fin 4000000) :
    val_main_v96 (F := Ideal) X T (ix1 n) = sel (rowOf X n) (T (ix1 n)) ⟨3, by omega⟩ := by
  rw [val_main_v96_apply, val_main_v95_apply, val_main_v92_apply, val_main_v94_apply, half3]
  exact sel_row _ _ _ _ _ (p3 X n) (w3 n)

/-- The selected quotient at row `n` is the row's confidence ratio. -/
theorem ratio3_row (n : Fin 4000000) :
    val_main_v102 (F := Ideal) X T (ix1 n) = ratio (rowOf X n) (T (ix1 n)) ⟨3, by omega⟩ := by
  rw [val_main_v102_apply, val_main_v95_apply, val_main_v92_apply, val_main_v94_apply, half3,
    val_main_v101_apply, val_main_v98_apply]
  exact ratio_row _ _ _ _ _ _ _ _ (p3 X n) (q3 X n) (w3 n) (v15_apply X n) (z3 n)

/-- How many rows are selected for positive class 3 (`%97`). -/
theorem nsel3 : val_main_v97 (F := Ideal) X T ix0 = ∑ n : Fin 4000000, sel (rowOf X n) (T (ix1 n)) ⟨3, by omega⟩ := by
  rw [val_main_v97_apply, val_main_cst_28_apply]
  refine (sum_rows _).trans ?_
  exact Finset.sum_congr rfl (fun n _ => sel3_row X T n)

/-- The confidence sum of positive class 3 (`%103`). -/
theorem li3 : val_main_v103 (F := Ideal) X T ix0 = ∑ n : Fin 4000000, ratio (rowOf X n) (T (ix1 n)) ⟨3, by omega⟩ := by
  rw [val_main_v103_apply, val_main_cst_30_apply]
  refine (sum_rows _).trans ?_
  exact Finset.sum_congr rfl (fun n _ => ratio3_row X T n)

end Cert.ReferenceIdeal.RConf

end
-- ==== Proof.RLast.lean ====
/-
  The reference's last-class confidence sum `%114`: the sum over the rows whose five probabilities are all at most one
  half and whose label is the last class, of the negated logarithm of the last class.
-/
import proofs.«420255_j67396626809312_1_alg».proof.Proof.RRow
import Idealize.ShloMosaic.Lib.ValueIdxRank1
import Idealize.ShloMosaic.Lib.ReduceAll

noncomputable section

open scoped BigOperators

namespace Cert.ReferenceIdeal.RLast

open Cert.ReferenceIdeal Cert.ReferenceIdeal.ReadP Cert.RowSpec Idealize.ShloMosaic Idealize.ShloMosaic.ValueIdx Cert.ReferenceIdeal.RRow

variable (X : (⟨S4000000x5, .f32⟩ : BufTy).Contents (Elt Ideal)) (T : (⟨S4000000, .i32⟩ : BufTy).Contents (Elt Ideal))

/-- A fold of `and` from `1` over a finite set of one-bit words is `1` exactly when every word is. -/
private theorem fold_andi_eq_one {ι : Type} [DecidableEq ι] (s : Finset ι) (f : ι → BitVec 1) :
    s.fold IntOp.andi 1#1 f = 1#1 ↔ ∀ c ∈ s, f c = 1#1 := by
  induction s using Finset.induction_on with
  | empty => simp
  | insert a s ha ih =>
    rw [Finset.fold_insert ha, IntOp.andi_eq_one, ih]
    simp [Finset.forall_mem_insert]

/-- Over the five classes. -/
private theorem fold5 (f : Fin 5 → BitVec 1) :
    (Finset.univ : Finset (Fin 5)).fold IntOp.andi 1#1 f = 1#1 ↔ ∀ c, f c = 1#1 := by
  rw [fold_andi_eq_one]
  simp only [Finset.mem_univ, true_implies]

/-- The matrix of logits loses its class axis. -/
private theorem red1 : S4000000x5.Reduces [1] S4000000 := by decide

/-- Row `n` with class `c` put back on the dropped axis is the entry `(n, c)`. -/
private theorem lift_row (n : Fin 4000000) (c : Fin 5) : (red1).lift (ix1 n) c = ix2 n c := by
  funext d
  match d with
  | ⟨0, _⟩ => exact Fin.ext rfl
  | ⟨1, _⟩ => exact Fin.ext rfl

/-- The conjunction over a row's five comparisons is `1` exactly when every probability is at most one half. -/
private theorem v108_iff (n : Fin 4000000) :
    val_main_v108 (F := Ideal) X (ix1 n) = 1#1 ↔ ∀ c : Fin 5, Ideal.cmp .ole (prob (rowOf X n) c) halfW = 1#1 := by
  unfold val_main_v108
  rw [Host.reduce_eq_fold_single IntOp.andi _ _ _ red1 _ (ix1 n)]
  rw [val_main_c_33_apply]
  refine (fold5 (fun c => val_main_v107 (F := Ideal) X ((red1).lift (ix1 n) c))).trans ?_
  refine forall_congr' (fun c => ?_)
  rw [lift_row, val_main_v107_apply, v10_apply, val_main_v106_apply, val_main_cst_32_apply]
  exact Iff.rfl

/-- A one-bit word as a real number. -/
private def bitR (b : BitVec 1) : ℝ := if b = 1#1 then 1 else 0

private theorem bitE_eq (b : BitVec 1) : bitE b = ((bitR b : ℝ) : EReal) := by
  unfold bitE bitR; split <;> simp

private theorem bitR_le_one (b : BitVec 1) : bitR b ≤ 1 := by unfold bitR; split <;> norm_num

/-- `≥` read back. -/
private theorem cmp_oge_iff (x y : EReal) : Ideal.cmp .oge x y = 1#1 ↔ y ≤ x := by
  unfold Ideal.cmp
  by_cases h : y ≤ x <;> simp [h]

/-- The word `0x40900000` is four and a half. -/
private theorem fourHalfW_eq : fourHalfW = ((4.5 : ℝ) : EReal) := by
  simp [Ideal.ofBits, Ideal.ieee]
  rw [← EReal.coe_mul, EReal.coe_eq_coe_iff]
  norm_num

/-- Five bits sum to at least four and a half exactly when all five are set. -/
private theorem count_iff (b : Fin 5 → BitVec 1) :
    Ideal.cmp .oge (∑ c : Fin 5, bitE (b c)) fourHalfW = 1#1 ↔ ∀ c, b c = 1#1 := by
  rw [cmp_oge_iff, fourHalfW_eq, Fin.sum_univ_five]
  simp only [bitE_eq, ← EReal.coe_add, EReal.coe_le_coe_iff]
  constructor
  · intro h c
    by_contra hc
    have h0 : bitR (b c) = 0 := by unfold bitR; rw [if_neg hc]
    have l0 := bitR_le_one (b 0)
    have l1 := bitR_le_one (b 1)
    have l2 := bitR_le_one (b 2)
    have l3 := bitR_le_one (b 3)
    have l4 := bitR_le_one (b 4)
    fin_cases c <;> simp at h0 <;> linarith
  · intro h
    simp only [bitR, h, if_true]
    norm_num

/-- The guarded value as a product of the two indicators and the value. -/
private theorem select_eq (a a' : BitVec 1) (t : BitVec 32) (v : EReal) (haa : a = 1#1 ↔ a' = 1#1) :
    Scalar.select (IntOp.andi a (IntOp.cmpi .eq t 4#32)) v (Ideal.ofBits .f32 0x00000000#32)
      = (bitE a' * hot t last) * v := by
  rw [Ideal.ofBits_zero_f32]
  unfold bitE hot
  by_cases ha : a = 1#1
  · by_cases ht : t = 4#32
    · have hc : IntOp.andi a (IntOp.cmpi .eq t 4#32) = 1#1 := IntOp.andi_eq_one.2 ⟨ha, IntOp.cmpi_eq.2 ht⟩
      rw [hc, select_one, if_pos (haa.1 ha), if_pos (show t = BitVec.ofNat 32 (last : Fin 5).val from ht), one_mul, one_mul]
    · have hc : ¬ IntOp.andi a (IntOp.cmpi .eq t 4#32) = 1#1 := fun h => ht (IntOp.cmpi_eq.1 (IntOp.andi_eq_one.1 h).2)
      rw [eq_zero_of_ne_one hc, select_zero, if_neg (show ¬ t = BitVec.ofNat 32 (last : Fin 5).val from ht), mul_zero, zero_mul]
  · have hc : ¬ IntOp.andi a (IntOp.cmpi .eq t 4#32) = 1#1 := fun h => ha (IntOp.andi_eq_one.1 h).1
    rw [eq_zero_of_ne_one hc, select_zero, if_neg (fun h => ha (haa.2 h)), zero_mul, zero_mul]

/-- One row's guarded negated logarithm is the row's last-class confidence term. -/
private theorem row (n : Fin 4000000) :
    val_main_v113 (F := Ideal) X T (ix1 n) = lastConf (rowOf X n) (T (ix1 n)) := by
  rw [val_main_v113_apply, val_main_v111_apply, val_main_v110_apply, val_main_v112_apply, val_main_call5_v1_apply,
    val_main_call5_v0_apply, val_main_cst_35_apply, val_main_v109_apply, val_main_c_34_apply, v15_apply]
  unfold lastConf
  refine (select_eq _ (Ideal.cmp .oge (lowCount (rowOf X n)) fourHalfW) _ _ ?_).trans ?_
  · rw [v108_iff]
    unfold lowCount
    exact (count_iff _).symm
  · rfl

/-- The last-class confidence sum. -/
theorem lin : val_main_v114 (F := Ideal) X T ix0 = ∑ n : Fin 4000000, lastConf (rowOf X n) (T (ix1 n)) := by
  rw [val_main_v114_apply, val_main_cst_36_apply]
  show Ideal.ofBits .f32 0x00000000#32 + _ = _
  rw [Ideal.ofBits_zero_f32, zero_add, ← Equiv.sum_comp (idxEquiv1 (n := 4000000)).symm]
  exact Finset.sum_congr rfl (fun n _ => row X T n)

end Cert.ReferenceIdeal.RLast

end
-- ==== Proof.RTail.lean ====
/-
  The reference's result: its scalar operations after the sums are the specification's tail, so the result is the loss of
  the batch.
-/
import proofs.«420255_j67396626809312_1_alg».proof.Proof.RScatter
import proofs.«420255_j67396626809312_1_alg».proof.Proof.RConf
import proofs.«420255_j67396626809312_1_alg».proof.Proof.RLast
import Idealize.ShloMosaic.Lib.ValueIdxRank1

noncomputable section

open scoped BigOperators

namespace Cert.ReferenceIdeal.RTail

open Cert.ReferenceIdeal Cert.ReferenceIdeal.ReadP Cert.RowSpec Idealize.ShloMosaic Idealize.ShloMosaic.ValueIdx Cert.ReferenceIdeal.RRow Cert.ReferenceIdeal.RScatter Cert.ReferenceIdeal.RConf Cert.ReferenceIdeal.RLast

variable (X : (⟨S4000000x5, .f32⟩ : BufTy).Contents (Elt Ideal)) (T : (⟨S4000000, .i32⟩ : BufTy).Contents (Elt Ideal))

/-! ## Indices -/

/-- A sum over the indices of a four-entry vector is the sum over its coordinate. -/
theorem sum_S4 (f : S4.Idx → EReal) : ∑ j : S4.Idx, f j = ∑ i : Fin 4, f (ix1 i) :=
  (Equiv.sum_comp (idxEquiv1 (n := 4)).symm f).symm

/-- The first four entries of a five-entry vector sit at the same coordinate. -/
theorem idx20_ix1 (i : Fin 4) : idx_main_v20 (ix1 i) = ix1 (up i) := by
  funext d; match d with | ⟨0, _⟩ => rfl

theorem idx124_ix1 (i : Fin 4) : idx_main_v124 (ix1 i) = ix1 (up i) := by
  funext d; match d with | ⟨0, _⟩ => rfl

theorem idx127_ix1 (i : Fin 4) : idx_main_v127 (ix1 i) = ix1 (up i) := by
  funext d; match d with | ⟨0, _⟩ => rfl

theorem idx37_ix1 (i : Fin 4) : idx_main_v37 (ix1 i) = ix1 (up i) := by
  funext d; match d with | ⟨0, _⟩ => rfl

/-- The last entry of a five-entry vector. -/
theorem idx115_ix1 (i : Fin 1) : idx_main_v115 (ix1 i) = ix1 last := by
  funext d; match d with | ⟨0, _⟩ => exact Fin.ext (by show 4 + i.val = 4; omega)

/-! ## The class vectors' first four entries -/

/-- The empirical prior `%22` at a positive class. -/
theorem v22_at (i : Fin 4) :
    val_main_v22 (F := Ideal) T (ix1 i) = Ideal.div (val_main_v19 (F := Ideal) T (ix1 (up i))) rowsW := by
  rw [val_main_v22_apply, val_main_v20_apply, val_main_v21_apply, val_main_cst_5_apply, idx20_ix1]
  rfl

/-- The count at least one `%126` at a positive class. -/
theorem v126_at (i : Fin 4) :
    val_main_v126 (F := Ideal) T (ix1 i) = max oneW (val_main_v19 (F := Ideal) T (ix1 (up i))) := by
  rw [val_main_v126_apply, val_main_v124_apply, val_main_v125_apply, val_main_cst_38_apply, idx124_ix1]
  rfl

/-- The class loss `%127` at a positive class. -/
theorem v127_at (i : Fin 4) :
    val_main_v127 (F := Ideal) X T (ix1 i) = val_main_v32 (F := Ideal) X T (ix1 (up i)) := by
  rw [val_main_v127_apply, idx127_ix1]

/-- The loss against the last class `%37` at a positive class. -/
theorem v37_at (i : Fin 4) :
    val_main_v37 (F := Ideal) X T (ix1 i) = val_main_v36 (F := Ideal) X T (ix1 (up i)) := by
  rw [val_main_v37_apply, idx37_ix1]

/-! ## The sums over the rows are the specification's twenty-three sums -/

/-- The count of a positive class. -/
theorem cnt_at (i : Fin 4) :
    val_main_v19 (F := Ideal) T (ix1 (up i)) = rowSums X T ⟨i.val, by omega⟩ := by
  rw [counts_apply]; unfold rowSums
  exact Finset.sum_congr rfl fun n _ => (rowTerm_count (rowOf X n) (T (ix1 n)) (up i)).symm

/-- The count of the last class. -/
theorem cnt_last :
    val_main_v19 (F := Ideal) T (ix1 last) = rowSums X T ⟨4, by omega⟩ := by
  rw [counts_apply]; unfold rowSums
  exact Finset.sum_congr rfl fun n _ => (rowTerm_count (rowOf X n) (T (ix1 n)) last).symm

/-- The loss of a positive class. -/
theorem closs_at (i : Fin 4) :
    val_main_v32 (F := Ideal) X T (ix1 (up i)) = rowSums X T ⟨5 + i.val, by omega⟩ := by
  rw [closs_apply]; unfold rowSums
  exact Finset.sum_congr rfl fun n _ => (rowTerm_closs (rowOf X n) (T (ix1 n)) (up i)).symm

/-- The loss of a positive class against the last class. -/
theorem lossneg_at (i : Fin 4) :
    val_main_v36 (F := Ideal) X T (ix1 (up i)) = rowSums X T ⟨10 + i.val, by omega⟩ := by
  rw [lossneg_apply]; unfold rowSums
  exact Finset.sum_congr rfl fun n _ => (rowTerm_lossneg (rowOf X n) (T (ix1 n)) i).symm

/-- The selection count of a positive class. -/
theorem sel_at (i : Fin 4) :
    ∑ n : Fin 4000000, sel (rowOf X n) (T (ix1 n)) i = rowSums X T ⟨14 + i.val, by omega⟩ := by
  unfold rowSums
  exact Finset.sum_congr rfl fun n _ => (rowTerm_sel (rowOf X n) (T (ix1 n)) i).symm

/-- The confidence sum of a positive class. -/
theorem ratio_at (i : Fin 4) :
    ∑ n : Fin 4000000, ratio (rowOf X n) (T (ix1 n)) i = rowSums X T ⟨18 + i.val, by omega⟩ := by
  unfold rowSums
  exact Finset.sum_congr rfl fun n _ => (rowTerm_ratio (rowOf X n) (T (ix1 n)) i).symm

/-- The last-class confidence sum. -/
theorem last_at :
    val_main_v114 (F := Ideal) X T ix0 = rowSums X T ⟨22, by omega⟩ := by
  rw [lin]; unfold rowSums
  exact Finset.sum_congr rfl fun n _ => (rowTerm_lastConf (rowOf X n) (T (ix1 n))).symm

/-! ## The prior and the bounded count -/

theorem prior_at (i : Fin 4) :
    val_main_v22 (F := Ideal) T (ix1 i) = prior (rowSums X T) i := by
  rw [v22_at, cnt_at X T]; rfl

theorem cntMax_at (i : Fin 4) :
    val_main_v126 (F := Ideal) T (ix1 i) = cntMax (rowSums X T) i := by
  rw [v126_at, cnt_at X T]; rfl

/-! ## The weighted class losses `%130` and `%135` -/

theorem v129_at (i : Fin 4) :
    val_main_v129 (F := Ideal) X T (ix1 i)
      = Ideal.div (prior (rowSums X T) i * rowSums X T ⟨5 + i.val, by omega⟩) (cntMax (rowSums X T) i) := by
  rw [val_main_v129_apply, val_main_v128_apply, prior_at X T, v127_at, closs_at, cntMax_at X T]; rfl

theorem v130_at (j : S_.Idx) :
    val_main_v130 (F := Ideal) X T j
      = zeroW + ∑ i : Fin 4, Ideal.div (prior (rowSums X T) i * rowSums X T ⟨5 + i.val, by omega⟩) (cntMax (rowSums X T) i) := by
  rw [val_main_v130_apply, sum_S4, val_main_cst_39_apply]
  exact congrArg (fun s => zeroW + s) (Finset.sum_congr rfl fun i _ => v129_at X T i)

theorem v134_at (i : Fin 4) :
    val_main_v134 (F := Ideal) X T (ix1 i)
      = Ideal.div (prior (rowSums X T) i * rowSums X T ⟨10 + i.val, by omega⟩) (cntMax (rowSums X T) i) := by
  rw [val_main_v134_apply, val_main_v133_apply, prior_at X T, v37_at, lossneg_at, cntMax_at X T]; rfl

theorem v135_at (j : S_.Idx) :
    val_main_v135 (F := Ideal) X T j
      = zeroW + ∑ i : Fin 4, Ideal.div (prior (rowSums X T) i * rowSums X T ⟨10 + i.val, by omega⟩) (cntMax (rowSums X T) i) := by
  rw [val_main_v135_apply, sum_S4, val_main_cst_41_apply]
  exact congrArg (fun s => zeroW + s) (Finset.sum_congr rfl fun i _ => v134_at X T i)

/-! ## The four confidence quotients and their joined vector `%123` -/

theorem v54_at (j : S_.Idx) :
    val_main_v54 (F := Ideal) X T j
      = Ideal.div (rowSums X T ⟨18 + (⟨0, by omega⟩ : Fin 4).val, by omega⟩) (max (rowSums X T ⟨14 + (⟨0, by omega⟩ : Fin 4).val, by omega⟩) oneW) := by
  obtain rfl := eq_ix0 j
  rw [val_main_v54_apply, val_main_v53_apply, val_main_cst_13_apply, li0, nsel0, ratio_at, sel_at]; rfl

theorem v71_at (j : S_.Idx) :
    val_main_v71 (F := Ideal) X T j
      = Ideal.div (rowSums X T ⟨18 + (⟨1, by omega⟩ : Fin 4).val, by omega⟩) (max (rowSums X T ⟨14 + (⟨1, by omega⟩ : Fin 4).val, by omega⟩) oneW) := by
  obtain rfl := eq_ix0 j
  rw [val_main_v71_apply, val_main_v70_apply, val_main_cst_19_apply, li1, nsel1, ratio_at, sel_at]; rfl

theorem v88_at (j : S_.Idx) :
    val_main_v88 (F := Ideal) X T j
      = Ideal.div (rowSums X T ⟨18 + (⟨2, by omega⟩ : Fin 4).val, by omega⟩) (max (rowSums X T ⟨14 + (⟨2, by omega⟩ : Fin 4).val, by omega⟩) oneW) := by
  obtain rfl := eq_ix0 j
  rw [val_main_v88_apply, val_main_v87_apply, val_main_cst_25_apply, li2, nsel2, ratio_at, sel_at]; rfl

theorem v105_at (j : S_.Idx) :
    val_main_v105 (F := Ideal) X T j
      = Ideal.div (rowSums X T ⟨18 + (⟨3, by omega⟩ : Fin 4).val, by omega⟩) (max (rowSums X T ⟨14 + (⟨3, by omega⟩ : Fin 4).val, by omega⟩) oneW) := by
  obtain rfl := eq_ix0 j
  rw [val_main_v105_apply, val_main_v104_apply, val_main_cst_31_apply, li3, nsel3, ratio_at, sel_at]; rfl

/-- Four one-entry pieces joined: entry `k` is piece `k`'s entry. -/
theorem cat4_at {α : Type} (y0 y1 y2 y3 : S1.Idx → α) (k : Nat) (hk : k < 4) (y : S1.Idx → α)
    (hy : ([⟨S1, y0⟩, ⟨S1, y1⟩, ⟨S1, y2⟩, ⟨S1, y3⟩] : List ((s : Shape) × (s.Idx → α)))[k]'hk = ⟨S1, y⟩) :
    concatenate S4 (0 : Fin S4.rank) [⟨S1, y0⟩, ⟨S1, y1⟩, ⟨S1, y2⟩, ⟨S1, y3⟩] Gen.concatenates_S1_S1_S1_S1_S4_d0 (ix1 (⟨k, hk⟩ : Fin 4))
      = y (ix1 (0 : Fin 1)) := by
  refine concatenate_apply_piece (0 : Fin S4.rank) ([⟨S1, y0⟩, ⟨S1, y1⟩, ⟨S1, y2⟩, ⟨S1, y3⟩] : List ((s : Shape) × (s.Idx → α)))
    Gen.concatenates_S1_S1_S1_S1_S4_d0 (ix1 (⟨k, hk⟩ : Fin 4)) k hk S1 y hy rfl k ?_ (ix1 (0 : Fin 1))
    (fun b hb => absurd (Subsingleton.elim _ _) hb) ?_
  · match k, hk with
    | 0, _ => rfl
    | 1, _ => rfl
    | 2, _ => rfl
    | 3, _ => rfl
  · show k + 0 = k; omega

theorem v123_at (i : Fin 4) :
    val_main_v123 (F := Ideal) X T (ix1 i)
      = Ideal.div (rowSums X T ⟨18 + i.val, by omega⟩) (max (rowSums X T ⟨14 + i.val, by omega⟩) oneW) := by
  unfold val_main_v123
  match i with
  | ⟨0, h⟩ => exact (cat4_at _ _ _ _ 0 h _ rfl).trans ((val_main_v119_apply X T _).trans (v54_at X T _))
  | ⟨1, h⟩ => exact (cat4_at _ _ _ _ 1 h _ rfl).trans ((val_main_v120_apply X T _).trans (v71_at X T _))
  | ⟨2, h⟩ => exact (cat4_at _ _ _ _ 2 h _ rfl).trans ((val_main_v121_apply X T _).trans (v88_at X T _))
  | ⟨3, h⟩ => exact (cat4_at _ _ _ _ 3 h _ rfl).trans ((val_main_v122_apply X T _).trans (v105_at X T _))

theorem v131_at (i : Fin 4) :
    val_main_v131 (F := Ideal) X T (ix1 i)
      = prior (rowSums X T) i * Ideal.div (rowSums X T ⟨18 + i.val, by omega⟩) (max (rowSums X T ⟨14 + i.val, by omega⟩) oneW) := by
  rw [val_main_v131_apply, prior_at X T, v123_at]; rfl

theorem v132_at (j : S_.Idx) :
    val_main_v132 (F := Ideal) X T j
      = zeroW + ∑ i : Fin 4, prior (rowSums X T) i * Ideal.div (rowSums X T ⟨18 + i.val, by omega⟩) (max (rowSums X T ⟨14 + i.val, by omega⟩) oneW) := by
  rw [val_main_v132_apply, sum_S4, val_main_cst_40_apply]
  exact congrArg (fun s => zeroW + s) (Finset.sum_congr rfl fun i _ => v131_at X T i)

/-! ## The last-class term `%118` -/

/-- The one-entry count of the last class, as a scalar. -/
theorem v116_at (j : S_.Idx) :
    val_main_v116 (F := Ideal) T j = val_main_v19 (F := Ideal) T (ix1 last) := by
  unfold val_main_v116
  refine (shapeCast_apply (val_main_v115 (F := Ideal) T) Gen.shapeCasts_S1_S_ j (ix1 (0 : Fin 1)) ?_).trans ?_
  · have h1 : (S1.rowMajor (ix1 (0 : Fin 1))).val = ((ix1 (0 : Fin 1) : S1.Idx) 0).val := Shape.rowMajor_val_one _
    have h2 : (S_.rowMajor j).val = 0 := Shape.rowMajorPi_zero _ j
    rw [h1, h2]; rfl
  · rw [val_main_v115_apply, idx115_ix1]

theorem v118_at (j : S_.Idx) :
    val_main_v118 (F := Ideal) X T j
      = Ideal.div (rowSums X T ⟨22, by omega⟩) (max (rowSums X T ⟨4, by omega⟩) oneW) := by
  obtain rfl := eq_ix0 j
  rw [val_main_v118_apply, val_main_v117_apply, val_main_cst_37_apply, v116_at, cnt_last X T, last_at]; rfl

/-! ## The scalar tail -/

theorem v138_at (j : S_.Idx) :
    val_main_v138 (F := Ideal) X T j
      = fourW * (((zeroW + ∑ i : Fin 4, Ideal.div (prior (rowSums X T) i * rowSums X T ⟨5 + i.val, by omega⟩) (cntMax (rowSums X T) i))
        + (zeroW + ∑ i : Fin 4, prior (rowSums X T) i * Ideal.div (rowSums X T ⟨18 + i.val, by omega⟩) (max (rowSums X T ⟨14 + i.val, by omega⟩) oneW)))
        - (zeroW + ∑ i : Fin 4, Ideal.div (prior (rowSums X T) i * rowSums X T ⟨10 + i.val, by omega⟩) (cntMax (rowSums X T) i))) := by
  rw [val_main_v138_apply, val_main_cst_42_apply, val_main_v137_apply, val_main_v136_apply, v130_at, v132_at, v135_at]; rfl

/-- The reference's result stage is the loss of the batch. -/
theorem v141_eq : val_main_v141 (F := Ideal) X T = fun _ => total X T := by
  funext j
  rw [val_main_v141_apply, val_main_v140_apply, val_main_v139_apply, val_main_call6_v0_apply, val_main_cst_44_apply,
    val_main_cst_43_apply, v138_at, v118_at]
  unfold total tailOf
  rfl

end Cert.ReferenceIdeal.RTail

end
-- ==== Proof.lean ====
/-
  The two programs compute one loss. Over the extended reals both reduce 4,000,000 rows of five logits and a label to
  twenty-three sums — class counts, class losses, losses against the last class, selection counts, confidence ratios and the
  last-class confidence — and apply the same scalar formula to them. The kernel pads the rows to a multiple of 8192 with the
  label 5, which no class matches, accumulates the sums block by block and lets the host finish; the reference takes segment
  sums (a label outside the classes is dropped by the scatter, as the kernel's comparison against the class numbers ignores
  it) and masked sums. Sums over the rows are re-ordered freely: addition on the extended reals is commutative and associative,
  and a row that is not selected contributes an exact zero, so no finiteness of the logits is used.
-/
import proofs.«420255_j67396626809312_1_alg».proof.Defs
import proofs.«420255_j67396626809312_1_alg».proof.Proof.Gen.Kernel
import proofs.«420255_j67396626809312_1_alg».proof.Proof.Gen.Kernel.Skeleton
import proofs.«420255_j67396626809312_1_alg».proof.Proof.Gen.Kernel.Launch
import proofs.«420255_j67396626809312_1_alg».proof.Proof.Gen.Kernel.Points
import proofs.«420255_j67396626809312_1_alg».proof.Proof.Gen.Kernel.Frame
import proofs.«420255_j67396626809312_1_alg».proof.Proof.Gen.KernelIdeal
import proofs.«420255_j67396626809312_1_alg».proof.Proof.Gen.KernelIdeal.Skeleton
import proofs.«420255_j67396626809312_1_alg».proof.Proof.Gen.KernelIdeal.Launch
import proofs.«420255_j67396626809312_1_alg».proof.Proof.Gen.KernelIdeal.Points
import proofs.«420255_j67396626809312_1_alg».proof.Proof.Gen.KernelIdeal.Frame
import proofs.«420255_j67396626809312_1_alg».proof.Proof.Gen.ReferenceIdeal
import proofs.«420255_j67396626809312_1_alg».proof.Proof.Gen.Pre_finite_inputs
import proofs.«420255_j67396626809312_1_alg».proof.Proof.RefRun
import proofs.«420255_j67396626809312_1_alg».proof.Proof.RefRead
import proofs.«420255_j67396626809312_1_alg».proof.Proof.RefRunBy
import proofs.«420255_j67396626809312_1_alg».proof.Proof.KRun
import proofs.«420255_j67396626809312_1_alg».proof.Proof.RTail
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Stages.run (F := Ideal) m ρ)

/-- Both runs end at the loss of the batch: the kernel's by the accumulation over the grid and its host tail, the
    reference's by its stages read down to the same row sums; the arguments agree, so the two losses are one number. -/
theorem algebraic : Cert.algebraic_KernelIdeal_ReferenceIdeal := by
  intro m ρ m' ρ' _ hagree
  refine ⟨fun c => fun _ => Cert.KernelIdeal.KRun.lossOf m c, Cert.KernelIdeal.KRun.run m ρ, ?_⟩
  refine (θ_run Cert.ReferenceIdeal.defs _ _).mono (fun _ h c => ⟨(h c).1.trans ?_, (h c).2⟩)
    (Cert.ReferenceIdeal.Stages.run (F := Ideal) m' ρ')
  rw [Cert.ReferenceIdeal.RTail.v141_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
